-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S_ : Shape := ⟨0, ![]⟩

class Facts : Prop where
  bcast_S_S128x200x8 : S_.BroadcastsInDim S128x200x8 (![] : Fin 0 → Fin S128x200x8.rank)
  reducesTo_S128x200x8_S_d0_1_2 : S128x200x8.ReducesTo [0, 1, 2] S_
  h_S_ : 0 < S_.numel
  bcast_S_S8x256 : S_.BroadcastsInDim S8x256 (![] : Fin 0 → Fin S8x256.rank)
  reducesTo_S8x256_S_d0_1 : S8x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S512x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x200x8 .f32) (main_arg1 : FVec F S8x256 .f32) (main_arg2 : FVec F S256 .f32) (main_arg3 : FVec F S512x256 .f32) (main_arg4 : FVec F S256 .f32) (main_arg5 : FVec F S512x256 .f32) (main_arg6 : FVec F S256 .f32) (main_arg7 : FVec F S512x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S128x200x8 .f32 := Host.absf main_arg0
  let main_cst : FVec F S_ .f32 := constant S_ .f32 0x7F800000#32
  let main_v1 : FVec F S128x200x8 .f32 := broadcastInDim S128x200x8 ![] bcast_S_S128x200x8 main_cst
  let main_v2 : IVec S128x200x8 1 := cmpf .olt main_v0 main_v1
  let main_c : IVec S_ 1 := constantI S_ 1 1#1
  let main_v3 : IVec S_ 1 := (fun x v => Host.reduce IntOp.andi x v reducesTo_S128x200x8_S_d0_1_2 h_S_) main_v2 main_c
  let main_v4 : FVec F S8x256 .f32 := Host.absf main_arg1
  let main_cst_0 : FVec F S_ .f32 := constant S_ .f32 0x7F800000#32
  let main_v5 : FVec F S8x256 .f32 := broadcastInDim S8x256 ![] bcast_S_S8x256 main_cst_0
  let main_v6 : IVec S8x256 1 := cmpf .olt main_v4 main_v5
  let main_c_1 : IVec S_ 1 := constantI S_ 1 1#1
  let main_v7 : IVec S_ 1 := (fun x v => Host.reduce IntOp.andi x v reducesTo_S8x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_arg11 main_arg12 main_v13 main_v16
-- ==== Kernel.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S1x256 : Shape := ⟨2, ![1, 256]⟩
abbrev S128x1x256 : Shape := ⟨3, ![128, 1, 256]⟩
abbrev S128x200x200 : Shape := ⟨3, ![128, 200, 200]⟩
abbrev S16x200x8 : Shape := ⟨3, ![16, 200, 8]⟩
abbrev S16x1x256 : Shape := ⟨3, ![16, 1, 256]⟩
abbrev S16x200x200 : Shape := ⟨3, ![16, 200, 200]⟩
abbrev S1x200x8 : Shape := ⟨3, ![1, 200, 8]⟩
abbrev S200x8 : Shape := ⟨2, ![200, 8]⟩
abbrev S200x256 : Shape := ⟨2, ![200, 256]⟩
abbrev S200x200 : Shape := ⟨2, ![200, 200]⟩
abbrev S200 : Shape := ⟨1, ![200]⟩
abbrev S200x1 : Shape := ⟨2, ![200, 1]⟩
abbrev S1x1x256 : Shape := ⟨3, ![1, 1, 256]⟩
abbrev S1x200x200 : Shape := ⟨3, ![1, 200, 200]⟩
abbrev S128x256 : Shape := ⟨2, ![128, 256]⟩

abbrev nBuf : Space → Nat
  | .hbm => 22
  | .vmem => 18
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S128x1x256, .f32⟩
  | .hbm, ⟨20, _⟩ => ⟨S128x200x200, .f32⟩
  | .hbm, ⟨21, _⟩ => ⟨S128x256, .f32⟩
  | .local _ .vmem, ⟨0, _⟩ => ⟨S16x200x8, .f32⟩
  | .local _ .vmem, ⟨1, _⟩ => ⟨S16x200x8, .f32⟩
  | .local _ .vmem, ⟨2, _⟩ => ⟨S8x256, .f32⟩
  | .local _ .vmem, ⟨3, _⟩ => ⟨S1x256, .f32⟩
  | .local _ .vmem, ⟨4, _⟩ => ⟨S512x256, .f32⟩
  | .local _ .vmem, ⟨5, _⟩ => ⟨S1x256, .f32⟩
  | .local _ .vmem, ⟨6, _⟩ => ⟨S512x256, .f32⟩
  | .local _ .vmem, ⟨7, _⟩ => ⟨S1x256, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S16x1x256, .f32⟩
  | .local _ .vmem, ⟨15, _⟩ => ⟨S16x1x256, .f32⟩
  | .local _ .vmem, ⟨16, _⟩ => ⟨S16x200x200, .f32⟩
  | .local _ .vmem, ⟨17, _⟩ => ⟨S16x200x200, .f32⟩
  | _, _ => ⟨S128x200x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x200x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x200x200 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S256_S1x256 : S256.ShapeCasts S1x256
  inb_S8x256_S8x256_0_0 : ∀ a, (![0, 0] : Fin 2 → Nat) a + S8x256.size a ≤ S8x256.size a
  h_S8x256 : 0 < S8x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S512x256_S512x256_0_0 : ∀ a, (![0, 0] : Fin 2 → Nat) a + S512x256.size a ≤ S512x256.size a
  h_S512x256 : 0 < S512x256.numel
  inb_S256x256_S256x256_0_0 : ∀ a, (![0, 0] : Fin 2 → Nat) a + S256x256.size a ≤ S256x256.size a
  h_S256x256 : 0 < S256x256.numel
  inb_S16x200x8_S1x200x8_0_0_0 : ∀ a, (![0, 0, 0] : Fin 3 → Nat) a + S1x200x8.size a ≤ S16x200x8.size a
  h_S1x200x8 : 0 < S1x200x8.numel
  shapeCasts_S1x200x8_S200x8 : S1x200x8.ShapeCasts S200x8
  broadcasts_S1x256_S200x256 : S1x256.Broadcasts S200x256
  inb_S16x200x8_S1x200x8_1_0_0 : ∀ a, (![1, 0, 0] : Fin 3 → Nat) a + S1x200x8.size a ≤ S16x200x8.size a
  inb_S16x200x8_S1x200x8_2_0_0 : ∀ a, (![2, 0, 0] : Fin 3 → Nat) a + S1x200x8.size a ≤ S16x200x8.size a
  inb_S16x200x8_S1x200x8_3_0_0 : ∀ a, (![3, 0, 0] : Fin 3 → Nat) a + S1x200x8.size a ≤ S16x200x8.size a
  inb_S16x200x8_S1x200x8_4_0_0 : ∀ a, (![4, 0, 0] : Fin 3 → Nat) a + S1x200x8.size a ≤ S16x200x8.size a
  inb_S16x200x8_S1x200x8_5_0_0 : ∀ a, (![5, 0, 0] : Fin 3 → Nat) a + S1x200x8.size a ≤ S16x200x8.size a
  inb_S16x200x8_S1x200x8_6_0_0 : ∀ a, (![6, 0, 0] : Fin 3 → Nat) a + S1x200x8.size a ≤ S16x200x8.size a
  inb_S16x200x8_S1x200x8_7_0_0 : ∀ a, (![7, 0, 0] : Fin 3 → Nat) a + S1x200x8.size a ≤ S16x200x8.size a
  inb_S16x200x8_S1x200x8_8_0_0 : ∀ a, (![8, 0, 0] : Fin 3 → Nat) a + S1x200x8.size a ≤ S16x200x8.size a
  inb_S16x200x8_S1x200x8_9_0_0 : ∀ a, (![9, 0, 0] : Fin 3 → Nat) a + S1x200x8.size a ≤ S16x200x8.size a
  inb_S16x200x8_S1x200x8_10_0_0 : ∀ a, (![10, 0, 0] : Fin 3 → Nat) a + S1x200x8.size a ≤ S16x200x8.size a
  inb_S16x200x8_S1x200x8_11_0_0 : ∀ a, (![11, 0, 0] : Fin 3 → Nat) a + S1x200x8.size a ≤ S16x200x8.size a
  inb_S16x200x8_S1x200x8_12_0_0 : ∀ a, (![12, 0, 0] : Fin 3 → Nat) a + S1x200x8.size a ≤ S16x200x8.size a
  inb_S16x200x8_S1x200x8_13_0_0 : ∀ a, (![13, 0, 0] : Fin 3 → Nat) a + S1x200x8.size a ≤ S16x200x8.size a
  inb_S16x200x8_S1x200x8_14_0_0 : ∀ a, (![14, 0, 0] : Fin 3 → Nat) a + S1x200x8.size a ≤ S16x200x8.size a
  inb_S16x200x8_S1x200x8_15_0_0 : ∀ a, (![15, 0, 0] : Fin 3 → Nat) a + S1x200x8.size a ≤ S16x200x8.size a
  reduces_S200x200_S200 : S200x200.Reduces [1] S200
  shapeCasts_S200_S200x1 : S200.ShapeCasts S200x1
  broadcasts_S200x1_S200x200 : S200x1.Broadcasts S200x200
  slices_S512x256_o0_0_S256x256 : S512x256.Slices ![0, 0] S256x256
  slices_S512x256_o256_0_S256x256 : S512x256.Slices ![256, 0] S256x256
  reduces_S200x256_S256 : S200x256.Reduces [0] S256
  inb_S16x1x256_S1x1x256_0_0_0 : ∀ a, (![0, 0, 0] : Fin 3 → Nat) a + S1x1x256.size a ≤ S16x1x256.size a
  h_S1x1x256 : 0 < S1x1x256.numel
  shapeCasts_S1x1x256_S1x256 : S1x1x256.ShapeCasts S1x256
  shapeCasts_S1x256_S1x1x256 : S1x256.ShapeCasts S1x1x256
  inb_S16x200x200_S1x200x200_0_0_0 : ∀ a, (![0, 0, 0] : Fin 3 → Nat) a + S1x200x200.size a ≤ S16x200x200.size a
  h_S1x200x200 : 0 < S1x200x200.numel
  shapeCasts_S1x200x200_S200x200 : S1x200x200.ShapeCasts S200x200
  shapeCasts_S200x200_S1x200x200 : S200x200.ShapeCasts S1x200x200
  inb_S16x1x256_S1x1x256_1_0_0 : ∀ a, (![1, 0, 0] : Fin 3 → Nat) a + S1x1x256.size a ≤ S16x1x256.size a
  inb_S16x200x200_S1x200x200_1_0_0 : ∀ a, (![1, 0, 0] : Fin 3 → Nat) a + S1x200x200.size a ≤ S16x200x200.size a
  inb_S16x1x256_S1x1x256_2_0_0 : ∀ a, (![2, 0, 0] : Fin 3 → Nat) a + S1x1x256.size a ≤ S16x1x256.size a
  inb_S16x200x200_S1x200x200_2_0_0 : ∀ a, (![2, 0, 0] : Fin 3 → Nat) a + S1x200x200.size a ≤ S16x200x200.size a
  inb_S16x1x256_S1x1x256_3_0_0 : ∀ a, (![3, 0, 0] : Fin 3 → Nat) a + S1x1x256.size a ≤ S16x1x256.size a
  inb_S16x200x200_S1x200x200_3_0_0 : ∀ a, (![3, 0, 0] : Fin 3 → Nat) a + S1x200x200.size a ≤ S16x200x200.size a
  inb_S16x1x256_S1x1x256_4_0_0 : ∀ a, (![4, 0, 0] : Fin 3 → Nat) a + S1x1x256.size a ≤ S16x1x256.size a
  inb_S16x200x200_S1x200x200_4_0_0 : ∀ a, (![4, 0, 0] : Fin 3 → Nat) a + S1x200x200.size a ≤ S16x200x200.size a
  inb_S16x1x256_S1x1x256_5_0_0 : ∀ a, (![5, 0, 0] : Fin 3 → Nat) a + S1x1x256.size a ≤ S16x1x256.size a
  inb_S16x200x200_S1x200x200_5_0_0 : ∀ a, (![5, 0, 0] : Fin 3 → Nat) a + S1x200x200.size a ≤ S16x200x200.size a
  inb_S16x1x256_S1x1x256_6_0_0 : ∀ a, (![6, 0, 0] : Fin 3 → Nat) a + S1x1x256.size a ≤ S16x1x256.size a
  inb_S16x200x200_S1x200x200_6_0_0 : ∀ a, (![6, 0, 0] : Fin 3 → Nat) a + S1x200x200.size a ≤ S16x200x200.size a
  inb_S16x1x256_S1x1x256_7_0_0 : ∀ a, (![7, 0, 0] : Fin 3 → Nat) a + S1x1x256.size a ≤ S16x1x256.size a
  inb_S16x200x200_S1x200x200_7_0_0 : ∀ a, (![7, 0, 0] : Fin 3 → Nat) a + S1x200x200.size a ≤ S16x200x200.size a
  inb_S16x1x256_S1x1x256_8_0_0 : ∀ a, (![8, 0, 0] : Fin 3 → Nat) a + S1x1x256.size a ≤ S16x1x256.size a
  inb_S16x200x200_S1x200x200_8_0_0 : ∀ a, (![8, 0, 0] : Fin 3 → Nat) a + S1x200x200.size a ≤ S16x200x200.size a
  inb_S16x1x256_S1x1x256_9_0_0 : ∀ a, (![9, 0, 0] : Fin 3 → Nat) a + S1x1x256.size a ≤ S16x1x256.size a
  inb_S16x200x200_S1x200x200_9_0_0 : ∀ a, (![9, 0, 0] : Fin 3 → Nat) a + S1x200x200.size a ≤ S16x200x200.size a
  inb_S16x1x256_S1x1x256_10_0_0 : ∀ a, (![10, 0, 0] : Fin 3 → Nat) a + S1x1x256.size a ≤ S16x1x256.size a
  inb_S16x200x200_S1x200x200_10_0_0 : ∀ a, (![10, 0, 0] : Fin 3 → Nat) a + S1x200x200.size a ≤ S16x200x200.size a
  inb_S16x1x256_S1x1x256_11_0_0 : ∀ a, (![11, 0, 0] : Fin 3 → Nat) a + S1x1x256.size a ≤ S16x1x256.size a
  inb_S16x200x200_S1x200x200_11_0_0 : ∀ a, (![11, 0, 0] : Fin 3 → Nat) a + S1x200x200.size a ≤ S16x200x200.size a
  inb_S16x1x256_S1x1x256_12_0_0 : ∀ a, (![12, 0, 0] : Fin 3 → Nat) a + S1x1x256.size a ≤ S16x1x256.size a
  inb_S16x200x200_S1x200x200_12_0_0 : ∀ a, (![12, 0, 0] : Fin 3 → Nat) a + S1x200x200.size a ≤ S16x200x200.size a
  inb_S16x1x256_S1x1x256_13_0_0 : ∀ a, (![13, 0, 0] : Fin 3 → Nat) a + S1x1x256.size a ≤ S16x1x256.size a
  inb_S16x200x200_S1x200x200_13_0_0 : ∀ a, (![13, 0, 0] : Fin 3 → Nat) a + S1x200x200.size a ≤ S16x200x200.size a
  inb_S16x1x256_S1x1x256_14_0_0 : ∀ a, (![14, 0, 0] : Fin 3 → Nat) a + S1x1x256.size a ≤ S16x1x256.size a
  inb_S16x200x200_S1x200x200_14_0_0 : ∀ a, (![14, 0, 0] : Fin 3 → Nat) a + S1x200x200.size a ≤ S16x200x200.size a
  inb_S16x1x256_S1x1x256_15_0_0 : ∀ a, (![15, 0, 0] : Fin 3 → Nat) a + S1x1x256.size a ≤ S16x1x256.size a
  inb_S16x200x200_S1x200x200_15_0_0 : ∀ a, (![15, 0, 0] : Fin 3 → Nat) a + S1x200x200.size a ≤ S16x200x200.size a
  shapeCasts_S128x1x256_S128x256 : S128x1x256.ShapeCasts S128x256
  dot_S200x8_S8x256_S200x256_1_0_0_1_n_n_wf : DotDims.WF S200x8 S8x256 S200x256 [1] [0] [0] [1] [] []
  dot_S200x256_S200x256_S200x200_1_1_0_0_n_n_wf : DotDims.WF S200x256 S200x256 S200x200 [1] [1] [0] [0] [] []
  dot_S200x200_S200x256_S200x256_1_0_0_1_n_n_wf : DotDims.WF S200x200 S200x256 S200x256 [1] [0] [0] [1] [] []
  dot_S200x256_S256x256_S200x256_1_0_0_1_n_n_wf : DotDims.WF S200x256 S256x256 S200x256 [1] [0] [0] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x200x8.size a ≤ S128x200x8.size a
  hwx0_0 : ∀ i : grid0.Coords, EltTy.bits .f32 = 32 ∨ (Rect.block (s := S128x200x8) S16x200x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x256.size a
  hwx0_1 : ∀ i : grid0.Coords, EltTy.bits .f32 = 32 ∨ (Rect.block (s := S8x256) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16x1x256.size a ≤ S128x1x256.size a
  hwx0_13 : ∀ i : grid0.Coords, EltTy.bits .f32 = 32 ∨ (Rect.block (s := S128x1x256) S16x1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S16x200x200.size a ≤ S128x200x200.size a
  hwx0_14 : ∀ i : grid0.Coords, EltTy.bits .f32 = 32 ∨ (Rect.block (s := S128x200x200) S16x200x200.size (cc0_transform_14 i) (hinb0_14 i)).WholeWords (EltTy.packing .f32)

variable [Facts₀]

def dot_S200x8_S8x256_S200x256_1_0_0_1_n_n : DotDims S200x8 S8x256 S200x256 where
  lhsContracting := [1]
  rhsContracting := [0]
  lhsNonContracting := [0]
  rhsNonContracting := [1]
  lhsBatch := []
  rhsBatch := []
  wf := dot_S200x8_S8x256_S200x256_1_0_0_1_n_n_wf
def dot_S200x256_S200x256_S200x200_1_1_0_0_n_n : DotDims S200x256 S200x256 S200x200 where
  lhsContracting := [1]
  rhsContracting := [1]
  lhsNonContracting := [0]
  rhsNonContracting := [0]
  lhsBatch := []
  rhsBatch := []
  wf := dot_S200x256_S200x256_S200x200_1_1_0_0_n_n_wf
def dot_S200x200_S200x256_S200x256_1_0_0_1_n_n : DotDims S200x200 S200x256 S200x256 where
  lhsContracting := [1]
  rhsContracting := [0]
  lhsNonContracting := [0]
  rhsNonContracting := [1]
  lhsBatch := []
  rhsBatch := []
  wf := dot_S200x200_S200x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S16x200x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6_0) S16x1x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6_1) S16x200x200.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x200x8 : Shape := ⟨3, ![128, 200, 8]⟩
abbrev S8x256 : Shape := ⟨2, ![8, 256]⟩
abbrev S256 : Shape := ⟨1, ![256]⟩
abbrev S512x256 : Shape := ⟨2, ![512, 256]⟩
abbrev S256x256 : Shape := ⟨2, ![256, 256]⟩
abbrev S128x200x256 : Shape := ⟨3, ![128, 200, 256]⟩
abbrev S1x1x256 : Shape := ⟨3, ![1, 1, 256]⟩
abbrev S_ : Shape := ⟨0, ![]⟩
abbrev S128x200x200 : Shape := ⟨3, ![128, 200, 200]⟩
abbrev S128x200 : Shape := ⟨2, ![128, 200]⟩
abbrev S128x200x1 : Shape := ⟨3, ![128, 200, 1]⟩
abbrev S128x200x512 : Shape := ⟨3, ![128, 200, 512]⟩
abbrev S128x256 : Shape := ⟨2, ![128, 256]⟩

abbrev nBuf : Space → Nat
  | .hbm => 106
  | .vmem => 0
  | .smem => 0
  | _ => 0

abbrev bufTy : (tb : Table) → Fin (tcTables nBuf tb) → BufTy
  | .hbm, ⟨0, _⟩ => ⟨S128x200x8, .f32⟩
  | .hbm, ⟨1, _⟩ => ⟨S8x256, .f32⟩
  | .hbm, ⟨2, _⟩ => ⟨S256, .f32⟩
  | .hbm, ⟨3, _⟩ => ⟨S512x256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S512x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S128x200x256, .f32⟩
  | .hbm, ⟨14, _⟩ => ⟨S1x1x256, .f32⟩
  | .hbm, ⟨15, _⟩ => ⟨S128x200x256, .f32⟩
  | .hbm, ⟨16, _⟩ => ⟨S128x200x256, .f32⟩
  | .hbm, ⟨17, _⟩ => ⟨S128x200x256, .f32⟩
  | .hbm, ⟨18, _⟩ => ⟨S_, .f32⟩
  | .hbm, ⟨19, _⟩ => ⟨S128x200x200, .f32⟩
  | .hbm, ⟨20, _⟩ => ⟨S128x200x200, .f32⟩
  | .hbm, ⟨21, _⟩ => ⟨S_, .f32⟩
  | .hbm, ⟨22, _⟩ => ⟨S128x200x200, .f32⟩
  | .hbm, ⟨23, _⟩ => ⟨S128x200x200, .f32⟩
  | .hbm, ⟨24, _⟩ => ⟨S_, .f32⟩
  | .hbm, ⟨25, _⟩ => ⟨S128x200, .f32⟩
  | .hbm, ⟨26, _⟩ => ⟨S_, .f32⟩
  | .hbm, ⟨27, _⟩ => ⟨S128x200, .f32⟩
  | .hbm, ⟨28, _⟩ => ⟨S128x200, .f32⟩
  | .hbm, ⟨29, _⟩ => ⟨S128x200x1, .f32⟩
  | .hbm, ⟨30, _⟩ => ⟨S128x200x200, .f32⟩
  | .hbm, ⟨31, _⟩ => ⟨S128x200x200, .f32⟩
  | .hbm, ⟨32, _⟩ => ⟨S128x200x200, .f32⟩
  | .hbm, ⟨33, _⟩ => ⟨S_, .f32⟩
  | .hbm, ⟨34, _⟩ => ⟨S128x200, .f32⟩
  | .hbm, ⟨35, _⟩ => ⟨S128x200x1, .f32⟩
  | .hbm, ⟨36, _⟩ => ⟨S128x200x200, .f32⟩
  | .hbm, ⟨37, _⟩ => ⟨S128x200x200, .f32⟩
  | .hbm, ⟨38, _⟩ => ⟨S128x200x256, .f32⟩
  | .hbm, ⟨39, _⟩ => ⟨S128x200x512, .f32⟩
  | .hbm, ⟨40, _⟩ => ⟨S128x200x256, .f32⟩
  | .hbm, ⟨41, _⟩ => ⟨S1x1x256, .f32⟩
  | .hbm, ⟨42, _⟩ => ⟨S128x200x256, .f32⟩
  | .hbm, ⟨43, _⟩ => ⟨S128x200x256, .f32⟩
  | .hbm, ⟨44, _⟩ => ⟨S128x200x256, .f32⟩
  | .hbm, ⟨45, _⟩ => ⟨S128x200x200, .f32⟩
  | .hbm, ⟨46, _⟩ => ⟨S_, .f32⟩
  | .hbm, ⟨47, _⟩ => ⟨S128x200x200, .f32⟩
  | .hbm, ⟨48, _⟩ => ⟨S128x200x200, .f32⟩
  | .hbm, ⟨49, _⟩ => ⟨S_, .f32⟩
  | .hbm, ⟨50, _⟩ => ⟨S128x200, .f32⟩
  | .hbm, ⟨51, _⟩ => ⟨S_, .f32⟩
  | .hbm, ⟨52, _⟩ => ⟨S128x200, .f32⟩
  | .hbm, ⟨53, _⟩ => ⟨S128x200, .f32⟩
  | .hbm, ⟨54, _⟩ => ⟨S128x200x1, .f32⟩
  | .hbm, ⟨55, _⟩ => ⟨S128x200x200, .f32⟩
  | .hbm, ⟨56, _⟩ => ⟨S128x200x200, .f32⟩
  | .hbm, ⟨57, _⟩ => ⟨S128x200x200, .f32⟩
  | .hbm, ⟨58, _⟩ => ⟨S_, .f32⟩
  | .hbm, ⟨59, _⟩ => ⟨S128x200, .f32⟩
  | .hbm, ⟨60, _⟩ => ⟨S128x200x1, .f32⟩
  | .hbm, ⟨61, _⟩ => ⟨S128x200x200, .f32⟩
  | .hbm, ⟨62, _⟩ => ⟨S128x200x200, .f32⟩
  | .hbm, ⟨63, _⟩ => ⟨S128x200x256, .f32⟩
  | .hbm, ⟨64, _⟩ => ⟨S128x200x512, .f32⟩
  | .hbm, ⟨65, _⟩ => ⟨S128x200x256, .f32⟩
  | .hbm, ⟨66, _⟩ => ⟨S1x1x256, .f32⟩
  | .hbm, ⟨67, _⟩ => ⟨S128x200x256, .f32⟩
  | .hbm, ⟨68, _⟩ => ⟨S128x200x256, .f32⟩
  | .hbm, ⟨69, _⟩ => ⟨S128x200x256, .f32⟩
  | .hbm, ⟨70, _⟩ => ⟨S128x200x200, .f32⟩
  | .hbm, ⟨71, _⟩ => ⟨S_, .f32⟩
  | .hbm, ⟨72, _⟩ => ⟨S128x200x200, .f32⟩
  | .hbm, ⟨73, _⟩ => ⟨S128x200x200, .f32⟩
  | .hbm, ⟨74, _⟩ => ⟨S_, .f32⟩
  | .hbm, ⟨75, _⟩ => ⟨S128x200, .f32⟩
  | .hbm, ⟨76, _⟩ => ⟨S_, .f32⟩
  | .hbm, ⟨77, _⟩ => ⟨S128x200, .f32⟩
  | .hbm, ⟨78, _⟩ => ⟨S128x200, .f32⟩
  | .hbm, ⟨79, _⟩ => ⟨S128x200x1, .f32⟩
  | .hbm, ⟨80, _⟩ => ⟨S128x200x200, .f32⟩
  | .hbm, ⟨81, _⟩ => ⟨S128x200x200, .f32⟩
  | .hbm, ⟨82, _⟩ => ⟨S128x200x200, .f32⟩
  | .hbm, ⟨83, _⟩ => ⟨S_, .f32⟩
  | .hbm, ⟨84, _⟩ => ⟨S128x200, .f32⟩
  | .hbm, ⟨85, _⟩ => ⟨S128x200x1, .f32⟩
  | .hbm, ⟨86, _⟩ => ⟨S128x200x200, .f32⟩
  | .hbm, ⟨87, _⟩ => ⟨S128x200x200, .f32⟩
  | .hbm, ⟨88, _⟩ => ⟨S128x200x256, .f32⟩
  | .hbm, ⟨89, _⟩ => ⟨S128x200x512, .f32⟩
  | .hbm, ⟨90, _⟩ => ⟨S128x200x256, .f32⟩
  | .hbm, ⟨91, _⟩ => ⟨S1x1x256, .f32⟩
  | .hbm, ⟨92, _⟩ => ⟨S128x200x256, .f32⟩
  | .hbm, ⟨93, _⟩ => ⟨S128x200x256, .f32⟩
  | .hbm, ⟨94, _⟩ => ⟨S128x200x256, .f32⟩
  | .hbm, ⟨95, _⟩ => ⟨S128x200x256, .f32⟩
  | .hbm, ⟨96, _⟩ => ⟨S1x1x256, .f32⟩
  | .hbm, ⟨97, _⟩ => ⟨S128x200x256, .f32⟩
  | .hbm, ⟨98, _⟩ => ⟨S128x200x256, .f32⟩
  | .hbm, ⟨99, _⟩ => ⟨S128x200x256, .f32⟩
  | .hbm, ⟨100, _⟩ => ⟨S128x200x256, .f32⟩
  | .hbm, ⟨101, _⟩ => ⟨S1x1x256, .f32⟩
  | .hbm, ⟨102, _⟩ => ⟨S128x200x256, .f32⟩
  | .hbm, ⟨103, _⟩ => ⟨S128x200x256, .f32⟩
  | .hbm, ⟨104, _⟩ => ⟨S_, .f32⟩
  | .hbm, ⟨105, _⟩ => ⟨S128x256, .f32⟩
  | _, _ => ⟨S128x200x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S128x200x256_0_1_2 : S1x1x256.BroadcastsInDim S128x200x256 (![0, 1, 2] : Fin 3 → Fin S128x200x256.rank)
  bcast_S_S128x200x200 : S_.BroadcastsInDim S128x200x200 (![] : Fin 0 → Fin S128x200x200.rank)
  reducesTo_S128x200x200_S128x200_d2 : S128x200x200.ReducesTo [2] S128x200
  h_S_ : 0 < S_.numel
  bcast_S_S128x200 : S_.BroadcastsInDim S128x200 (![] : Fin 0 → Fin S128x200.rank)
  bcast_S128x200_S128x200x1_0_1 : S128x200.BroadcastsInDim S128x200x1 (![0, 1] : Fin 2 → Fin S128x200x1.rank)
  bcast_S128x200x1_S128x200x200_0_1_2 : S128x200x1.BroadcastsInDim S128x200x200 (![0, 1, 2] : Fin 3 → Fin S128x200x200.rank)
  concatenates_S128x200x256_S128x200x256_S128x200x512_d2 : Shape.Concatenates [S128x200x256, S128x200x256] S128x200x512 2
  reducesTo_S128x200x256_S128x256_d1 : S128x200x256.ReducesTo [1] S128x256
  dot_S128x200x8_S8x256_S128x200x256_2_0_01_1_n_n_wf : DotDims.WF S128x200x8 S8x256 S128x200x256 [2] [0] [0, 1] [1] [] []
  dot_S128x200x256_S128x200x256_S128x200x200_2_2_1_1_0_0_wf : DotDims.WF S128x200x256 S128x200x256 S128x200x200 [2] [2] [1] [1] [0] [0]
  dot_S128x200x200_S128x200x256_S128x200x256_2_1_1_2_0_0_wf : DotDims.WF S128x200x200 S128x200x256 S128x200x256 [2] [1] [1] [2] [0] [0]
  dot_S128x200x512_S512x256_S128x200x256_2_0_01_1_n_n_wf : DotDims.WF S128x200x512 S512x256 S128x200x256 [2] [0] [0, 1] [1] [] []
  dot_S128x200x256_S256x256_S128x200x256_2_0_01_1_n_n_wf : DotDims.WF S128x200x256 S256x256 S128x200x256 [2] [0] [0, 1] [1] [] []

variable [Facts₀]

def dot_S128x200x8_S8x256_S128x200x256_2_0_01_1_n_n : DotDims S128x200x8 S8x256 S128x200x256 where
  lhsContracting := [2]
  rhsContracting := [0]
  lhsNonContracting := [0, 1]
  rhsNonContracting := [1]
  lhsBatch := []
  rhsBatch := []
  wf := dot_S128x200x8_S8x256_S128x200x256_2_0_01_1_n_n_wf
def dot_S128x200x256_S128x200x256_S128x200x200_2_2_1_1_0_0 : DotDims S128x200x256 S128x200x256 S128x200x200 where
  lhsContracting := [2]
  rhsContracting := [2]
  lhsNonContracting := [1]
  rhsNonContracting := [1]
  lhsBatch := [0]
  rhsBatch := [0]
  wf := dot_S128x200x256_S128x200x256_S128x200x200_2_2_1_1_0_0_wf
def dot_S128x200x200_S128x200x256_S128x200x256_2_1_1_2_0_0 : DotDims S128x200x200 S128x200x256 S128x200x256 where
  lhsContracting := [2]
  rhsContracting := [1]
  lhsNonContracting := [1]
  rhsNonContracting := [2]
  lhsBatch := [0]
  rhsBatch := [0]
  wf := dot_S128x200x200_S128x200x256_S128x200x256_2_1_1_2_0_0_wf
def dot_S128x200x512_S512x256_S128x200x256_2_0_01_1_n_n : DotDims S128x200x512 S512x256 S128x200x256 where
  lhsContracting := [2]
  rhsContracting := [0]
  lhsNonContracting := [0, 1]
  rhsNonContracting := [1]
  lhsBatch := []
  rhsBatch := []
  wf := dot_S128x200x512_S512x256_S128x200x256_2_0_01_1_n_n_wf
def dot_S128x200x256_S256x256_S128x200x256_2_0_01_1_n_n : DotDims S128x200x256 S256x256 S128x200x256 where
  lhsContracting := [2]
  rhsContracting := [0]
  lhsNonContracting := [0, 1]
  rhsNonContracting := [1]
  lhsBatch := []
  rhsBatch := []
  wf := dot_S128x200x256_S256x256_S128x200x256_2_0_01_1_n_n_wf

class Facts : Prop extends Facts₀ where

variable [Facts]
-- ==== Proof.Spec.lean ====
/-
  The message-passing network on ONE jet, as functions of plain index pairs over the extended reals, written twice:
  once in the arrangement the kernel computes (suffix K) and once in the arrangement of the jnp reference (suffix R).
  The two arrangements differ in three places only.
  * The soft adjacency: the kernel takes exp of the logits and multiplies by the reciprocal of the row sum; the
    reference subtracts the row maximum first and divides by the row sum of the shifted exponentials.
  * The vertex update: the kernel multiplies the state and the message by the two halves of the weight matrix and
    adds the two products; the reference multiplies the concatenation [state, message] by the whole matrix.
  * The readout: the kernel sums the nodes first and multiplies the sum by the second readout matrix, adding
    200 times the bias; the reference applies the second layer to every node and sums the 200 results.
  Everything else (the embedding, the logits h hT / 16, the message A h, the first readout layer) is spelt the same.
-/
import Idealize.ShloMosaic.PureOps.Ideal.Laws
import Idealize.ShloMosaic.Lib.IdealHost
import Idealize.ShloMosaic.Lib.ValueIdx

noncomputable section

namespace Cert.Mpnn

open Idealize.ShloMosaic Idealize.ShloMosaic.ValueIdx

/-- A linear layer followed by tanh: entry (i, e) is tanh (sum over d of X i d * W d e, plus b e). -/
def dense {n k p : ℕ} (X : Fin n → Fin k → EReal) (W : Fin k → Fin p → EReal) (b : Fin p → EReal) :
    Fin n → Fin p → EReal :=
  fun i e => Ideal.tanh ((∑ d : Fin k, X i d * W d e) + b e)

/-- The attention logits: (h hT) i j scaled by 1/16 (the pattern 0x3D800000). -/
def logit {n k : ℕ} (h : Fin n → Fin k → EReal) : Fin n → Fin n → EReal :=
  fun i j => (∑ d : Fin k, h i d * h j d) * Ideal.ofBits .f32 0x3D800000#32

/-- The kernel's row softmax: exp of the entry times the reciprocal 1 / (row sum of exps). -/
def softK {n : ℕ} (L : Fin n → Fin n → EReal) : Fin n → Fin n → EReal :=
  fun i j => Ideal.exp (L i j) * Ideal.div (Ideal.ofBits .f32 0x3F800000#32) (∑ j' : Fin n, Ideal.exp (L i j'))

/-- The reference's row maximum: the maximum of minus infinity and the fold of max from minus infinity over the row. -/
def rowMax {n : ℕ} (L : Fin n → Fin n → EReal) : Fin n → EReal :=
  fun i => max (Ideal.ofBits .f32 0xFF800000#32)
    ((Finset.univ : Finset (Fin n)).fold max (Ideal.ofBits .f32 0xFF800000#32) (fun j => L i j))

/-- The reference's row softmax: exp of the entry shifted by the row maximum, divided by the row sum (from 0) of the
    shifted exps. -/
def softR {n : ℕ} (L : Fin n → Fin n → EReal) : Fin n → Fin n → EReal :=
  fun i j => Ideal.div (Ideal.exp (L i j - rowMax L i))
    (Ideal.ofBits .f32 0x00000000#32 + ∑ j' : Fin n, Ideal.exp (L i j' - rowMax L i))

/-- The message: (A h) i d is the sum over j of A i j * h j d. -/
def mix {n k : ℕ} (A : Fin n → Fin n → EReal) (h : Fin n → Fin k → EReal) : Fin n → Fin k → EReal :=
  fun i d => ∑ j : Fin n, A i j * h j d

/-- The kernel's vertex update: tanh ((h * W[0:256] + g * W[256:512]) + b). -/
def updK (W : Fin 512 → Fin 256 → EReal) (b : Fin 256 → EReal) (h g : Fin 200 → Fin 256 → EReal) :
    Fin 200 → Fin 256 → EReal :=
  fun i e => Ideal.tanh (((∑ d : Fin 256, h i d * W ⟨d.val, by omega⟩ e)
    + (∑ d : Fin 256, g i d * W ⟨256 + d.val, by omega⟩ e)) + b e)

/-- [h, g] laid side by side along the feature axis. -/
def cat (h g : Fin 200 → Fin 256 → EReal) : Fin 200 → Fin 512 → EReal :=
  fun i q => if hq : q.val < 256 then h i ⟨q.val, hq⟩ else g i ⟨q.val - 256, by omega⟩

/-- The reference's vertex update: tanh ([h, g] * W + b). -/
def updR (W : Fin 512 → Fin 256 → EReal) (b : Fin 256 → EReal) (h g : Fin 200 → Fin 256 → EReal) :
    Fin 200 → Fin 256 → EReal :=
  fun i e => Ideal.tanh ((∑ q : Fin 512, cat h g i q * W q e) + b e)

/-- The kernel's second readout layer: (sum over nodes of x) * W + 200 * b (the pattern 0x43480000 is 200). -/
def readK (x : Fin 200 → Fin 256 → EReal) (W : Fin 256 → Fin 256 → EReal) (b : Fin 256 → EReal) : Fin 256 → EReal :=
  fun e => (∑ d : Fin 256, (∑ i : Fin 200, x i d) * W d e) + Ideal.ofBits .f32 0x43480000#32 * b e

/-- The reference's second readout layer: the sum over the nodes, from 0, of x i * W + b. -/
def readR (x : Fin 200 → Fin 256 → EReal) (W : Fin 256 → Fin 256 → EReal) (b : Fin 256 → EReal) : Fin 256 → EReal :=
  fun e => Ideal.ofBits .f32 0x00000000#32 + ∑ i : Fin 200, ((∑ d : Fin 256, x i d * W d e) + b e)

/-- The twelve parameter arrays, as index functions. -/
structure Params where
  Wemb : Fin 8 → Fin 256 → EReal
  bemb : Fin 256 → EReal
  W0 : Fin 512 → Fin 256 → EReal
  b0 : Fin 256 → EReal
  W1 : Fin 512 → Fin 256 → EReal
  b1 : Fin 256 → EReal
  W2 : Fin 512 → Fin 256 → EReal
  b2 : Fin 256 → EReal
  Wr1 : Fin 256 → Fin 256 → EReal
  br1 : Fin 256 → EReal
  Wr2 : Fin 256 → Fin 256 → EReal
  br2 : Fin 256 → EReal

/-- One message-passing step, the kernel's way and the reference's way. -/
def stepK (W : Fin 512 → Fin 256 → EReal) (b : Fin 256 → EReal) (h : Fin 200 → Fin 256 → EReal) :
    Fin 200 → Fin 256 → EReal := updK W b h (mix (softK (logit h)) h)
def stepR (W : Fin 512 → Fin 256 → EReal) (b : Fin 256 → EReal) (h : Fin 200 → Fin 256 → EReal) :
    Fin 200 → Fin 256 → EReal := updR W b h (mix (softR (logit h)) h)

/-- The embedded jet. -/
def h0 (P : Params) (X : Fin 200 → Fin 8 → EReal) : Fin 200 → Fin 256 → EReal := dense X P.Wemb P.bemb

def hK1 (P : Params) (X : Fin 200 → Fin 8 → EReal) : Fin 200 → Fin 256 → EReal := stepK P.W0 P.b0 (h0 P X)
def hK2 (P : Params) (X : Fin 200 → Fin 8 → EReal) : Fin 200 → Fin 256 → EReal := stepK P.W1 P.b1 (hK1 P X)
def hK3 (P : Params) (X : Fin 200 → Fin 8 → EReal) : Fin 200 → Fin 256 → EReal := stepK P.W2 P.b2 (hK2 P X)
def hR1 (P : Params) (X : Fin 200 → Fin 8 → EReal) : Fin 200 → Fin 256 → EReal := stepR P.W0 P.b0 (h0 P X)
def hR2 (P : Params) (X : Fin 200 → Fin 8 → EReal) : Fin 200 → Fin 256 → EReal := stepR P.W1 P.b1 (hR1 P X)
def hR3 (P : Params) (X : Fin 200 → Fin 8 → EReal) : Fin 200 → Fin 256 → EReal := stepR P.W2 P.b2 (hR2 P X)

/-- The soft adjacency of the LAST step (computed from the state after two steps): the second result. -/
def attnK (P : Params) (X : Fin 200 → Fin 8 → EReal) : Fin 200 → Fin 200 → EReal := softK (logit (hK2 P X))
def attnR (P : Params) (X : Fin 200 → Fin 8 → EReal) : Fin 200 → Fin 200 → EReal := softR (logit (hR2 P X))

/-- The readout of the state after three steps: the first result. -/
def outK (P : Params) (X : Fin 200 → Fin 8 → EReal) : Fin 256 → EReal :=
  readK (dense (hK3 P X) P.Wr1 P.br1) P.Wr2 P.br2
def outR (P : Params) (X : Fin 200 → Fin 8 → EReal) : Fin 256 → EReal :=
  readR (dense (hR3 P X) P.Wr1 P.br1) P.Wr2 P.br2

/-! ## The whole arrays -/

/-- Jet b of the input array. -/
def jet (J : (⟨3, ![128, 200, 8]⟩ : Shape).Idx → EReal) (b : Fin 128) : Fin 200 → Fin 8 → EReal :=
  fun i f => J (ix3 b i f)

/-- A rank-2 array as a function of its two coordinates, a rank-1 array of its one. -/
def mat {a c : ℕ} (W : (⟨2, ![a, c]⟩ : Shape).Idx → EReal) : Fin a → Fin c → EReal := fun i j => W (ix2 i j)
def vec {a : ℕ} (v : (⟨1, ![a]⟩ : Shape).Idx → EReal) : Fin a → EReal := fun i => v (ix1 i)

/-- The parameters from the twelve argument arrays, in the order of the program's arguments 1 to 12. -/
def params (a1 : (⟨2, ![8, 256]⟩ : Shape).Idx → EReal) (a2 : (⟨1, ![256]⟩ : Shape).Idx → EReal)
    (a3 : (⟨2, ![512, 256]⟩ : Shape).Idx → EReal) (a4 : (⟨1, ![256]⟩ : Shape).Idx → EReal)
    (a5 : (⟨2, ![512, 256]⟩ : Shape).Idx → EReal) (a6 : (⟨1, ![256]⟩ : Shape).Idx → EReal)
    (a7 : (⟨2, ![512, 256]⟩ : Shape).Idx → EReal) (a8 : (⟨1, ![256]⟩ : Shape).Idx → EReal)
    (a9 : (⟨2, ![256, 256]⟩ : Shape).Idx → EReal) (a10 : (⟨1, ![256]⟩ : Shape).Idx → EReal)
    (a11 : (⟨2, ![256, 256]⟩ : Shape).Idx → EReal) (a12 : (⟨1, ![256]⟩ : Shape).Idx → EReal) : Params :=
  ⟨mat a1, vec a2, mat a3, vec a4, mat a5, vec a6, mat a7, vec a8, mat a9, vec a10, mat a11, vec a12⟩

/-- The first result array [128, 256] and the second [128, 200, 200], in the kernel's arrangement ... -/
def GoutK (P : Params) (J : (⟨3, ![128, 200, 8]⟩ : Shape).Idx → EReal) : (⟨2, ![128, 256]⟩ : Shape).Idx → EReal :=
  fun i => outK P (jet J (i 0)) (i 1)
def GattnK (P : Params) (J : (⟨3, ![128, 200, 8]⟩ : Shape).Idx → EReal) :
    (⟨3, ![128, 200, 200]⟩ : Shape).Idx → EReal :=
  fun i => attnK P (jet J (i 0)) (i 1) (i 2)
/-- ... and in the reference's. -/
def GoutR (P : Params) (J : (⟨3, ![128, 200, 8]⟩ : Shape).Idx → EReal) : (⟨2, ![128, 256]⟩ : Shape).Idx → EReal :=
  fun i => outR P (jet J (i 0)) (i 1)
def GattnR (P : Params) (J : (⟨3, ![128, 200, 8]⟩ : Shape).Idx → EReal) :
    (⟨3, ![128, 200, 200]⟩ : Shape).Idx → EReal :=
  fun i => attnR P (jet J (i 0)) (i 1) (i 2)

end Cert.Mpnn

end
-- ==== Proof.Algebra.lean ====
/-
  The two arrangements of the network compute the same extended reals.
  The state of every round is a tanh, hence a real number in every entry, whatever the inputs are; so the logits are
  real, their exponentials are positive reals, the row sums are positive reals and the row maximum is real. On real
  numbers exp (l - M) / sum exp (l' - M) = exp l * (1 / sum exp l'), which is the soft adjacency's equation. The vertex
  update's equation is a sum over 512 split at 256 (no finiteness needed). The readout's equation moves the second
  readout matrix across the sum over the nodes and counts the bias 200 times; it needs the entries of that matrix and of
  that bias to be real numbers.
-/
import proofs.«135256_g85813446574462_cont_9to1c4b_288_18_alg».proof.Proof.Spec

noncomputable section

namespace Cert.Mpnn

open Idealize.ShloMosaic

/-! ## Real-valued tables -/

/-- Every entry of the table is a real number. -/
def Real2 {n k : ℕ} (f : Fin n → Fin k → EReal) : Prop := ∀ i j, ∃ r : ℝ, f i j = (r : EReal)

/-- A real-valued table is the coercion of a table of reals. -/
theorem Real2.lift {n k : ℕ} {f : Fin n → Fin k → EReal} (hf : Real2 f) :
    ∃ g : Fin n → Fin k → ℝ, f = fun i j => (g i j : EReal) := by
  choose g hg using hf
  exact ⟨g, funext fun i => funext fun j => hg i j⟩

/-- The hyperbolic tangent of any extended real is a real number: -1 at minus infinity, 1 at infinity. -/
theorem tanh_real (x : EReal) : ∃ r : ℝ, Ideal.tanh x = (r : EReal) := by
  induction x using EReal.rec with
  | bot => exact ⟨-1, by simp⟩
  | top => exact ⟨1, by simp⟩
  | coe r => exact ⟨Real.tanh r, rfl⟩

/-- A finite sum of real numbers, taken in the extended reals, is the real sum. -/
theorem sum_coe {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## The three constants -/

/-- The pattern 0x3D800000 is one sixteenth. -/
theorem ofBits_sixteenth_f32 : Ideal.ofBits .f32 0x3D800000#32 = (((1 : ℝ) / 16 : ℝ) : EReal) := by
  simp [Ideal.ofBits, Ideal.ieee, -EReal.coe_mul]; norm_num

/-- The pattern 0xFF800000 is minus infinity. -/
theorem ofBits_neg_inf_f32 : Ideal.ofBits .f32 0xFF800000#32 = (⊥ : EReal) := by
  simp [Ideal.ofBits, Ideal.ieee]

/-- The pattern 0x43480000 is two hundred. -/
theorem ofBits_two_hundred_f32 : Ideal.ofBits .f32 0x43480000#32 = ((200 : ℝ) : EReal) := by
  simp [Ideal.ofBits, Ideal.ieee, -EReal.coe_mul]; norm_num

/-! ## The states and the logits are real -/

theorem dense_real {n k p : ℕ} (X : Fin n → Fin k → EReal) (W : Fin k → Fin p → EReal) (b : Fin p → EReal) :
    Real2 (dense X W b) := fun _ _ => tanh_real _

theorem updK_real (W : Fin 512 → Fin 256 → EReal) (b : Fin 256 → EReal) (h g : Fin 200 → Fin 256 → EReal) :
    Real2 (updK W b h g) := fun _ _ => tanh_real _

theorem logit_real {n k : ℕ} {h : Fin n → Fin k → EReal} (hh : Real2 h) : Real2 (logit h) := by
  obtain ⟨g, rfl⟩ := hh.lift
  intro i j
  refine ⟨(∑ d : Fin k, g i d * g j d) * (1 / 16), ?_⟩
  unfold logit
  rw [ofBits_sixteenth_f32]
  simp only [← EReal.coe_mul, sum_coe]

/-! ## The soft adjacency -/

/-- The two row softmaxes agree on a table of real logits: the row maximum m is real, and
    exp (l - m) / sum exp (l' - m) = exp l * (1 / sum exp l'). -/
theorem soft_eq {n : ℕ} {L : Fin n → Fin n → EReal} (hL : Real2 L) : softK L = softR L := by
  obtain ⟨l, rfl⟩ := hL.lift
  funext i j
  -- the row maximum is a real number
  have hM : ∃ m : ℝ, rowMax (fun i j => (l i j : EReal)) i = (m : EReal) := by
    unfold rowMax
    rw [ofBits_neg_inf_f32, max_eq_right bot_le]
    have hlt : (Finset.univ : Finset (Fin n)).fold max (⊥ : EReal) (fun j => (l i j : EReal)) < ⊤ :=
      (Finset.fold_max_lt _).mpr ⟨bot_lt_top, fun x _ => EReal.coe_lt_top _⟩
    have hgt : (l i j : EReal) ≤ (Finset.univ : Finset (Fin n)).fold max (⊥ : EReal) (fun j => (l i j : EReal)) :=
      (Finset.le_fold_max _).mpr (Or.inr ⟨j, Finset.mem_univ _, le_rfl⟩)
    have hne_bot : (Finset.univ : Finset (Fin n)).fold max (⊥ : EReal) (fun j => (l i j : EReal)) ≠ ⊥ :=
      fun e => by rw [e] at hgt; exact absurd hgt (by simp)
    exact ⟨_, (EReal.coe_toReal hlt.ne hne_bot).symm⟩
  obtain ⟨m, hm⟩ := hM
  unfold softK softR
  rw [hm, Ideal.ofBits_one_f32, Ideal.ofBits_zero_f32, zero_add]
  simp only [← EReal.coe_sub, Ideal.exp_coe, sum_coe]
  have hS : (∑ j' : Fin n, Real.exp (l i j')) ≠ 0 :=
    (Finset.sum_pos (fun j' _ => Real.exp_pos _) ⟨j, Finset.mem_univ _⟩).ne'
  have hS' : (∑ j' : Fin n, Real.exp (l i j' - m)) ≠ 0 :=
    (Finset.sum_pos (fun j' _ => Real.exp_pos _) ⟨j, Finset.mem_univ _⟩).ne'
  rw [Ideal.div_coe hS, Ideal.div_coe hS', one_mul, ← EReal.coe_mul, ← EReal.coe_mul]
  congr 1
  have hsum : (∑ j' : Fin n, Real.exp (l i j' - m)) = (∑ j' : Fin n, Real.exp (l i j')) / Real.exp m := by
    rw [Finset.sum_div]; exact Finset.sum_congr rfl fun j' _ => Real.exp_sub _ _
  rw [hsum, Real.exp_sub]
  have hm0 : Real.exp m ≠ 0 := (Real.exp_pos m).ne'
  field_simp

/-! ## The vertex update -/

/-- The sum over 512 columns of [h, g] times W splits at 256 into the two sums of the kernel's arrangement. -/
theorem upd_eq (W : Fin 512 → Fin 256 → EReal) (b : Fin 256 → EReal) (h g : Fin 200 → Fin 256 → EReal) :
    updK W b h g = updR W b h g := by
  funext i e
  unfold updK updR
  congr 2
  have hsplit : ∀ f : Fin (256 + 256) → EReal,
      ∑ q : Fin (256 + 256), f q = (∑ d : Fin 256, f (Fin.castAdd 256 d)) + ∑ d : Fin 256, f (Fin.natAdd 256 d) :=
    fun f => Fin.sum_univ_add f
  refine Eq.trans ?_ (hsplit (fun q => cat h g i q * W q e)).symm
  refine congrArg₂ (· + ·) (Finset.sum_congr rfl fun d _ => ?_) (Finset.sum_congr rfl fun d _ => ?_)
  · have hd : ((Fin.castAdd 256 d : Fin (256 + 256)) : ℕ) < 256 := d.isLt
    unfold cat
    rw [dif_pos hd]
    rfl
  · have hd : ¬ ((Fin.natAdd 256 d : Fin (256 + 256)) : ℕ) < 256 := by
      simp [Fin.natAdd]
    unfold cat
    rw [dif_neg hd]
    have he : (⟨((Fin.natAdd 256 d : Fin (256 + 256)) : ℕ) - 256, by have := d.isLt; simp [Fin.natAdd]⟩ : Fin 256) = d := by
      apply Fin.ext; simp [Fin.natAdd]
    rw [he]
    rfl

/-! ## The three rounds -/

theorem step_eq (W : Fin 512 → Fin 256 → EReal) (b : Fin 256 → EReal) {h : Fin 200 → Fin 256 → EReal}
    (hh : Real2 h) : stepK W b h = stepR W b h := by
  unfold stepK stepR
  rw [soft_eq (logit_real hh), upd_eq]

theorem stepK_real (W : Fin 512 → Fin 256 → EReal) (b : Fin 256 → EReal) (h : Fin 200 → Fin 256 → EReal) :
    Real2 (stepK W b h) := updK_real _ _ _ _

theorem h1_eq (P : Params) (X : Fin 200 → Fin 8 → EReal) : hK1 P X = hR1 P X :=
  step_eq _ _ (dense_real _ _ _)

theorem h2_eq (P : Params) (X : Fin 200 → Fin 8 → EReal) : hK2 P X = hR2 P X := by
  unfold hK2 hR2
  rw [← h1_eq]
  exact step_eq _ _ (stepK_real _ _ _)

theorem h3_eq (P : Params) (X : Fin 200 → Fin 8 → EReal) : hK3 P X = hR3 P X := by
  unfold hK3 hR3
  rw [← h2_eq]
  exact step_eq _ _ (stepK_real _ _ _)

/-! ## The readout -/

/-- On real tables the second readout layer may be applied after the sum over the nodes:
    sum_i (sum_d x i d * W d e + b e) = sum_d (sum_i x i d) * W d e + 200 * b e. -/
theorem read_eq {x : Fin 200 → Fin 256 → EReal} {W : Fin 256 → Fin 256 → EReal} {b : Fin 256 → EReal}
    (hx : Real2 x) (hW : Real2 W) (hb : ∀ e, ∃ r : ℝ, b e = (r : EReal)) : readK x W b = readR x W b := by
  obtain ⟨xr, rfl⟩ := hx.lift
  obtain ⟨w, rfl⟩ := hW.lift
  choose β hβ using hb
  funext e
  unfold readK readR
  rw [ofBits_two_hundred_f32, Ideal.ofBits_zero_f32, zero_add]
  simp only [hβ, ← EReal.coe_mul, sum_coe, ← EReal.coe_add]
  congr 1
  rw [Finset.sum_add_distrib, Finset.sum_comm]
  congr 1
  · exact Finset.sum_congr rfl fun d _ => Finset.sum_mul _ _ _
  · simp

/-- The soft adjacency of the last round is the same in both arrangements, for all inputs. -/
theorem attn_eq (P : Params) (X : Fin 200 → Fin 8 → EReal) : attnK P X = attnR P X := by
  unfold attnK attnR
  rw [← h2_eq]
  exact soft_eq (logit_real (stepK_real _ _ _))

/-- The readout is the same in both arrangements when the second readout layer's weights and bias are real numbers. -/
theorem out_eq (P : Params) (X : Fin 200 → Fin 8 → EReal)
    (hW : ∀ d e, ∃ r : ℝ, P.Wr2 d e = (r : EReal)) (hb : ∀ e, ∃ r : ℝ, P.br2 e = (r : EReal)) :
    outK P X = outR P X := by
  unfold outK outR
  rw [← h3_eq]
  exact read_eq (dense_real _ _ _) hW hb

theorem Gattn_eq (P : Params) (J : (⟨3, ![128, 200, 8]⟩ : Shape).Idx → EReal) : GattnK P J = GattnR P J := by
  funext i; unfold GattnK GattnR; rw [attn_eq]

theorem Gout_eq (P : Params) (J : (⟨3, ![128, 200, 8]⟩ : Shape).Idx → EReal)
    (hW : ∀ d e, ∃ r : ℝ, P.Wr2 d e = (r : EReal)) (hb : ∀ e, ∃ r : ℝ, P.br2 e = (r : EReal)) :
    GoutK P J = GoutR P J := by
  funext i; unfold GoutK GoutR; rw [out_eq P _ hW hb]

end Cert.Mpnn

end
-- ==== Proof.Finite.lean ====
/-
  The precondition says every float argument is finite; read at the second readout layer's weights and bias at the
  extended reals, every entry of those two arrays is a real number.
-/
import proofs.«135256_g85813446574462_cont_9to1c4b_288_18_alg».proof.Defs
import proofs.«135256_g85813446574462_cont_9to1c4b_288_18_alg».proof.Proof.Gen.Pre_finite_inputs
import proofs.«135256_g85813446574462_cont_9to1c4b_288_18_alg».proof.Proof.Gen.KernelIdeal
import Idealize.ShloMosaic.Lib.ReduceAll
import Idealize.ShloMosaic.Lib.ValueIdx

set_option synthInstance.maxSize 4096

noncomputable section

namespace Cert.KernelIdeal.Finite

open Idealize.ShloMosaic Idealize.ShloMosaic.ValueIdx Idealize.SL.Sem Cert.KernelIdeal

/-- The rank-0 shape has one index. -/
local instance subsingleton_idx0 : Subsingleton (Cert.Pre_finite_inputs.S_).Idx :=
  ⟨fun a b => funext fun d => d.elim0⟩

/-- An extended real whose absolute value max x (-x) lies strictly below +∞ (the pattern 0x7F800000) is a real:
    at ⊥ the absolute value is -⊥ = ⊤, at ⊤ it is ⊤, and ⊤ < ⊤ fails. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One entry of the printed test all (|x| < +∞): the comparison bit at an index being 1 makes that entry real. -/
theorem real_of_cmp_bit {T : Shape} (hb : (⟨0, ![]⟩ : Shape).BroadcastsInDim T ![]) (x : FVec Ideal T .f32) (i : T.Idx)
    (h : cmpf .olt (Host.absf x) (broadcastInDim T ![] hb (constant (F := Ideal) ⟨0, ![]⟩ .f32 0x7F800000#32)) i = 1#1) :
    ∃ r : ℝ, x i = (r : EReal) := by
  exact real_of_abs_lt_inf (x i) h

/-- Under the precondition, the entries of the arguments 11 (the second readout matrix) and 12 (its bias) are real. -/
theorem real_of_pre (m : (ℓ : Loc nD τ sig) → Buf (Elt Ideal) ℓ)
    (hpre : @Cert.Pre_KernelIdeal Cert.Pre_finite_inputs.Gen.facts m) (c : Dev nD) :
    (∀ i, ∃ r : ℝ, m ((c.tc : Thread nD τ).loc main_arg11) i = (r : EReal))
    ∧ (∀ i, ∃ r : ℝ, m ((c.tc : Thread nD τ).loc main_arg12) i = (r : EReal)) := by
  have h := congrFun (hpre c) ValueIdx.ix0
  dsimp only [Cert.Pre_finite_inputs.fn, Cert.Pre_finite_inputs.fn_part1, Cert.Pre_finite_inputs.fn_part2,
    Cert.Pre_finite_inputs.fn_part3] at h
  obtain ⟨h1, h12⟩ := IntOp.andi_eq_one.1 h
  obtain ⟨_, h11⟩ := IntOp.andi_eq_one.1 h1
  refine ⟨fun i => ?_, fun i => ?_⟩
  · exact real_of_cmp_bit _ _ i (Host.reduce_andi_all _ _ _ _ _ h11 i)
  · exact real_of_cmp_bit _ _ i (Host.reduce_andi_all _ _ _ _ _ h12 i)

end Cert.KernelIdeal.Finite

end
-- ==== Proof.KJet.lean ====
/-
  One jet's computation in the kernel, as a composition of the kernel's own vector operations on that jet's
  [1, 200, 8] block and the weight blocks: the embedding, three rounds of soft-adjacency message passing and the
  readout. Stated for any float instance; the kernel's sixteen jets are sixteen copies of these two functions.
-/
import proofs.«135256_g85813446574462_cont_9to1c4b_288_18_alg».proof.Proof.Gen.KernelIdeal

set_option synthInstance.maxSize 4096

noncomputable section

namespace Cert.KernelIdeal.Jet

open Idealize.ShloMosaic Idealize.SL.Sem Cert.KernelIdeal Cert.KernelIdeal.Gen

variable {F : FTy → Type} [FloatOps F]

/-- A bias row as the kernel reads it: the [1, 256] block cast to its own shape. -/
def vBias (v : Vec F S1x256 .f32) : FVec F S1x256 .f32 := shapeCast S1x256 v shapeCasts_S1x256_S1x256

/-- The embedding of the jet: tanh (x * Wemb + bemb), the jet's block first cast to [200, 8]. -/
def vEmbed (x : Vec F S1x200x8 .f32) (w : Vec F S8x256 .f32) (b : FVec F S1x256 .f32) : FVec F S200x256 .f32 :=
  tanh (addf (matmul dot_S200x8_S8x256_S200x256_1_0_0_1_n_n none (shapeCast S200x8 x shapeCasts_S1x200x8_S200x8) w
    (constant S200x256 .f32 0x00000000#32)) (broadcastTo S200x256 b broadcasts_S1x256_S200x256))

/-- exp of the scaled logits h hT / 16. -/
def vExpLogit (h : FVec F S200x256 .f32) : FVec F S200x200 .f32 :=
  exp (mulf (matmul dot_S200x256_S200x256_S200x200_1_1_0_0_n_n none h h (constant S200x200 .f32 0x00000000#32))
    (broadcast S200x200 (Scalar.ofBits .f32 0x3D800000#32)))

/-- The reciprocal of each row's sum, as a [200, 1] column. -/
def vRecip (p : FVec F S200x200 .f32) : FVec F S200x1 .f32 :=
  divf (broadcast S200x1 (Scalar.ofBits .f32 0x3F800000#32))
    (shapeCast S200x1 (multiReduction .add [1] S200 p 0x00000000#32 reduces_S200x200_S200 (.inl rfl) rfl)
      shapeCasts_S200_S200x1)

/-- The soft adjacency: each row of exps times the reciprocal of its sum. -/
def vAttn (p : FVec F S200x200 .f32) : FVec F S200x200 .f32 :=
  mulf p (broadcastTo S200x200 (vRecip p) broadcasts_S200x1_S200x200)

/-- The message A h. -/
def vMix (a : FVec F S200x200 .f32) (h : FVec F S200x256 .f32) : FVec F S200x256 .f32 :=
  matmul dot_S200x200_S200x256_S200x256_1_0_0_1_n_n none a h (constant S200x256 .f32 0x00000000#32)

/-- The vertex update: tanh ((h * W[0:256] + g * W[256:512]) + b). -/
def vUpdate (w : Vec F S512x256 .f32) (b : FVec F S1x256 .f32) (h g : FVec F S200x256 .f32) : FVec F S200x256 .f32 :=
  tanh (addf (addf
    (matmul dot_S200x256_S256x256_S200x256_1_0_0_1_n_n none h
      (extractStridedSlice S256x256 ![0, 0] w slices_S512x256_o0_0_S256x256) (constant S200x256 .f32 0x00000000#32))
    (matmul dot_S200x256_S256x256_S200x256_1_0_0_1_n_n none g
      (extractStridedSlice S256x256 ![256, 0] w slices_S512x256_o256_0_S256x256) (constant S200x256 .f32 0x00000000#32)))
    (broadcastTo S200x256 b broadcasts_S1x256_S200x256))

/-- One round: the state after the update by the message of the soft adjacency. -/
def vStep (w : Vec F S512x256 .f32) (b : FVec F S1x256 .f32) (h : FVec F S200x256 .f32) : FVec F S200x256 .f32 :=
  vUpdate w b h (vMix (vAttn (vExpLogit h)) h)

/-- The first readout layer: tanh (h * Wr1 + br1). -/
def vDense (w : Vec F S256x256 .f32) (b : FVec F S1x256 .f32) (h : FVec F S200x256 .f32) : FVec F S200x256 .f32 :=
  tanh (addf (matmul dot_S200x256_S256x256_S200x256_1_0_0_1_n_n none h w (constant S200x256 .f32 0x00000000#32))
    (broadcastTo S200x256 b broadcasts_S1x256_S200x256))

/-- The node sum as a [1, 256] row. -/
def vNodeSum (x : FVec F S200x256 .f32) : FVec F S1x256 .f32 :=
  shapeCast S1x256 (multiReduction .add [0] S256 x 0x00000000#32 reduces_S200x256_S256 (.inl rfl) rfl)
    shapeCasts_S256_S1x256

/-- The second readout layer on the node sum: r * Wr2 + 200 * br2. -/
def vRead (w : Vec F S256x256 .f32) (b : FVec F S1x256 .f32) (r : FVec F S1x256 .f32) : FVec F S1x256 .f32 :=
  addf (matmul dot_S1x256_S256x256_S1x256_1_0_0_1_n_n none r w (constant S1x256 .f32 0x00000000#32))
    (mulf (broadcast S1x256 (Scalar.ofBits .f32 0x43480000#32)) b)

/-- The jet's state after two rounds. -/
def vState2 (x : Vec F S1x200x8 .f32) (wemb : Vec F S8x256 .f32) (bemb : FVec F S1x256 .f32)
    (w0 : Vec F S512x256 .f32) (b0 : FVec F S1x256 .f32) (w1 : Vec F S512x256 .f32) (b1 : FVec F S1x256 .f32) :
    FVec F S200x256 .f32 :=
  vStep w1 b1 (vStep w0 b0 (vEmbed x wemb bemb))

/-- What the kernel stores for the jet in the second output: the soft adjacency of the third round, as a [1, 200, 200] block. -/
def jetAttnV (x : Vec F S1x200x8 .f32) (wemb : Vec F S8x256 .f32) (bemb : FVec F S1x256 .f32)
    (w0 : Vec F S512x256 .f32) (b0 : FVec F S1x256 .f32) (w1 : Vec F S512x256 .f32) (b1 : FVec F S1x256 .f32) :
    FVec F S1x200x200 .f32 :=
  shapeCast S1x200x200 (vAttn (vExpLogit (vState2 x wemb bemb w0 b0 w1 b1))) shapeCasts_S200x200_S1x200x200

/-- What the kernel stores for the jet in the first output: the readout of the state after three rounds, as a [1, 1, 256] block. -/
def jetOutV (x : Vec F S1x200x8 .f32) (wemb : Vec F S8x256 .f32) (bemb : FVec F S1x256 .f32)
    (w0 : Vec F S512x256 .f32) (b0 : FVec F S1x256 .f32) (w1 : Vec F S512x256 .f32) (b1 : FVec F S1x256 .f32)
    (w2 : Vec F S512x256 .f32) (b2 : FVec F S1x256 .f32) (wr1 : Vec F S256x256 .f32) (br1 : FVec F S1x256 .f32)
    (wr2 : Vec F S256x256 .f32) (br2 : FVec F S1x256 .f32) : FVec F S1x1x256 .f32 :=
  shapeCast S1x1x256
    (vRead wr2 br2 (vNodeSum (vDense wr1 br1 (vStep w2 b2 (vState2 x wemb bemb w0 b0 w1 b1)))))
    shapeCasts_S1x256_S1x1x256

end Cert.KernelIdeal.Jet

end
-- ==== Proof.KJetIdx.lean ====
/-
  One jet's two stored blocks, read entry by entry at the extended reals: the kernel's vector operations on the
  jet's block and the weight blocks are, at every entry, the kernel-arranged network of the specification applied to
  the blocks' entries. Each matrix product is the sum over its one contracted axis, each row or column broadcast
  reads the row or column, each lane or sublane reduction is the sum over the reduced axis.
-/
import proofs.«135256_g85813446574462_cont_9to1c4b_288_18_alg».proof.Proof.KJet
import proofs.«135256_g85813446574462_cont_9to1c4b_288_18_alg».proof.Proof.Spec
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.Jet

open Idealize.ShloMosaic Idealize.ShloMosaic.ValueIdx Idealize.SL.Sem Cert.KernelIdeal Cert.KernelIdeal.Gen

/-! ## The five matrix products at an entry

Into the zero accumulator a product at an entry is the sum, over the contraction index, of the operands' products;
the contraction index has one axis, so the sum is re-indexed by that axis's coordinate, and the two operand indices
are then named by their coordinates (each coordinate computes). -/

/-- [200, 8] times [8, 256]: entry (n, d) is the sum over f of a (n, f) * w (f, d). -/
theorem dotA_apply (a : FVec Ideal S200x8 .f32) (w : FVec Ideal S8x256 .f32) (n : Fin 200) (d : Fin 256) :
    matmul dot_S200x8_S8x256_S200x256_1_0_0_1_n_n none a w (constant S200x256 .f32 0x00000000#32) (ix2 n d)
      = ∑ f : Fin 8, a (ix2 n f) * w (ix2 f d) := by
  refine (Ideal.matmul_constant_zero_apply _ _ _ _ _).trans ?_
  rw [← Equiv.sum_comp (contrEquiv1 dot_S200x8_S8x256_S200x256_1_0_0_1_n_n 8 rfl rfl).symm]
  refine Finset.sum_congr rfl fun f _ => ?_
  have hl : (dot_S200x8_S8x256_S200x256_1_0_0_1_n_n).lhsIdx (ix2 n d) ((contrEquiv1 dot_S200x8_S8x256_S200x256_1_0_0_1_n_n 8 rfl rfl).symm f) = ix2 n f := by
    funext c
    match c with
    | ⟨0, _⟩ => exact Fin.ext rfl
    | ⟨1, _⟩ => exact Fin.ext rfl
  have hr : (dot_S200x8_S8x256_S200x256_1_0_0_1_n_n).rhsIdx (ix2 n d) ((contrEquiv1 dot_S200x8_S8x256_S200x256_1_0_0_1_n_n 8 rfl rfl).symm f) = ix2 f d := by
    funext c
    match c with
    | ⟨0, _⟩ => exact Fin.ext rfl
    | ⟨1, _⟩ => exact Fin.ext rfl
  rw [hl, hr]

/-- [200, 256] times the transpose of [200, 256] (both contract their second axis): entry (n, k) is the sum over d of
    a (n, d) * w (k, d). -/
theorem dotB_apply (a : FVec Ideal S200x256 .f32) (w : FVec Ideal S200x256 .f32) (n k : Fin 200) :
    matmul dot_S200x256_S200x256_S200x200_1_1_0_0_n_n none a w (constant S200x200 .f32 0x00000000#32) (ix2 n k)
      = ∑ d : Fin 256, a (ix2 n d) * w (ix2 k d) := by
  refine (Ideal.matmul_constant_zero_apply _ _ _ _ _).trans ?_
  rw [← Equiv.sum_comp (contrEquiv1 dot_S200x256_S200x256_S200x200_1_1_0_0_n_n 256 rfl rfl).symm]
  refine Finset.sum_congr rfl fun d _ => ?_
  have hl : (dot_S200x256_S200x256_S200x200_1_1_0_0_n_n).lhsIdx (ix2 n k) ((contrEquiv1 dot_S200x256_S200x256_S200x200_1_1_0_0_n_n 256 rfl rfl).symm d) = ix2 n d := by
    funext c
    match c with
    | ⟨0, _⟩ => exact Fin.ext rfl
    | ⟨1, _⟩ => exact Fin.ext rfl
  have hr : (dot_S200x256_S200x256_S200x200_1_1_0_0_n_n).rhsIdx (ix2 n k) ((contrEquiv1 dot_S200x256_S200x256_S200x200_1_1_0_0_n_n 256 rfl rfl).symm d) = ix2 k d := by
    funext c
    match c with
    | ⟨0, _⟩ => exact Fin.ext rfl
    | ⟨1, _⟩ => exact Fin.ext rfl
  rw [hl, hr]

/-- [200, 200] times [200, 256]: entry (n, d) is the sum over k of a (n, k) * w (k, d). -/
theorem dotC_apply (a : FVec Ideal S200x200 .f32) (w : FVec Ideal S200x256 .f32) (n : Fin 200) (d : Fin 256) :
    matmul dot_S200x200_S200x256_S200x256_1_0_0_1_n_n none a w (constant S200x256 .f32 0x00000000#32) (ix2 n d)
      = ∑ k : Fin 200, a (ix2 n k) * w (ix2 k d) := by
  refine (Ideal.matmul_constant_zero_apply _ _ _ _ _).trans ?_
  rw [← Equiv.sum_comp (contrEquiv1 dot_S200x200_S200x256_S200x256_1_0_0_1_n_n 200 rfl rfl).symm]
  refine Finset.sum_congr rfl fun k _ => ?_
  have hl : (dot_S200x200_S200x256_S200x256_1_0_0_1_n_n).lhsIdx (ix2 n d) ((contrEquiv1 dot_S200x200_S200x256_S200x256_1_0_0_1_n_n 200 rfl rfl).symm k) = ix2 n k := by
    funext c
    match c with
    | ⟨0, _⟩ => exact Fin.ext rfl
    | ⟨1, _⟩ => exact Fin.ext rfl
  have hr : (dot_S200x200_S200x256_S200x256_1_0_0_1_n_n).rhsIdx (ix2 n d) ((contrEquiv1 dot_S200x200_S200x256_S200x256_1_0_0_1_n_n 200 rfl rfl).symm k) = ix2 k d := by
    funext c
    match c with
    | ⟨0, _⟩ => exact Fin.ext rfl
    | ⟨1, _⟩ => exact Fin.ext rfl
  rw [hl, hr]

/-- [200, 256] times [256, 256]: entry (n, e) is the sum over d of a (n, d) * w (d, e). -/
theorem dotD_apply (a : FVec Ideal S200x256 .f32) (w : FVec Ideal S256x256 .f32) (n : Fin 200) (e : Fin 256) :
    matmul dot_S200x256_S256x256_S200x256_1_0_0_1_n_n none a w (constant S200x256 .f32 0x00000000#32) (ix2 n e)
      = ∑ d : Fin 256, a (ix2 n d) * w (ix2 d e) := by
  refine (Ideal.matmul_constant_zero_apply _ _ _ _ _).trans ?_
  rw [← Equiv.sum_comp (contrEquiv1 dot_S200x256_S256x256_S200x256_1_0_0_1_n_n 256 rfl rfl).symm]
  refine Finset.sum_congr rfl fun d _ => ?_
  have hl : (dot_S200x256_S256x256_S200x256_1_0_0_1_n_n).lhsIdx (ix2 n e) ((contrEquiv1 dot_S200x256_S256x256_S200x256_1_0_0_1_n_n 256 rfl rfl).symm d) = ix2 n d := by
    funext c
    match c with
    | ⟨0, _⟩ => exact Fin.ext rfl
    | ⟨1, _⟩ => exact Fin.ext rfl
  have hr : (dot_S200x256_S256x256_S200x256_1_0_0_1_n_n).rhsIdx (ix2 n e) ((contrEquiv1 dot_S200x256_S256x256_S200x256_1_0_0_1_n_n 256 rfl rfl).symm d) = ix2 d e := by
    funext c
    match c with
    | ⟨0, _⟩ => exact Fin.ext rfl
    | ⟨1, _⟩ => exact Fin.ext rfl
  rw [hl, hr]

/-- [1, 256] times [256, 256]: entry (u, e) is the sum over d of a (u, d) * w (d, e). -/
theorem dotE_apply (a : FVec Ideal S1x256 .f32) (w : FVec Ideal S256x256 .f32) (u : Fin 1) (e : Fin 256) :
    matmul dot_S1x256_S256x256_S1x256_1_0_0_1_n_n none a w (constant S1x256 .f32 0x00000000#32) (ix2 u e)
      = ∑ d : Fin 256, a (ix2 u d) * w (ix2 d e) := by
  refine (Ideal.matmul_constant_zero_apply _ _ _ _ _).trans ?_
  rw [← Equiv.sum_comp (contrEquiv1 dot_S1x256_S256x256_S1x256_1_0_0_1_n_n 256 rfl rfl).symm]
  refine Finset.sum_congr rfl fun d _ => ?_
  have hl : (dot_S1x256_S256x256_S1x256_1_0_0_1_n_n).lhsIdx (ix2 u e) ((contrEquiv1 dot_S1x256_S256x256_S1x256_1_0_0_1_n_n 256 rfl rfl).symm d) = ix2 u d := by
    funext c
    match c with
    | ⟨0, _⟩ => exact Fin.ext rfl
    | ⟨1, _⟩ => exact Fin.ext rfl
  have hr : (dot_S1x256_S256x256_S1x256_1_0_0_1_n_n).rhsIdx (ix2 u e) ((contrEquiv1 dot_S1x256_S256x256_S1x256_1_0_0_1_n_n 256 rfl rfl).symm d) = ix2 d e := by
    funext c
    match c with
    | ⟨0, _⟩ => exact Fin.ext rfl
    | ⟨1, _⟩ => exact Fin.ext rfl
  rw [hl, hr]

/-! ## A column, its broadcast, and the two one-axis sums -/

/-- A [200] vector cast to a [200, 1] column reads, at (n, u), the vector at n. -/
theorem col_apply (v : FVec Ideal S200 .f32) (n : Fin 200) (u : Fin 1) :
    shapeCast S200x1 v shapeCasts_S200_S200x1 (ix2 n u) = v (ix1 n) :=
  shapeCast_apply v _ _ _ (by
    have hu : u.val = 0 := by omega
    rw [Shape.rowMajor_val_two, Shape.rowMajor_val_one]
    show n.val = n.val * 1 + u.val
    rw [hu, Nat.mul_one, Nat.add_zero])

/-- A [200, 1] column broadcast to [200, 200] reads, at (n, k), the column at n. -/
theorem colBroadcast_apply (c : FVec Ideal S200x1 .f32) (n k : Fin 200) :
    broadcastTo S200x200 c broadcasts_S200x1_S200x200 (ix2 n k) = c (ix2 n (0 : Fin 1)) := by
  refine broadcastTo_apply c _ (ix2 n k) (ix2 n (0 : Fin 1)) fun ax => ?_
  match ax with
  | ⟨0, _⟩ => rfl
  | ⟨1, _⟩ => rfl

/-- The sum along the second axis of a [200, 200] array, at n, is the sum over k of the entry (n, k): the reduced index
    with the coordinate k put back on axis 1 is (n, k). -/
theorem redRow_apply (p : FVec Ideal S200x200 .f32) (n : Fin 200) :
    multiReduction .add [1] S200 p 0x00000000#32 reduces_S200x200_S200 (.inl rfl) rfl (ix1 n)
      = ∑ k : Fin 200, p (ix2 n k) := by
  refine (Ideal.multiReduction_add_single p _ reduces_S200x200_S200 _ _ _).trans ?_
  refine Finset.sum_congr rfl fun k _ => ?_
  congr 1
  funext c
  match c with
  | ⟨0, _⟩ => exact Fin.ext rfl
  | ⟨1, _⟩ => exact Fin.ext rfl

/-- The sum along the first axis of a [200, 256] array, at d, is the sum over n of the entry (n, d). -/
theorem redCol_apply (x : FVec Ideal S200x256 .f32) (d : Fin 256) :
    multiReduction .add [0] S256 x 0x00000000#32 reduces_S200x256_S256 (.inl rfl) rfl (ix1 d)
      = ∑ n : Fin 200, x (ix2 n d) := by
  refine (Ideal.multiReduction_add_single x _ reduces_S200x256_S256 _ _ _).trans ?_
  refine Finset.sum_congr rfl fun n _ => ?_
  congr 1
  funext c
  match c with
  | ⟨0, _⟩ => exact Fin.ext rfl
  | ⟨1, _⟩ => exact Fin.ext rfl

/-! ## The jet's operations at an entry -/

/-- tanh of a vector read at an index is tanh of the element. -/
theorem vtanh_apply {s : Shape} (x : FVec Ideal s .f32) (i : s.Idx) : tanh x i = Ideal.tanh (x i) := rfl
/-- exp of a vector read at an index is exp of the element. -/
theorem vexp_apply {s : Shape} (x : FVec Ideal s .f32) (i : s.Idx) : exp x i = Ideal.exp (x i) := rfl

/-- The embedding at (n, d): the linear layer with tanh of the specification on the block's entries. -/
theorem vEmbed_apply (x : Vec Ideal S1x200x8 .f32) (w : Vec Ideal S8x256 .f32) (b : FVec Ideal S1x256 .f32)
    (n : Fin 200) (d : Fin 256) :
    vEmbed x w b (ix2 n d)
      = Cert.Mpnn.dense (fun n f => x (ix3 0 n f)) (fun i j => w (ix2 i j)) (fun e => b (ix2 0 e)) n d := by
  unfold vEmbed Cert.Mpnn.dense
  rw [vtanh_apply, addf_apply, dotA_apply, broadcastTo_1b_ab_apply]
  simp only [shapeCast_1ab_ab_apply]

/-- exp of the scaled product h hT at (n, k) is exp of the specification's logit. -/
theorem vExpLogit_apply (h : FVec Ideal S200x256 .f32) (n k : Fin 200) :
    vExpLogit h (ix2 n k) = Ideal.exp (Cert.Mpnn.logit (fun i j => h (ix2 i j)) n k) := by
  unfold vExpLogit Cert.Mpnn.logit
  rw [vexp_apply, mulf_apply, dotB_apply, broadcast_apply]
  rfl

/-- The reciprocal column at (n, u): one over the sum of row n. -/
theorem vRecip_apply (p : FVec Ideal S200x200 .f32) (n : Fin 200) (u : Fin 1) :
    vRecip p (ix2 n u) = Ideal.div (Ideal.ofBits .f32 0x3F800000#32) (∑ k : Fin 200, p (ix2 n k)) := by
  unfold vRecip
  rw [divf_apply, broadcast_apply, col_apply, redRow_apply]
  rfl

/-- The soft adjacency at (n, k): the entry times the reciprocal of its row's sum. -/
theorem vAttn_apply (p : FVec Ideal S200x200 .f32) (n k : Fin 200) :
    vAttn p (ix2 n k)
      = p (ix2 n k) * Ideal.div (Ideal.ofBits .f32 0x3F800000#32) (∑ k' : Fin 200, p (ix2 n k')) := by
  unfold vAttn
  rw [mulf_apply, colBroadcast_apply, vRecip_apply]

/-- On the exps of the logits that is the specification's kernel-arranged row softmax. -/
theorem vAttn_vExpLogit_apply (h : FVec Ideal S200x256 .f32) (n k : Fin 200) :
    vAttn (vExpLogit h) (ix2 n k) = Cert.Mpnn.softK (Cert.Mpnn.logit (fun i j => h (ix2 i j))) n k := by
  rw [vAttn_apply]
  unfold Cert.Mpnn.softK
  simp only [vExpLogit_apply]

/-- The message at (n, d): the sum over k of a (n, k) * h (k, d). -/
theorem vMix_apply (a : FVec Ideal S200x200 .f32) (h : FVec Ideal S200x256 .f32) (n : Fin 200) (d : Fin 256) :
    vMix a h (ix2 n d) = Cert.Mpnn.mix (fun i j => a (ix2 i j)) (fun i j => h (ix2 i j)) n d := by
  unfold vMix Cert.Mpnn.mix
  rw [dotC_apply]

/-- The vertex update at (n, e): the two slices of the [512, 256] matrix read its rows d and 256 + d. -/
theorem vUpdate_apply (w : Vec Ideal S512x256 .f32) (b : FVec Ideal S1x256 .f32) (h g : FVec Ideal S200x256 .f32)
    (n : Fin 200) (e : Fin 256) :
    vUpdate w b h g (ix2 n e)
      = Cert.Mpnn.updK (fun i j => w (ix2 i j)) (fun e => b (ix2 0 e)) (fun i j => h (ix2 i j)) (fun i j => g (ix2 i j)) n e := by
  unfold vUpdate Cert.Mpnn.updK
  rw [vtanh_apply, addf_apply, addf_apply, dotD_apply, dotD_apply, broadcastTo_1b_ab_apply]
  have h0 : ∀ d : Fin 256, extractStridedSlice S256x256 ![0, 0] w slices_S512x256_o0_0_S256x256 (ix2 d e)
      = w (ix2 (⟨d.val, by omega⟩ : Fin 512) e) := fun d =>
    slice2_axis0_apply 0 w slices_S512x256_o0_0_S256x256 d e ⟨d.val, by omega⟩ (Nat.zero_add _).symm
  have h1 : ∀ d : Fin 256, extractStridedSlice S256x256 ![256, 0] w slices_S512x256_o256_0_S256x256 (ix2 d e)
      = w (ix2 (⟨256 + d.val, by omega⟩ : Fin 512) e) := fun d =>
    slice2_axis0_apply 256 w slices_S512x256_o256_0_S256x256 d e ⟨256 + d.val, by omega⟩ rfl
  simp only [h0, h1]

/-- One round at (n, d) is the specification's kernel-arranged step on the state's entries. -/
theorem vStep_apply (w : Vec Ideal S512x256 .f32) (b : FVec Ideal S1x256 .f32) (h : FVec Ideal S200x256 .f32)
    (n : Fin 200) (d : Fin 256) :
    vStep w b h (ix2 n d)
      = Cert.Mpnn.stepK (fun i j => w (ix2 i j)) (fun e => b (ix2 0 e)) (fun i j => h (ix2 i j)) n d := by
  unfold vStep Cert.Mpnn.stepK
  rw [vUpdate_apply]
  have ha : (fun i j => vAttn (vExpLogit h) (ix2 i j))
      = Cert.Mpnn.softK (Cert.Mpnn.logit (fun i j => h (ix2 i j))) :=
    funext fun i => funext fun j => vAttn_vExpLogit_apply h i j
  have hm : (fun i j => vMix (vAttn (vExpLogit h)) h (ix2 i j))
      = Cert.Mpnn.mix (Cert.Mpnn.softK (Cert.Mpnn.logit (fun i j => h (ix2 i j)))) (fun i j => h (ix2 i j)) := by
    funext i j
    rw [vMix_apply, ha]
  rw [hm]

/-- The first readout layer at (n, e). -/
theorem vDense_apply (w : Vec Ideal S256x256 .f32) (b : FVec Ideal S1x256 .f32) (h : FVec Ideal S200x256 .f32)
    (n : Fin 200) (e : Fin 256) :
    vDense w b h (ix2 n e)
      = Cert.Mpnn.dense (fun i j => h (ix2 i j)) (fun i j => w (ix2 i j)) (fun e => b (ix2 0 e)) n e := by
  unfold vDense Cert.Mpnn.dense
  rw [vtanh_apply, addf_apply, dotD_apply, broadcastTo_1b_ab_apply]

/-- The node sum's row at (u, d): the sum over the nodes n of the entry (n, d). -/
theorem vNodeSum_apply (x : FVec Ideal S200x256 .f32) (u : Fin 1) (d : Fin 256) :
    vNodeSum x (ix2 u d) = ∑ n : Fin 200, x (ix2 n d) := by
  unfold vNodeSum
  rw [shapeCast_a_1a_apply, redCol_apply]

/-- The second readout layer at (u, e): the row times the matrix, plus 200 times the bias. -/
theorem vRead_apply (w : Vec Ideal S256x256 .f32) (b : FVec Ideal S1x256 .f32) (r : FVec Ideal S1x256 .f32)
    (u : Fin 1) (e : Fin 256) :
    vRead w b r (ix2 u e)
      = (∑ d : Fin 256, r (ix2 u d) * w (ix2 d e)) + Ideal.ofBits .f32 0x43480000#32 * b (ix2 u e) := by
  unfold vRead
  rw [addf_apply, dotE_apply, mulf_apply, broadcast_apply]
  rfl

/-! ## The states as functions of their two coordinates -/

/-- The embedded jet as a function of (i, j). -/
theorem vEmbed_mat (x : Vec Ideal S1x200x8 .f32) (w : Vec Ideal S8x256 .f32) (b : FVec Ideal S1x256 .f32) :
    (fun i j => vEmbed x w b (ix2 i j))
      = Cert.Mpnn.dense (fun n f => x (ix3 0 n f)) (fun i j => w (ix2 i j)) (fun e => b (ix2 0 e)) :=
  funext fun i => funext fun j => vEmbed_apply x w b i j

/-- One round as a function of (i, j). -/
theorem vStep_mat (w : Vec Ideal S512x256 .f32) (b : FVec Ideal S1x256 .f32) (h : FVec Ideal S200x256 .f32) :
    (fun i j => vStep w b h (ix2 i j))
      = Cert.Mpnn.stepK (fun i j => w (ix2 i j)) (fun e => b (ix2 0 e)) (fun i j => h (ix2 i j)) :=
  funext fun i => funext fun j => vStep_apply w b h i j

/-- The network's parameters from the weight blocks as the kernel holds them: a matrix block by its two coordinates, a
    bias row [1, 256] by its second coordinate. -/
def paramsV (wemb : Vec Ideal S8x256 .f32) (bemb : FVec Ideal S1x256 .f32)
    (w0 : Vec Ideal S512x256 .f32) (b0 : FVec Ideal S1x256 .f32) (w1 : Vec Ideal S512x256 .f32) (b1 : FVec Ideal S1x256 .f32)
    (w2 : Vec Ideal S512x256 .f32) (b2 : FVec Ideal S1x256 .f32) (wr1 : Vec Ideal S256x256 .f32) (br1 : FVec Ideal S1x256 .f32)
    (wr2 : Vec Ideal S256x256 .f32) (br2 : FVec Ideal S1x256 .f32) : Cert.Mpnn.Params :=
  ⟨fun i j => wemb (ix2 i j), fun e => bemb (ix2 0 e), fun i j => w0 (ix2 i j), fun e => b0 (ix2 0 e),
   fun i j => w1 (ix2 i j), fun e => b1 (ix2 0 e), fun i j => w2 (ix2 i j), fun e => b2 (ix2 0 e),
   fun i j => wr1 (ix2 i j), fun e => br1 (ix2 0 e), fun i j => wr2 (ix2 i j), fun e => br2 (ix2 0 e)⟩

/-- The state after two rounds is the specification's. -/
theorem vState2_mat (x : Vec Ideal S1x200x8 .f32) (wemb : Vec Ideal S8x256 .f32) (bemb : FVec Ideal S1x256 .f32)
    (w0 : Vec Ideal S512x256 .f32) (b0 : FVec Ideal S1x256 .f32) (w1 : Vec Ideal S512x256 .f32) (b1 : FVec Ideal S1x256 .f32)
    (w2 : Vec Ideal S512x256 .f32) (b2 : FVec Ideal S1x256 .f32) (wr1 : Vec Ideal S256x256 .f32) (br1 : FVec Ideal S1x256 .f32)
    (wr2 : Vec Ideal S256x256 .f32) (br2 : FVec Ideal S1x256 .f32) :
    (fun i j => vState2 x wemb bemb w0 b0 w1 b1 (ix2 i j))
      = Cert.Mpnn.hK2 (paramsV wemb bemb w0 b0 w1 b1 w2 b2 wr1 br1 wr2 br2) (fun n f => x (ix3 0 n f)) := by
  unfold vState2
  rw [vStep_mat, vStep_mat, vEmbed_mat]
  rfl

/-- The state after three rounds is the specification's. -/
theorem vState3_mat (x : Vec Ideal S1x200x8 .f32) (wemb : Vec Ideal S8x256 .f32) (bemb : FVec Ideal S1x256 .f32)
    (w0 : Vec Ideal S512x256 .f32) (b0 : FVec Ideal S1x256 .f32) (w1 : Vec Ideal S512x256 .f32) (b1 : FVec Ideal S1x256 .f32)
    (w2 : Vec Ideal S512x256 .f32) (b2 : FVec Ideal S1x256 .f32) (wr1 : Vec Ideal S256x256 .f32) (br1 : FVec Ideal S1x256 .f32)
    (wr2 : Vec Ideal S256x256 .f32) (br2 : FVec Ideal S1x256 .f32) :
    (fun i j => vStep w2 b2 (vState2 x wemb bemb w0 b0 w1 b1) (ix2 i j))
      = Cert.Mpnn.hK3 (paramsV wemb bemb w0 b0 w1 b1 w2 b2 wr1 br1 wr2 br2) (fun n f => x (ix3 0 n f)) := by
  rw [vStep_mat, vState2_mat x wemb bemb w0 b0 w1 b1 w2 b2 wr1 br1 wr2 br2]
  rfl

/-- The jet's stored soft adjacency at entry (0, i, j). -/
theorem jetAttnV_apply (x : Vec Ideal S1x200x8 .f32) (wemb : Vec Ideal S8x256 .f32) (bemb : FVec Ideal S1x256 .f32)
    (w0 : Vec Ideal S512x256 .f32) (b0 : FVec Ideal S1x256 .f32) (w1 : Vec Ideal S512x256 .f32) (b1 : FVec Ideal S1x256 .f32)
    (w2 : Vec Ideal S512x256 .f32) (b2 : FVec Ideal S1x256 .f32) (wr1 : Vec Ideal S256x256 .f32) (br1 : FVec Ideal S1x256 .f32)
    (wr2 : Vec Ideal S256x256 .f32) (br2 : FVec Ideal S1x256 .f32) (i j : Fin 200) :
    jetAttnV x wemb bemb w0 b0 w1 b1 (ix3 0 i j)
      = Cert.Mpnn.attnK (paramsV wemb bemb w0 b0 w1 b1 w2 b2 wr1 br1 wr2 br2) (fun n f => x (ix3 0 n f)) i j := by
  unfold jetAttnV
  rw [shapeCast_ab_1ab_apply, vAttn_vExpLogit_apply,
    vState2_mat x wemb bemb w0 b0 w1 b1 w2 b2 wr1 br1 wr2 br2]
  rfl

/-- The jet's stored readout at entry (0, 0, e). -/
theorem jetOutV_apply (x : Vec Ideal S1x200x8 .f32) (wemb : Vec Ideal S8x256 .f32) (bemb : FVec Ideal S1x256 .f32)
    (w0 : Vec Ideal S512x256 .f32) (b0 : FVec Ideal S1x256 .f32) (w1 : Vec Ideal S512x256 .f32) (b1 : FVec Ideal S1x256 .f32)
    (w2 : Vec Ideal S512x256 .f32) (b2 : FVec Ideal S1x256 .f32) (wr1 : Vec Ideal S256x256 .f32) (br1 : FVec Ideal S1x256 .f32)
    (wr2 : Vec Ideal S256x256 .f32) (br2 : FVec Ideal S1x256 .f32) (e : Fin 256) :
    jetOutV x wemb bemb w0 b0 w1 b1 w2 b2 wr1 br1 wr2 br2 (ix3 0 0 e)
      = Cert.Mpnn.outK (paramsV wemb bemb w0 b0 w1 b1 w2 b2 wr1 br1 wr2 br2) (fun n f => x (ix3 0 n f)) e := by
  unfold jetOutV
  rw [shapeCast_ab_1ab_apply, vRead_apply]
  simp only [vNodeSum_apply, vDense_apply]
  rw [vState3_mat x wemb bemb w0 b0 w1 b1 w2 b2 wr1 br1 wr2 br2]
  rfl

end Cert.KernelIdeal.Jet

end
-- ==== Proof.KPieces.lean ====
/-
  What the kernel body leaves in its two output blocks, [16, 1, 256] and [16, 200, 200]: sixteen pieces, one per jet,
  each the jet's two stored blocks of the jet's [1, 200, 8] slice of the input block and the whole weight blocks.
  Read entry by entry at the extended reals, entry (j, 0, e) of the first block is the network's readout of jet j and
  entry (j, n, m) of the second its last soft adjacency.
-/
import proofs.«135256_g85813446574462_cont_9to1c4b_288_18_alg».proof.Proof.Gen.KernelIdeal.Frame
import proofs.«135256_g85813446574462_cont_9to1c4b_288_18_alg».proof.Proof.KJet
import proofs.«135256_g85813446574462_cont_9to1c4b_288_18_alg».proof.Proof.KJetIdx
import proofs.«135256_g85813446574462_cont_9to1c4b_288_18_alg».proof.Proof.Spec
import Idealize.ShloMosaic.Lib.ValueIdx
import Idealize.ShloMosaic.Lib.Pipeline.Value

set_option synthInstance.maxSize 4096
set_option maxRecDepth 16384

noncomputable section

namespace Cert.KernelIdeal.Pieces

open Idealize.ShloMosaic Idealize.ShloMosaic.ValueIdx Idealize.SL.Sem Cert.KernelIdeal Cert.KernelIdeal.Gen Cert.KernelIdeal.Jet

section AnyInstance
variable {F : FTy → Type} [FloatOps F]

/-- The first output block is its sixteen stores, the last jet's first: jet j's readout at rows j. -/
theorem out13_eq (x0 : Vec F S16x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) :
    out0_13 x0 x1 x2 x3 x4 x5 x6 x7 x8 x9 x10 x11 x12 = View.canon [
    ⟨r0_50, jetOutV (View.ld x0 r0_19) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_48, jetOutV (View.ld x0 r0_18) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_46, jetOutV (View.ld x0 r0_17) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_44, jetOutV (View.ld x0 r0_16) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_42, jetOutV (View.ld x0 r0_15) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_40, jetOutV (View.ld x0 r0_14) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_38, jetOutV (View.ld x0 r0_13) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_36, jetOutV (View.ld x0 r0_12) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_34, jetOutV (View.ld x0 r0_11) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_32, jetOutV (View.ld x0 r0_10) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_30, jetOutV (View.ld x0 r0_9) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_28, jetOutV (View.ld x0 r0_8) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_26, jetOutV (View.ld x0 r0_7) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_24, jetOutV (View.ld x0 r0_6) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_22, jetOutV (View.ld x0 r0_5) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩,
    ⟨r0_20, jetOutV (View.ld x0 r0_4) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1))⟩] := rfl

/-- The second output block likewise: jet j's soft adjacency at slab j. -/
theorem out14_eq (x0 : Vec F S16x200x8 .f32) (x1 : Vec F S8x256 .f32) (x2 : Vec F S1x256 .f32) (x3 : Vec F S512x256 .f32) (x4 : Vec F S1x256 .f32) (x5 : Vec F S512x256 .f32) (x6 : Vec F S1x256 .f32) (x7 : Vec F S512x256 .f32) (x8 : Vec F S1x256 .f32) (x9 : Vec F S256x256 .f32) (x10 : Vec F S1x256 .f32) (x11 : Vec F S256x256 .f32) (x12 : Vec F S1x256 .f32) :
    out0_14 x0 x1 x2 x3 x4 x5 x6 x7 x8 x9 x10 x11 x12 = View.canon [
    ⟨r0_51, jetAttnV (View.ld x0 r0_19) (View.ld x1 r0_0) (vBias (View.ld x2 r0_1)) (View.ld x3 r0_2) (vBias (View.ld x4 r0_1)) (View.ld x5 r0_2) (vBias (View.ld x6 r0_1))⟩,
    ⟨r0_49, jetAttnV (View.ld x0 r0_18) (View.ld x1 r0_0) (vBias (View.ld x2 r0_1)) (View.ld x3 r0_2) (vBias (View.ld x4 r0_1)) (View.ld x5 r0_2) (vBias (View.ld x6 r0_1))⟩,
    ⟨r0_47, jetAttnV (View.ld x0 r0_17) (View.ld x1 r0_0) (vBias (View.ld x2 r0_1)) (View.ld x3 r0_2) (vBias (View.ld x4 r0_1)) (View.ld x5 r0_2) (vBias (View.ld x6 r0_1))⟩,
    ⟨r0_45, jetAttnV (View.ld x0 r0_16) (View.ld x1 r0_0) (vBias (View.ld x2 r0_1)) (View.ld x3 r0_2) (vBias (View.ld x4 r0_1)) (View.ld x5 r0_2) (vBias (View.ld x6 r0_1))⟩,
    ⟨r0_43, jetAttnV (View.ld x0 r0_15) (View.ld x1 r0_0) (vBias (View.ld x2 r0_1)) (View.ld x3 r0_2) (vBias (View.ld x4 r0_1)) (View.ld x5 r0_2) (vBias (View.ld x6 r0_1))⟩,
    ⟨r0_41, jetAttnV (View.ld x0 r0_14) (View.ld x1 r0_0) (vBias (View.ld x2 r0_1)) (View.ld x3 r0_2) (vBias (View.ld x4 r0_1)) (View.ld x5 r0_2) (vBias (View.ld x6 r0_1))⟩,
    ⟨r0_39, jetAttnV (View.ld x0 r0_13) (View.ld x1 r0_0) (vBias (View.ld x2 r0_1)) (View.ld x3 r0_2) (vBias (View.ld x4 r0_1)) (View.ld x5 r0_2) (vBias (View.ld x6 r0_1))⟩,
    ⟨r0_37, jetAttnV (View.ld x0 r0_12) (View.ld x1 r0_0) (vBias (View.ld x2 r0_1)) (View.ld x3 r0_2) (vBias (View.ld x4 r0_1)) (View.ld x5 r0_2) (vBias (View.ld x6 r0_1))⟩,
    ⟨r0_35, jetAttnV (View.ld x0 r0_11) (View.ld x1 r0_0) (vBias (View.ld x2 r0_1)) (View.ld x3 r0_2) (vBias (View.ld x4 r0_1)) (View.ld x5 r0_2) (vBias (View.ld x6 r0_1))⟩,
    ⟨r0_33, jetAttnV (View.ld x0 r0_10) (View.ld x1 r0_0) (vBias (View.ld x2 r0_1)) (View.ld x3 r0_2) (vBias (View.ld x4 r0_1)) (View.ld x5 r0_2) (vBias (View.ld x6 r0_1))⟩,
    ⟨r0_31, jetAttnV (View.ld x0 r0_9) (View.ld x1 r0_0) (vBias (View.ld x2 r0_1)) (View.ld x3 r0_2) (vBias (View.ld x4 r0_1)) (View.ld x5 r0_2) (vBias (View.ld x6 r0_1))⟩,
    ⟨r0_29, jetAttnV (View.ld x0 r0_8) (View.ld x1 r0_0) (vBias (View.ld x2 r0_1)) (View.ld x3 r0_2) (vBias (View.ld x4 r0_1)) (View.ld x5 r0_2) (vBias (View.ld x6 r0_1))⟩,
    ⟨r0_27, jetAttnV (View.ld x0 r0_7) (View.ld x1 r0_0) (vBias (View.ld x2 r0_1)) (View.ld x3 r0_2) (vBias (View.ld x4 r0_1)) (View.ld x5 r0_2) (vBias (View.ld x6 r0_1))⟩,
    ⟨r0_25, jetAttnV (View.ld x0 r0_6) (View.ld x1 r0_0) (vBias (View.ld x2 r0_1)) (View.ld x3 r0_2) (vBias (View.ld x4 r0_1)) (View.ld x5 r0_2) (vBias (View.ld x6 r0_1))⟩,
    ⟨r0_23, jetAttnV (View.ld x0 r0_5) (View.ld x1 r0_0) (vBias (View.ld x2 r0_1)) (View.ld x3 r0_2) (vBias (View.ld x4 r0_1)) (View.ld x5 r0_2) (vBias (View.ld x6 r0_1))⟩,
    ⟨r0_21, jetAttnV (View.ld x0 r0_4) (View.ld x1 r0_0) (vBias (View.ld x2 r0_1)) (View.ld x3 r0_2) (vBias (View.ld x4 r0_1)) (View.ld x5 r0_2) (vBias (View.ld x6 r0_1))⟩] := rfl

end AnyInstance

/-- The zero offsets of a rank-2 block, however spelt. -/
theorem off2_zero : (![0, 0] : Fin 2 → Nat) = fun _ => 0 := by
  funext a; match a with | ⟨0, _⟩ => rfl | ⟨1, _⟩ => rfl

/-- A weight block read through the whole-block rectangle is the block. -/
theorem ld_r0_0 (x : Vec Ideal S8x256 .f32) : View.ld x r0_0 = x := View.ld_unit_zero off2_zero _ x
theorem ld_r0_1 (x : Vec Ideal S1x256 .f32) : View.ld x r0_1 = x := View.ld_unit_zero off2_zero _ x
theorem ld_r0_2 (x : Vec Ideal S512x256 .f32) : View.ld x r0_2 = x := View.ld_unit_zero off2_zero _ x
theorem ld_r0_3 (x : Vec Ideal S256x256 .f32) : View.ld x r0_3 = x := View.ld_unit_zero off2_zero _ x

/-- A bias row as the kernel reads it (the row cast to its own shape) is the row. -/
theorem vBias_ld (x : Vec Ideal S1x256 .f32) : vBias (View.ld x r0_1) = x := by
  rw [ld_r0_1]; exact shapeCast_self x _

/-- Jet o's [1, 200, 8] slab of the input block, read at (0, n, f), is the block's entry (o, n, f). -/
theorem ld_jet (x0 : Vec Ideal S16x200x8 .f32) (o : Nat) (ho : o < 16)
    (inb : ∀ a, (![o, 0, 0] : Fin 3 → Nat) a + S1x200x8.size a ≤ S16x200x8.size a) (n : Fin 200) (f : Fin 8) :
    View.ld x0 (Rect.unit (s := S16x200x8) ![o, 0, 0] S1x200x8.size inb) (ix3 0 n f) = x0 (ix3 ⟨o, ho⟩ n f) := by
  show x0 _ = x0 _
  congr 1
  funext a
  match a with
  | ⟨0, _⟩ => exact Fin.ext (by show o + 1 * 0 = o; omega)
  | ⟨1, _⟩ => exact Fin.ext (by show 0 + 1 * n.val = n.val; omega)
  | ⟨2, _⟩ => exact Fin.ext (by show 0 + 1 * f.val = f.val; omega)

/-- The network's parameters from the twelve weight blocks (each the whole array: every point stages all of it). -/
def paramsB (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) : Cert.Mpnn.Params :=
  ⟨fun i j => x1 (ix2 i j), fun e => x2 (ix2 0 e), fun i j => x3 (ix2 i j), fun e => x4 (ix2 0 e),
   fun i j => x5 (ix2 i j), fun e => x6 (ix2 0 e), fun i j => x7 (ix2 i j), fun e => x8 (ix2 0 e),
   fun i j => x9 (ix2 i j), fun e => x10 (ix2 0 e), fun i j => x11 (ix2 i j), fun e => x12 (ix2 0 e)⟩

/-- The first output block as ONE function of its index: the readout of the jet the first coordinate names. -/
def G13 (x0 : Vec Ideal S16x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) : S16x1x256.Idx → Ideal .f32 :=
  fun y => Cert.Mpnn.outK (paramsB x1 x2 x3 x4 x5 x6 x7 x8 x9 x10 x11 x12) (fun n f => x0 (ix3 (y 0) n f)) (y 2)

/-- The second output block as ONE function of its index. -/
def G14 (x0 : Vec Ideal S16x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) : S16x200x200.Idx → Ideal .f32 :=
  fun y => Cert.Mpnn.attnK (paramsB x1 x2 x3 x4 x5 x6 x7 x8 x9 x10 x11 x12) (fun n f => x0 (ix3 (y 0) n f)) (y 1) (y 2)

/-- Every index of a [1, 1, 256] block is (0, 0, e). -/
theorem idx_1x1x256 (x : S1x1x256.Idx) : ∃ e : Fin 256, x = ix3 0 0 e := by
  refine ⟨x 2, ?_⟩
  funext a
  match a with
  | ⟨0, _⟩ => exact Fin.ext (Nat.lt_one_iff.mp (x 0).isLt)
  | ⟨1, _⟩ => exact Fin.ext (Nat.lt_one_iff.mp (x 1).isLt)
  | ⟨2, _⟩ => rfl

/-- Every index of a [1, 200, 200] block is (0, n, k). -/
theorem idx_1x200x200 (x : S1x200x200.Idx) : ∃ n k : Fin 200, x = ix3 0 n k := by
  refine ⟨x 1, x 2, ?_⟩
  funext a
  match a with
  | ⟨0, _⟩ => exact Fin.ext (Nat.lt_one_iff.mp (x 0).isLt)
  | ⟨1, _⟩ => rfl
  | ⟨2, _⟩ => rfl

/-- Row o of the first output block's sixteen [1, 1, 256] rows, at (0, 0, e), is the block's index (o, 0, e). -/
theorem emb_row13 (o : Nat) (ho : o < 16)
    (inb : ∀ a, (![o, 0, 0] : Fin 3 → Nat) a + S1x1x256.size a ≤ S16x1x256.size a) (e : Fin 256) :
    (Rect.unit (s := S16x1x256) ![o, 0, 0] S1x1x256.size inb).emb (ix3 0 0 e) = ix3 ⟨o, ho⟩ 0 e := by
  funext a
  match a with
  | ⟨0, _⟩ => exact Fin.ext (by show o + 1 * 0 = o; omega)
  | ⟨1, _⟩ => exact Fin.ext (by show 0 + 1 * 0 = 0; omega)
  | ⟨2, _⟩ => exact Fin.ext (by show 0 + 1 * e.val = e.val; omega)

/-- Slab o of the second output block's sixteen [1, 200, 200] slabs, at (0, n, k), is the block's index (o, n, k). -/
theorem emb_row14 (o : Nat) (ho : o < 16)
    (inb : ∀ a, (![o, 0, 0] : Fin 3 → Nat) a + S1x200x200.size a ≤ S16x200x200.size a) (n k : Fin 200) :
    (Rect.unit (s := S16x200x200) ![o, 0, 0] S1x200x200.size inb).emb (ix3 0 n k) = ix3 ⟨o, ho⟩ n k := by
  funext a
  match a with
  | ⟨0, _⟩ => exact Fin.ext (by show o + 1 * 0 = o; omega)
  | ⟨1, _⟩ => exact Fin.ext (by show 0 + 1 * n.val = n.val; omega)
  | ⟨2, _⟩ => exact Fin.ext (by show 0 + 1 * k.val = k.val; omega)

/-- Jet o's piece of the first output block is the block of G13 its rectangle names. -/
theorem piece13 (x0 : Vec Ideal S16x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (o : Nat) (ho : o < 16)
    (inbA : ∀ a, (![o, 0, 0] : Fin 3 → Nat) a + S1x200x8.size a ≤ S16x200x8.size a)
    (inbB : ∀ a, (![o, 0, 0] : Fin 3 → Nat) a + S1x1x256.size a ≤ S16x1x256.size a) (x : S1x1x256.Idx) :
    jetOutV (View.ld x0 (Rect.unit (s := S16x200x8) ![o, 0, 0] S1x200x8.size inbA)) (View.ld x1 r0_0) (vBias (View.ld x2 r0_1)) (View.ld x3 r0_2) (vBias (View.ld x4 r0_1)) (View.ld x5 r0_2) (vBias (View.ld x6 r0_1)) (View.ld x7 r0_2) (vBias (View.ld x8 r0_1)) (View.ld x9 r0_3) (vBias (View.ld x10 r0_1)) (View.ld x11 r0_3) (vBias (View.ld x12 r0_1)) x
      = G13 x0 x1 x2 x3 x4 x5 x6 x7 x8 x9 x10 x11 x12 ((Rect.unit (s := S16x1x256) ![o, 0, 0] S1x1x256.size inbB).emb x) := by
  obtain ⟨e, rfl⟩ := idx_1x1x256 x
  rw [emb_row13 o ho inbB, jetOutV_apply]
  simp only [ld_r0_0, ld_r0_2, ld_r0_3, vBias_ld, ld_jet x0 o ho inbA]
  rfl

/-- Jet o's piece of the second output block is the block of G14 its rectangle names. -/
theorem piece14 (x0 : Vec Ideal S16x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (o : Nat) (ho : o < 16)
    (inbA : ∀ a, (![o, 0, 0] : Fin 3 → Nat) a + S1x200x8.size a ≤ S16x200x8.size a)
    (inbB : ∀ a, (![o, 0, 0] : Fin 3 → Nat) a + S1x200x200.size a ≤ S16x200x200.size a) (x : S1x200x200.Idx) :
    jetAttnV (View.ld x0 (Rect.unit (s := S16x200x8) ![o, 0, 0] S1x200x8.size inbA)) (View.ld x1 r0_0) (vBias (View.ld x2 r0_1)) (View.ld x3 r0_2) (vBias (View.ld x4 r0_1)) (View.ld x5 r0_2) (vBias (View.ld x6 r0_1)) x
      = G14 x0 x1 x2 x3 x4 x5 x6 x7 x8 x9 x10 x11 x12 ((Rect.unit (s := S16x200x200) ![o, 0, 0] S1x200x200.size inbB).emb x) := by
  obtain ⟨n, k, rfl⟩ := idx_1x200x200 x
  rw [emb_row14 o ho inbB, jetAttnV_apply _ _ _ _ _ _ _ x7 x8 x9 x10 x11 x12]
  simp only [ld_r0_0, ld_r0_2, vBias_ld, ld_jet x0 o ho inbA]
  rfl

/-- Entry (j, 0, e) of the first output block: the readout of jet j of the input block. -/
theorem out13_apply (x0 : Vec Ideal S16x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (j : Fin 16) (e : Fin 256) :
    out0_13 x0 x1 x2 x3 x4 x5 x6 x7 x8 x9 x10 x11 x12 (ix3 j 0 e)
      = Cert.Mpnn.outK (paramsB x1 x2 x3 x4 x5 x6 x7 x8 x9 x10 x11 x12) (fun n f => x0 (ix3 j n f)) e := by
  rw [out13_eq]
  refine (View.canon_apply_of_pieces (G13 x0 x1 x2 x3 x4 x5 x6 x7 x8 x9 x10 x11 x12) _ ?_ (ix3 j 0 e)
    (cover0_13 _ _ _ _ _ _ _ _ _ _ _ _ _ _ _ _ (ix3 j 0 e))).trans rfl
  intro p hp
  simp only [List.mem_cons, List.mem_nil_iff, or_false] at hp
  rcases hp with rfl | rfl | rfl | rfl | rfl | rfl | rfl | rfl | rfl | rfl | rfl | rfl | rfl | rfl | rfl | rfl
  · exact piece13 x0 x1 x2 x3 x4 x5 x6 x7 x8 x9 x10 x11 x12 15 (by omega) inb_S16x200x8_S1x200x8_15_0_0 inb_S16x1x256_S1x1x256_15_0_0
  · exact piece13 x0 x1 x2 x3 x4 x5 x6 x7 x8 x9 x10 x11 x12 14 (by omega) inb_S16x200x8_S1x200x8_14_0_0 inb_S16x1x256_S1x1x256_14_0_0
  · exact piece13 x0 x1 x2 x3 x4 x5 x6 x7 x8 x9 x10 x11 x12 13 (by omega) inb_S16x200x8_S1x200x8_13_0_0 inb_S16x1x256_S1x1x256_13_0_0
  · exact piece13 x0 x1 x2 x3 x4 x5 x6 x7 x8 x9 x10 x11 x12 12 (by omega) inb_S16x200x8_S1x200x8_12_0_0 inb_S16x1x256_S1x1x256_12_0_0
  · exact piece13 x0 x1 x2 x3 x4 x5 x6 x7 x8 x9 x10 x11 x12 11 (by omega) inb_S16x200x8_S1x200x8_11_0_0 inb_S16x1x256_S1x1x256_11_0_0
  · exact piece13 x0 x1 x2 x3 x4 x5 x6 x7 x8 x9 x10 x11 x12 10 (by omega) inb_S16x200x8_S1x200x8_10_0_0 inb_S16x1x256_S1x1x256_10_0_0
  · exact piece13 x0 x1 x2 x3 x4 x5 x6 x7 x8 x9 x10 x11 x12 9 (by omega) inb_S16x200x8_S1x200x8_9_0_0 inb_S16x1x256_S1x1x256_9_0_0
  · exact piece13 x0 x1 x2 x3 x4 x5 x6 x7 x8 x9 x10 x11 x12 8 (by omega) inb_S16x200x8_S1x200x8_8_0_0 inb_S16x1x256_S1x1x256_8_0_0
  · exact piece13 x0 x1 x2 x3 x4 x5 x6 x7 x8 x9 x10 x11 x12 7 (by omega) inb_S16x200x8_S1x200x8_7_0_0 inb_S16x1x256_S1x1x256_7_0_0
  · exact piece13 x0 x1 x2 x3 x4 x5 x6 x7 x8 x9 x10 x11 x12 6 (by omega) inb_S16x200x8_S1x200x8_6_0_0 inb_S16x1x256_S1x1x256_6_0_0
  · exact piece13 x0 x1 x2 x3 x4 x5 x6 x7 x8 x9 x10 x11 x12 5 (by omega) inb_S16x200x8_S1x200x8_5_0_0 inb_S16x1x256_S1x1x256_5_0_0
  · exact piece13 x0 x1 x2 x3 x4 x5 x6 x7 x8 x9 x10 x11 x12 4 (by omega) inb_S16x200x8_S1x200x8_4_0_0 inb_S16x1x256_S1x1x256_4_0_0
  · exact piece13 x0 x1 x2 x3 x4 x5 x6 x7 x8 x9 x10 x11 x12 3 (by omega) inb_S16x200x8_S1x200x8_3_0_0 inb_S16x1x256_S1x1x256_3_0_0
  · exact piece13 x0 x1 x2 x3 x4 x5 x6 x7 x8 x9 x10 x11 x12 2 (by omega) inb_S16x200x8_S1x200x8_2_0_0 inb_S16x1x256_S1x1x256_2_0_0
  · exact piece13 x0 x1 x2 x3 x4 x5 x6 x7 x8 x9 x10 x11 x12 1 (by omega) inb_S16x200x8_S1x200x8_1_0_0 inb_S16x1x256_S1x1x256_1_0_0
  · exact piece13 x0 x1 x2 x3 x4 x5 x6 x7 x8 x9 x10 x11 x12 0 (by omega) inb_S16x200x8_S1x200x8_0_0_0 inb_S16x1x256_S1x1x256_0_0_0

/-- Entry (j, n, m) of the second output block: the last soft adjacency of jet j of the input block. -/
theorem out14_apply (x0 : Vec Ideal S16x200x8 .f32) (x1 : Vec Ideal S8x256 .f32) (x2 : Vec Ideal S1x256 .f32) (x3 : Vec Ideal S512x256 .f32) (x4 : Vec Ideal S1x256 .f32) (x5 : Vec Ideal S512x256 .f32) (x6 : Vec Ideal S1x256 .f32) (x7 : Vec Ideal S512x256 .f32) (x8 : Vec Ideal S1x256 .f32) (x9 : Vec Ideal S256x256 .f32) (x10 : Vec Ideal S1x256 .f32) (x11 : Vec Ideal S256x256 .f32) (x12 : Vec Ideal S1x256 .f32) (j : Fin 16) (n k : Fin 200) :
    out0_14 x0 x1 x2 x3 x4 x5 x6 x7 x8 x9 x10 x11 x12 (ix3 j n k)
      = Cert.Mpnn.attnK (paramsB x1 x2 x3 x4 x5 x6 x7 x8 x9 x10 x11 x12) (fun n f => x0 (ix3 j n f)) n k := by
  rw [out14_eq]
  refine (View.canon_apply_of_pieces (G14 x0 x1 x2 x3 x4 x5 x6 x7 x8 x9 x10 x11 x12) _ ?_ (ix3 j n k)
    (cover0_14 _ _ _ _ _ _ _ _ _ _ _ _ _ _ _ _ (ix3 j n k))).trans rfl
  intro p hp
  simp only [List.mem_cons, List.mem_nil_iff, or_false] at hp
  rcases hp with rfl | rfl | rfl | rfl | rfl | rfl | rfl | rfl | rfl | rfl | rfl | rfl | rfl | rfl | rfl | rfl
  · exact piece14 x0 x1 x2 x3 x4 x5 x6 x7 x8 x9 x10 x11 x12 15 (by omega) inb_S16x200x8_S1x200x8_15_0_0 inb_S16x200x200_S1x200x200_15_0_0
  · exact piece14 x0 x1 x2 x3 x4 x5 x6 x7 x8 x9 x10 x11 x12 14 (by omega) inb_S16x200x8_S1x200x8_14_0_0 inb_S16x200x200_S1x200x200_14_0_0
  · exact piece14 x0 x1 x2 x3 x4 x5 x6 x7 x8 x9 x10 x11 x12 13 (by omega) inb_S16x200x8_S1x200x8_13_0_0 inb_S16x200x200_S1x200x200_13_0_0
  · exact piece14 x0 x1 x2 x3 x4 x5 x6 x7 x8 x9 x10 x11 x12 12 (by omega) inb_S16x200x8_S1x200x8_12_0_0 inb_S16x200x200_S1x200x200_12_0_0
  · exact piece14 x0 x1 x2 x3 x4 x5 x6 x7 x8 x9 x10 x11 x12 11 (by omega) inb_S16x200x8_S1x200x8_11_0_0 inb_S16x200x200_S1x200x200_11_0_0
  · exact piece14 x0 x1 x2 x3 x4 x5 x6 x7 x8 x9 x10 x11 x12 10 (by omega) inb_S16x200x8_S1x200x8_10_0_0 inb_S16x200x200_S1x200x200_10_0_0
  · exact piece14 x0 x1 x2 x3 x4 x5 x6 x7 x8 x9 x10 x11 x12 9 (by omega) inb_S16x200x8_S1x200x8_9_0_0 inb_S16x200x200_S1x200x200_9_0_0
  · exact piece14 x0 x1 x2 x3 x4 x5 x6 x7 x8 x9 x10 x11 x12 8 (by omega) inb_S16x200x8_S1x200x8_8_0_0 inb_S16x200x200_S1x200x200_8_0_0
  · exact piece14 x0 x1 x2 x3 x4 x5 x6 x7 x8 x9 x10 x11 x12 7 (by omega) inb_S16x200x8_S1x200x8_7_0_0 inb_S16x200x200_S1x200x200_7_0_0
  · exact piece14 x0 x1 x2 x3 x4 x5 x6 x7 x8 x9 x10 x11 x12 6 (by omega) inb_S16x200x8_S1x200x8_6_0_0 inb_S16x200x200_S1x200x200_6_0_0
  · exact piece14 x0 x1 x2 x3 x4 x5 x6 x7 x8 x9 x10 x11 x12 5 (by omega) inb_S16x200x8_S1x200x8_5_0_0 inb_S16x200x200_S1x200x200_5_0_0
  · exact piece14 x0 x1 x2 x3 x4 x5 x6 x7 x8 x9 x10 x11 x12 4 (by omega) inb_S16x200x8_S1x200x8_4_0_0 inb_S16x200x200_S1x200x200_4_0_0
  · exact piece14 x0 x1 x2 x3 x4 x5 x6 x7 x8 x9 x10 x11 x12 3 (by omega) inb_S16x200x8_S1x200x8_3_0_0 inb_S16x200x200_S1x200x200_3_0_0
  · exact piece14 x0 x1 x2 x3 x4 x5 x6 x7 x8 x9 x10 x11 x12 2 (by omega) inb_S16x200x8_S1x200x8_2_0_0 inb_S16x200x200_S1x200x200_2_0_0
  · exact piece14 x0 x1 x2 x3 x4 x5 x6 x7 x8 x9 x10 x11 x12 1 (by omega) inb_S16x200x8_S1x200x8_1_0_0 inb_S16x200x200_S1x200x200_1_0_0
  · exact piece14 x0 x1 x2 x3 x4 x5 x6 x7 x8 x9 x10 x11 x12 0 (by omega) inb_S16x200x8_S1x200x8_0_0_0 inb_S16x200x200_S1x200x200_0_0_0

end Cert.KernelIdeal.Pieces

end
-- ==== Proof.KFinal.lean ====
/-
  The kernel's run at the extended reals, with its two results named: grid point t handles the sixteen jets
  16 t .. 16 t + 15, so the sixteen-jet blocks written back at the eight points tile the two result arrays, and
  every entry is the kernel-arranged network of the specification applied to the arguments as launched. The biases
  reach the kernel through a reshape [256] to [1, 256] before the call, and the first result leaves through a
  reshape [128, 1, 256] to [128, 256] after it; both only rename coordinates.
-/
import proofs.«135256_g85813446574462_cont_9to1c4b_288_18_alg».proof.Proof.Gen.KernelIdeal.Frame
import proofs.«135256_g85813446574462_cont_9to1c4b_288_18_alg».proof.Proof.KPieces
import proofs.«135256_g85813446574462_cont_9to1c4b_288_18_alg».proof.Proof.Spec
import Idealize.ShloMosaic.Lib.Pipeline.Value
import Idealize.ShloMosaic.Lib.ValueIdx
import Idealize.ShloMosaic.Lib.ValueLayout
import Idealize.ShloMosaic.Lib.StableHlo.Run

set_option synthInstance.maxSize 4096
set_option maxRecDepth 16384

noncomputable section

namespace Cert.KernelIdeal.Final

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The network's parameters from the twelve weight arguments as launched on device c. -/
def P (c : Dev nD) : Cert.Mpnn.Params :=
  Cert.Mpnn.params (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- The input window and the two result windows are on block (t, 0, 0) at point t. -/
theorem idx_facts : ∀ t : Fin cfg0.N,
    (win0_0.index t (0 : Fin 3) = t.val ∧ win0_0.index t (1 : Fin 3) = 0 ∧ win0_0.index t (2 : Fin 3) = 0)
    ∧ (win0_13.index t (0 : Fin 3) = t.val ∧ win0_13.index t (1 : Fin 3) = 0 ∧ win0_13.index t (2 : Fin 3) = 0)
    ∧ (win0_14.index t (0 : Fin 3) = t.val ∧ win0_14.index t (1 : Fin 3) = 0 ∧ win0_14.index t (2 : Fin 3) = 0) :=
  (by decide +kernel : ∀ t : Fin grid0.N, _)

/-- The twelve weight windows stay on block (0, 0) at every point. -/
theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- Point t's sixteen jets are jets of the array. -/
theorem jet_lt (t : Fin cfg0.N) (j : Fin 16) : 16 * t.val + j.val < 128 := by
  have := t.isLt; have h : cfg0.N = 8 := N_0; have := j.isLt; omega

/-- The input block at point t is jets 16 t .. 16 t + 15 of the input array. -/
theorem jets_block (c : Dev nD) (t : Fin cfg0.N) (j : Fin 16) (n : Fin 200) (f : Fin 8) :
    (iblk m c 0 t : Vec Ideal S16x200x8 .f32) (ix3 j n f)
      = (m ((c : Thread nD τ).loc main_arg0) : S128x200x8.Idx → EReal) (ix3 ⟨16 * t.val + j.val, jet_lt t j⟩ n f) := by
  obtain ⟨⟨e0, e1, e2⟩, -, -⟩ := idx_facts t
  unfold iblk
  rw [View.read_apply]
  show V m c main_arg0 _ = _
  rw [V_main_arg0]
  congr 1
  funext a
  apply Fin.ext
  match a with
  | ⟨0, _⟩ => show win0_0.index t (0 : Fin 3) * 16 + 1 * j.val = 16 * t.val + j.val; omega
  | ⟨1, _⟩ => show win0_0.index t (1 : Fin 3) * 200 + 1 * n.val = n.val; omega
  | ⟨2, _⟩ => show win0_0.index t (2 : Fin 3) * 8 + 1 * f.val = f.val; omega

/-- Window 1's block is the whole embedding matrix at every point. -/
theorem whole_block1 (c : Dev nD) (t : Fin cfg0.N) (i : Fin 8) (k : Fin 256) :
    (iblk m c 1 t : Vec Ideal S8x256 .f32) (ix2 i k) = (m ((c : Thread nD τ).loc main_arg1) : S8x256.Idx → EReal) (ix2 i k) := by
  obtain ⟨⟨e0, e1⟩, -⟩ := idx_whole t
  unfold iblk
  rw [View.read_apply]
  show V m c main_arg1 _ = _
  rw [V_main_arg1]
  congr 1
  funext a
  apply Fin.ext
  match a with
  | ⟨0, _⟩ => show win0_1.index t (0 : Fin 2) * 8 + 1 * i.val = i.val; omega
  | ⟨1, _⟩ => show win0_1.index t (1 : Fin 2) * 256 + 1 * k.val = k.val; omega

/-- Window 3's block is the whole matrix main_arg3 at every point. -/
theorem whole_block3 (c : Dev nD) (t : Fin cfg0.N) (i : Fin 512) (k : Fin 256) :
    (iblk m c 3 t : Vec Ideal S512x256 .f32) (ix2 i k) = (m ((c : Thread nD τ).loc main_arg3) : S512x256.Idx → EReal) (ix2 i k) := by
  obtain ⟨-, -, ⟨e0, e1⟩, -⟩ := idx_whole t
  unfold iblk
  rw [View.read_apply]
  show V m c main_arg3 _ = _
  rw [V_main_arg3]
  congr 1
  funext a
  apply Fin.ext
  match a with
  | ⟨0, _⟩ => show win0_3.index t (0 : Fin 2) * 512 + 1 * i.val = i.val; omega
  | ⟨1, _⟩ => show win0_3.index t (1 : Fin 2) * 256 + 1 * k.val = k.val; omega

/-- Window 5's block is the whole matrix main_arg5 at every point. -/
theorem whole_block5 (c : Dev nD) (t : Fin cfg0.N) (i : Fin 512) (k : Fin 256) :
    (iblk m c 5 t : Vec Ideal S512x256 .f32) (ix2 i k) = (m ((c : Thread nD τ).loc main_arg5) : S512x256.Idx → EReal) (ix2 i k) := by
  obtain ⟨-, -, -, -, ⟨e0, e1⟩, -⟩ := idx_whole t
  unfold iblk
  rw [View.read_apply]
  show V m c main_arg5 _ = _
  rw [V_main_arg5]
  congr 1
  funext a
  apply Fin.ext
  match a with
  | ⟨0, _⟩ => show win0_5.index t (0 : Fin 2) * 512 + 1 * i.val = i.val; omega
  | ⟨1, _⟩ => show win0_5.index t (1 : Fin 2) * 256 + 1 * k.val = k.val; omega

/-- Window 7's block is the whole matrix main_arg7 at every point. -/
theorem whole_block7 (c : Dev nD) (t : Fin cfg0.N) (i : Fin 512) (k : Fin 256) :
    (iblk m c 7 t : Vec Ideal S512x256 .f32) (ix2 i k) = (m ((c : Thread nD τ).loc main_arg7) : S512x256.Idx → EReal) (ix2 i k) := by
  obtain ⟨-, -, -, -, -, -, ⟨e0, e1⟩, -⟩ := idx_whole t
  unfold iblk
  rw [View.read_apply]
  show V m c main_arg7 _ = _
  rw [V_main_arg7]
  congr 1
  funext a
  apply Fin.ext
  match a with
  | ⟨0, _⟩ => show win0_7.index t (0 : Fin 2) * 512 + 1 * i.val = i.val; omega
  | ⟨1, _⟩ => show win0_7.index t (1 : Fin 2) * 256 + 1 * k.val = k.val; omega

/-- Window 9's block is the whole matrix main_arg9 at every point. -/
theorem whole_block9 (c : Dev nD) (t : Fin cfg0.N) (i : Fin 256) (k : Fin 256) :
    (iblk m c 9 t : Vec Ideal S256x256 .f32) (ix2 i k) = (m ((c : Thread nD τ).loc main_arg9) : S256x256.Idx → EReal) (ix2 i k) := by
  obtain ⟨-, -, -, -, -, -, -, -, ⟨e0, e1⟩, -⟩ := idx_whole t
  unfold iblk
  rw [View.read_apply]
  show V m c main_arg9 _ = _
  rw [V_main_arg9]
  congr 1
  funext a
  apply Fin.ext
  match a with
  | ⟨0, _⟩ => show win0_9.index t (0 : Fin 2) * 256 + 1 * i.val = i.val; omega
  | ⟨1, _⟩ => show win0_9.index t (1 : Fin 2) * 256 + 1 * k.val = k.val; omega

/-- Window 11's block is the whole matrix main_arg11 at every point. -/
theorem whole_block11 (c : Dev nD) (t : Fin cfg0.N) (i : Fin 256) (k : Fin 256) :
    (iblk m c 11 t : Vec Ideal S256x256 .f32) (ix2 i k) = (m ((c : Thread nD τ).loc main_arg11) : S256x256.Idx → EReal) (ix2 i k) := by
  obtain ⟨-, -, -, -, -, -, -, -, -, -, ⟨e0, e1⟩, -⟩ := idx_whole t
  unfold iblk
  rw [View.read_apply]
  show V m c main_arg11 _ = _
  rw [V_main_arg11]
  congr 1
  funext a
  apply Fin.ext
  match a with
  | ⟨0, _⟩ => show win0_11.index t (0 : Fin 2) * 256 + 1 * i.val = i.val; omega
  | ⟨1, _⟩ => show win0_11.index t (1 : Fin 2) * 256 + 1 * k.val = k.val; omega

/-- The reshaped bias main_v0 is the bias argument with a unit axis in front. -/
theorem reshaped_main_v0 (c : Dev nD) : (V m c main_v0 : S1x256.Idx → EReal)
    = shapeCast S1x256 (m ((c : Thread nD τ).loc main_arg2) : S256.Idx → EReal) shapeCasts_S256_S1x256 := by
  show StableHlo.after hostOps0 (fun b => m (c, b)) (Proc.devRef .tc main_v0) = _
  after_results
  rfl

/-- Entry (0, e) of window 2's block is entry e of the bias main_arg2 at every point. -/
theorem bias_block2 (c : Dev nD) (t : Fin cfg0.N) (e : Fin 256) :
    (iblk m c 2 t : Vec Ideal S1x256 .f32) (ix2 0 e) = (m ((c : Thread nD τ).loc main_arg2) : S256.Idx → EReal) (ix1 e) := by
  obtain ⟨-, ⟨e0, e1⟩, -⟩ := idx_whole t
  unfold iblk
  rw [View.read_apply]
  show V m c main_v0 _ = _
  rw [reshaped_main_v0]
  refine Eq.trans (congrArg _ ?_) (shapeCast_a_1a_apply _ shapeCasts_S256_S1x256 0 e)
  funext a
  apply Fin.ext
  match a with
  | ⟨0, _⟩ => show win0_2.index t (0 : Fin 2) * 1 + 1 * 0 = 0; omega
  | ⟨1, _⟩ => show win0_2.index t (1 : Fin 2) * 256 + 1 * e.val = e.val; omega

/-- The reshaped bias main_v1 is the bias argument with a unit axis in front. -/
theorem reshaped_main_v1 (c : Dev nD) : (V m c main_v1 : S1x256.Idx → EReal)
    = shapeCast S1x256 (m ((c : Thread nD τ).loc main_arg4) : S256.Idx → EReal) shapeCasts_S256_S1x256 := by
  show StableHlo.after hostOps0 (fun b => m (c, b)) (Proc.devRef .tc main_v1) = _
  after_results
  rfl

/-- Entry (0, e) of window 4's block is entry e of the bias main_arg4 at every point. -/
theorem bias_block4 (c : Dev nD) (t : Fin cfg0.N) (e : Fin 256) :
    (iblk m c 4 t : Vec Ideal S1x256 .f32) (ix2 0 e) = (m ((c : Thread nD τ).loc main_arg4) : S256.Idx → EReal) (ix1 e) := by
  obtain ⟨-, -, -, ⟨e0, e1⟩, -⟩ := idx_whole t
  unfold iblk
  rw [View.read_apply]
  show V m c main_v1 _ = _
  rw [reshaped_main_v1]
  refine Eq.trans (congrArg _ ?_) (shapeCast_a_1a_apply _ shapeCasts_S256_S1x256 0 e)
  funext a
  apply Fin.ext
  match a with
  | ⟨0, _⟩ => show win0_4.index t (0 : Fin 2) * 1 + 1 * 0 = 0; omega
  | ⟨1, _⟩ => show win0_4.index t (1 : Fin 2) * 256 + 1 * e.val = e.val; omega

/-- The reshaped bias main_v2 is the bias argument with a unit axis in front. -/
theorem reshaped_main_v2 (c : Dev nD) : (V m c main_v2 : S1x256.Idx → EReal)
    = shapeCast S1x256 (m ((c : Thread nD τ).loc main_arg6) : S256.Idx → EReal) shapeCasts_S256_S1x256 := by
  show StableHlo.after hostOps0 (fun b => m (c, b)) (Proc.devRef .tc main_v2) = _
  after_results
  rfl

/-- Entry (0, e) of window 6's block is entry e of the bias main_arg6 at every point. -/
theorem bias_block6 (c : Dev nD) (t : Fin cfg0.N) (e : Fin 256) :
    (iblk m c 6 t : Vec Ideal S1x256 .f32) (ix2 0 e) = (m ((c : Thread nD τ).loc main_arg6) : S256.Idx → EReal) (ix1 e) := by
  obtain ⟨-, -, -, -, -, ⟨e0, e1⟩, -⟩ := idx_whole t
  unfold iblk
  rw [View.read_apply]
  show V m c main_v2 _ = _
  rw [reshaped_main_v2]
  refine Eq.trans (congrArg _ ?_) (shapeCast_a_1a_apply _ shapeCasts_S256_S1x256 0 e)
  funext a
  apply Fin.ext
  match a with
  | ⟨0, _⟩ => show win0_6.index t (0 : Fin 2) * 1 + 1 * 0 = 0; omega
  | ⟨1, _⟩ => show win0_6.index t (1 : Fin 2) * 256 + 1 * e.val = e.val; omega

/-- The reshaped bias main_v3 is the bias argument with a unit axis in front. -/
theorem reshaped_main_v3 (c : Dev nD) : (V m c main_v3 : S1x256.Idx → EReal)
    = shapeCast S1x256 (m ((c : Thread nD τ).loc main_arg8) : S256.Idx → EReal) shapeCasts_S256_S1x256 := by
  show StableHlo.after hostOps0 (fun b => m (c, b)) (Proc.devRef .tc main_v3) = _
  after_results
  rfl

/-- Entry (0, e) of window 8's block is entry e of the bias main_arg8 at every point. -/
theorem bias_block8 (c : Dev nD) (t : Fin cfg0.N) (e : Fin 256) :
    (iblk m c 8 t : Vec Ideal S1x256 .f32) (ix2 0 e) = (m ((c : Thread nD τ).loc main_arg8) : S256.Idx → EReal) (ix1 e) := by
  obtain ⟨-, -, -, -, -, -, -, ⟨e0, e1⟩, -⟩ := idx_whole t
  unfold iblk
  rw [View.read_apply]
  show V m c main_v3 _ = _
  rw [reshaped_main_v3]
  refine Eq.trans (congrArg _ ?_) (shapeCast_a_1a_apply _ shapeCasts_S256_S1x256 0 e)
  funext a
  apply Fin.ext
  match a with
  | ⟨0, _⟩ => show win0_8.index t (0 : Fin 2) * 1 + 1 * 0 = 0; omega
  | ⟨1, _⟩ => show win0_8.index t (1 : Fin 2) * 256 + 1 * e.val = e.val; omega

/-- The reshaped bias main_v4 is the bias argument with a unit axis in front. -/
theorem reshaped_main_v4 (c : Dev nD) : (V m c main_v4 : S1x256.Idx → EReal)
    = shapeCast S1x256 (m ((c : Thread nD τ).loc main_arg10) : S256.Idx → EReal) shapeCasts_S256_S1x256 := by
  show StableHlo.after hostOps0 (fun b => m (c, b)) (Proc.devRef .tc main_v4) = _
  after_results
  rfl

/-- Entry (0, e) of window 10's block is entry e of the bias main_arg10 at every point. -/
theorem bias_block10 (c : Dev nD) (t : Fin cfg0.N) (e : Fin 256) :
    (iblk m c 10 t : Vec Ideal S1x256 .f32) (ix2 0 e) = (m ((c : Thread nD τ).loc main_arg10) : S256.Idx → EReal) (ix1 e) := by
  obtain ⟨-, -, -, -, -, -, -, -, -, ⟨e0, e1⟩, -⟩ := idx_whole t
  unfold iblk
  rw [View.read_apply]
  show V m c main_v4 _ = _
  rw [reshaped_main_v4]
  refine Eq.trans (congrArg _ ?_) (shapeCast_a_1a_apply _ shapeCasts_S256_S1x256 0 e)
  funext a
  apply Fin.ext
  match a with
  | ⟨0, _⟩ => show win0_10.index t (0 : Fin 2) * 1 + 1 * 0 = 0; omega
  | ⟨1, _⟩ => show win0_10.index t (1 : Fin 2) * 256 + 1 * e.val = e.val; omega

/-- The reshaped bias main_v5 is the bias argument with a unit axis in front. -/
theorem reshaped_main_v5 (c : Dev nD) : (V m c main_v5 : S1x256.Idx → EReal)
    = shapeCast S1x256 (m ((c : Thread nD τ).loc main_arg12) : S256.Idx → EReal) shapeCasts_S256_S1x256 := by
  show StableHlo.after hostOps0 (fun b => m (c, b)) (Proc.devRef .tc main_v5) = _
  after_results
  rfl

/-- Entry (0, e) of window 12's block is entry e of the bias main_arg12 at every point. -/
theorem bias_block12 (c : Dev nD) (t : Fin cfg0.N) (e : Fin 256) :
    (iblk m c 12 t : Vec Ideal S1x256 .f32) (ix2 0 e) = (m ((c : Thread nD τ).loc main_arg12) : S256.Idx → EReal) (ix1 e) := by
  obtain ⟨-, -, -, -, -, -, -, -, -, -, -, ⟨e0, e1⟩⟩ := idx_whole t
  unfold iblk
  rw [View.read_apply]
  show V m c main_v5 _ = _
  rw [reshaped_main_v5]
  refine Eq.trans (congrArg _ ?_) (shapeCast_a_1a_apply _ shapeCasts_S256_S1x256 0 e)
  funext a
  apply Fin.ext
  match a with
  | ⟨0, _⟩ => show win0_12.index t (0 : Fin 2) * 1 + 1 * 0 = 0; omega
  | ⟨1, _⟩ => show win0_12.index t (1 : Fin 2) * 256 + 1 * e.val = e.val; omega

/-- At every point the twelve weight blocks are the twelve weight arguments: the parameters read off the blocks are
    the parameters as launched. -/
theorem params_block (c : Dev nD) (t : Fin cfg0.N) :
    Pieces.paramsB (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = P m c := by
  unfold Pieces.paramsB P Cert.Mpnn.params
  rw [Cert.Mpnn.Params.mk.injEq]
  exact ⟨funext fun i => funext fun k => whole_block1 m c t i k, funext fun e => bias_block2 m c t e,
    funext fun i => funext fun k => whole_block3 m c t i k, funext fun e => bias_block4 m c t e,
    funext fun i => funext fun k => whole_block5 m c t i k, funext fun e => bias_block6 m c t e,
    funext fun i => funext fun k => whole_block7 m c t i k, funext fun e => bias_block8 m c t e,
    funext fun i => funext fun k => whole_block9 m c t i k, funext fun e => bias_block10 m c t e,
    funext fun i => funext fun k => whole_block11 m c t i k, funext fun e => bias_block12 m c t e⟩

/-- Jet j of the input block at point t is jet 16 t + j of the input array. -/
theorem jet_block (c : Dev nD) (t : Fin cfg0.N) (j : Fin 16) :
    (fun (n : Fin 200) (f : Fin 8) => (iblk m c 0 t : Vec Ideal S16x200x8 .f32) (ix3 j n f))
      = Cert.Mpnn.jet (m ((c : Thread nD τ).loc main_arg0)) ⟨16 * t.val + j.val, jet_lt t j⟩ :=
  funext fun n => funext fun f => jets_block m c t j n f

/-- The readouts as the [128, 1, 256] array the kernel writes them to. -/
def Gout3 (Q : Cert.Mpnn.Params) (J : S128x200x8.Idx → EReal) : S128x1x256.Idx → EReal :=
  fun i => Cert.Mpnn.outK Q (Cert.Mpnn.jet J (i 0)) (i 2)

/-- Where entry (j, 0, e) of the first result's block at point t sits in the array. -/
theorem out_emb (t : Fin cfg0.N) (j : Fin 16) (e : Fin 256) :
    ((cfg0.win 13).blk t).view.emb (ix3 j (0 : Fin 1) e) = (ix3 ⟨16 * t.val + j.val, jet_lt t j⟩ (0 : Fin 1) e : S128x1x256.Idx) := by
  obtain ⟨-, ⟨e0, e1, e2⟩, -⟩ := idx_facts t
  funext a
  apply Fin.ext
  match a with
  | ⟨0, _⟩ => show win0_13.index t (0 : Fin 3) * 16 + 1 * j.val = 16 * t.val + j.val; omega
  | ⟨1, _⟩ => show win0_13.index t (1 : Fin 3) * 1 + 1 * 0 = 0; omega
  | ⟨2, _⟩ => show win0_13.index t (2 : Fin 3) * 256 + 1 * e.val = e.val; omega

/-- Where entry (j, n, k) of the second result's block at point t sits in the array. -/
theorem attn_emb (t : Fin cfg0.N) (j : Fin 16) (n k : Fin 200) :
    ((cfg0.win 14).blk t).view.emb (ix3 j n k) = (ix3 ⟨16 * t.val + j.val, jet_lt t j⟩ n k : S128x200x200.Idx) := by
  obtain ⟨-, -, ⟨e0, e1, e2⟩⟩ := idx_facts t
  funext a
  apply Fin.ext
  match a with
  | ⟨0, _⟩ => show win0_14.index t (0 : Fin 3) * 16 + 1 * j.val = 16 * t.val + j.val; omega
  | ⟨1, _⟩ => show win0_14.index t (1 : Fin 3) * 200 + 1 * n.val = n.val; omega
  | ⟨2, _⟩ => show win0_14.index t (2 : Fin 3) * 200 + 1 * k.val = k.val; omega

/-- What point t writes back to the first result is block t of the readouts of all jets. -/
theorem readout_block (c : Dev nD) (t : Fin cfg0.N) :
    (dats m 0 c).flushed 13 t = ((cfg0.win 13).blk t).view.read (Elt Ideal) (Gout3 (P m c) (m ((c : Thread nD τ).loc main_arg0))) := by
  show (cfg0.win 13).cut (grid0.coords t) ((dats m 0 c).after 13 t) = _
  rw [after0_13]
  funext y
  obtain ⟨j, u, e, rfl⟩ : ∃ (j : Fin 16) (u : Fin 1) (e : Fin 256), y = ix3 j u e := ⟨y 0, y 1, y 2, eq_ix3 y⟩
  obtain rfl : u = 0 := Subsingleton.elim _ _
  rw [View.read_apply, out_emb]
  refine (Pieces.out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j e).trans ?_
  rw [params_block, jet_block]
  rfl

/-- What point t writes back to the second result is block t of the last soft adjacencies of all jets. -/
theorem attn_block (c : Dev nD) (t : Fin cfg0.N) :
    (dats m 0 c).flushed 14 t = ((cfg0.win 14).blk t).view.read (Elt Ideal) (Cert.Mpnn.GattnK (P m c) (m ((c : Thread nD τ).loc main_arg0))) := by
  show (cfg0.win 14).cut (grid0.coords t) ((dats m 0 c).after 14 t) = _
  rw [after0_14]
  funext y
  obtain ⟨j, n, k, rfl⟩ : ∃ (j : Fin 16) (n k : Fin 200), y = ix3 j n k := ⟨y 0, y 1, y 2, eq_ix3 y⟩
  rw [View.read_apply, attn_emb]
  refine (Pieces.out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j n k).trans ?_
  rw [params_block, jet_block]
  rfl

/-- An index of the first result lies in point t's block iff each coordinate lies in the block's range. -/
theorem mem_block13 (t : Fin cfg0.N) (i : S128x1x256.Idx) :
    i ∈ ((cfg0.win 13).blk t).view.set ↔ ∀ a : Fin 3, win0_13.index t a * S16x1x256.size a ≤ (i a).val ∧ (i a).val < win0_13.index t a * S16x1x256.size a + S16x1x256.size a := by
  show i ∈ ((View.whole main_v6_0).slice (win0_13.rect t)).set ↔ _
  rw [View.set_slice_whole, Rect.mem_set_unit]
  exact Iff.rfl

/-- The same for the second result. -/
theorem mem_block14 (t : Fin cfg0.N) (i : S128x200x200.Idx) :
    i ∈ ((cfg0.win 14).blk t).view.set ↔ ∀ a : Fin 3, win0_14.index t a * S16x200x200.size a ≤ (i a).val ∧ (i a).val < win0_14.index t a * S16x200x200.size a + S16x200x200.size a := by
  show i ∈ ((View.whole main_v6_1).slice (win0_14.rect t)).set ↔ _
  rw [View.set_slice_whole, Rect.mem_set_unit]
  exact Iff.rfl

/-- Jet b's row of the first result is written back by point b / 16. -/
theorem cover13 (i : S128x1x256.Idx) :
    ∃ t : Fin cfg0.N, (cfg0.win 13).flush t = true ∧ i ∈ ((cfg0.win 13).blk t).view.set := by
  have hi0 : (i 0).val < 128 := (i 0).isLt
  have hi1 : (i 1).val < 1 := (i 1).isLt
  have hi2 : (i 2).val < 256 := (i 2).isLt
  have hN : cfg0.N = 8 := N_0
  have ht : (i 0).val / 16 < cfg0.N := by omega
  refine ⟨⟨(i 0).val / 16, ht⟩, flush0_13 _, ?_⟩
  rw [mem_block13]
  obtain ⟨-, ⟨e0, e1, e2⟩, -⟩ := idx_facts ⟨(i 0).val / 16, ht⟩
  have e0' : win0_13.index ⟨(i 0).val / 16, ht⟩ (0 : Fin 3) = (i 0).val / 16 := e0
  intro a
  match a with
  | ⟨0, _⟩ => show win0_13.index ⟨(i 0).val / 16, ht⟩ (0 : Fin 3) * 16 ≤ (i 0).val ∧ (i 0).val < win0_13.index ⟨(i 0).val / 16, ht⟩ (0 : Fin 3) * 16 + 16; omega
  | ⟨1, _⟩ => show win0_13.index ⟨(i 0).val / 16, ht⟩ (1 : Fin 3) * 1 ≤ (i 1).val ∧ (i 1).val < win0_13.index ⟨(i 0).val / 16, ht⟩ (1 : Fin 3) * 1 + 1; omega
  | ⟨2, _⟩ => show win0_13.index ⟨(i 0).val / 16, ht⟩ (2 : Fin 3) * 256 ≤ (i 2).val ∧ (i 2).val < win0_13.index ⟨(i 0).val / 16, ht⟩ (2 : Fin 3) * 256 + 256; omega

/-- Jet b's slab of the second result is written back by point b / 16. -/
theorem cover14 (i : S128x200x200.Idx) :
    ∃ t : Fin cfg0.N, (cfg0.win 14).flush t = true ∧ i ∈ ((cfg0.win 14).blk t).view.set := by
  have hi0 : (i 0).val < 128 := (i 0).isLt
  have hi1 : (i 1).val < 200 := (i 1).isLt
  have hi2 : (i 2).val < 200 := (i 2).isLt
  have hN : cfg0.N = 8 := N_0
  have ht : (i 0).val / 16 < cfg0.N := by omega
  refine ⟨⟨(i 0).val / 16, ht⟩, flush0_14 _, ?_⟩
  rw [mem_block14]
  obtain ⟨-, -, ⟨e0, e1, e2⟩⟩ := idx_facts ⟨(i 0).val / 16, ht⟩
  have e0' : win0_14.index ⟨(i 0).val / 16, ht⟩ (0 : Fin 3) = (i 0).val / 16 := e0
  intro a
  match a with
  | ⟨0, _⟩ => show win0_14.index ⟨(i 0).val / 16, ht⟩ (0 : Fin 3) * 16 ≤ (i 0).val ∧ (i 0).val < win0_14.index ⟨(i 0).val / 16, ht⟩ (0 : Fin 3) * 16 + 16; omega
  | ⟨1, _⟩ => show win0_14.index ⟨(i 0).val / 16, ht⟩ (1 : Fin 3) * 200 ≤ (i 1).val ∧ (i 1).val < win0_14.index ⟨(i 0).val / 16, ht⟩ (1 : Fin 3) * 200 + 200; omega
  | ⟨2, _⟩ => show win0_14.index ⟨(i 0).val / 16, ht⟩ (2 : Fin 3) * 200 ≤ (i 2).val ∧ (i 2).val < win0_14.index ⟨(i 0).val / 16, ht⟩ (2 : Fin 3) * 200 + 200; omega

/-- After the eight points the first result's array holds the readout of every jet, -/
theorem final13 (c : Dev nD) : (dats m 0 c).arrAt 13 cfg0.N = Gout3 (P m c) (m ((c : Thread nD τ).loc main_arg0)) :=
  (dats m 0 c).arrAt_eq_of_cover 13 (Gout3 (P m c) (m ((c : Thread nD τ).loc main_arg0))) (fun t _ => readout_block m c t) cover13

/-- and the second result's array the last soft adjacency of every jet. -/
theorem final14 (c : Dev nD) : (dats m 0 c).arrAt 14 cfg0.N = Cert.Mpnn.GattnK (P m c) (m ((c : Thread nD τ).loc main_arg0)) :=
  (dats m 0 c).arrAt_eq_of_cover 14 (Cert.Mpnn.GattnK (P m c) (m ((c : Thread nD τ).loc main_arg0))) (fun t _ => attn_block m c t) cover14

/-- The reshape after the call only drops the unit axis: the first result of the program is the readouts as a
    [128, 256] array. -/
theorem tail_v7 (c : Dev nD) :
    Pipeline.afterTail₀ cfgs (dats m) 0 (V0 m) [hostOps1] c main_v7 = Cert.Mpnn.GoutK (P m c) (m ((c : Thread nD τ).loc main_arg0)) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.devRef .tc main_v6_0)
      = Gout3 (P m c) (m ((c : Thread nD τ).loc main_arg0)) :=
    (Pipeline.withArrays_arr spec0 launch0.win.arr_inj c _ _ 13).trans (final13 m c)
  funext i
  obtain ⟨b, e, rfl⟩ : ∃ (b : Fin 128) (e : Fin 256), i = ix2 b e := ⟨i 0, i 1, eq_ix2 i⟩
  show shapeCast S128x256 (Pipeline.withArrays (cfgs 0).spec c (V0 m c) (fun w => (dats m 0 c).arrAt w (cfgs 0).N) (Proc.devRef .tc main_v6_0)) shapeCasts_S128x1x256_S128x256 (ix2 b e) = _
  rw [hA]
  refine (shapeCast_apply _ shapeCasts_S128x1x256_S128x256 (ix2 b e) (ix3 b (0 : Fin 1) e) ?_).trans rfl
  rw [Shape.rowMajor_val_three, Shape.rowMajor_val_two]
  show (b.val * 1 + 0) * 256 + e.val = b.val * 256 + e.val
  omega

/-- Every weakly fair execution of the idealized kernel program terminates with the first result at the
    kernel-arranged readout of every jet, the second at its last soft adjacency, and the arguments unchanged. -/
theorem run : θ_run (defs (F := Ideal)) (onTc (τ := τ) (main (F := Ideal))) ⟨m, fun _ => 0, ρ⟩ fun r => ∀ c : Dev nD,
      r.2.mem ((c.tc : Thread nD τ).loc main_v7) = Cert.Mpnn.GoutK (P m c) (m ((c.tc : Thread nD τ).loc main_arg0))
      ∧ r.2.mem ((c.tc : Thread nD τ).loc main_v6_1) = Cert.Mpnn.GattnK (P m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c =>
    ⟨((h c).2 main_v7 (Pipeline.mem_restRefs_of main_v7 (by decide) (by decide))).trans (tail_v7 m c),
      ((h c).1 14).trans (final14 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).1 9).trans (((dats m 0 c).arrAt_in 9 rfl _).trans ((A_eq m c 9).trans (V_main_arg9 m c))),
      ((h c).2 main_arg10 (Pipeline.mem_restRefs_of main_arg10 (by decide) (by decide))).trans (W_main_arg10 m (dats m) c),
      ((h c).1 11).trans (((dats m 0 c).arrAt_in 11 rfl _).trans ((A_eq m c 11).trans (V_main_arg11 m c))),
      ((h c).2 main_arg12 (Pipeline.mem_restRefs_of main_arg12 (by decide) (by decide))).trans (W_main_arg12 m (dats m) c)⟩)
    (run_main m ρ)

end Cert.KernelIdeal.Final

end
-- ==== Proof.RNet.lean ====
/-
  The reference program's computation as a composition of its own host operations on the whole arrays
  [128, 200, ...] (the leading axis is the jet): the embedding, one round of message passing as a function of the
  state (used three times), and the readout. Stated for any float instance.
-/
import proofs.«135256_g85813446574462_cont_9to1c4b_288_18_alg».proof.Proof.Gen.ReferenceIdeal

noncomputable section

namespace Cert.ReferenceIdeal.Net

open Idealize.ShloMosaic Idealize.SL.Sem Cert.ReferenceIdeal Cert.ReferenceIdeal.Gen

variable {F : FTy → Type} [FloatOps F]

/-- A bias [256] laid along the feature axis of [128, 200, 256]. -/
def rBias (b : FVec F S256 .f32) : FVec F S128x200x256 .f32 :=
  broadcastInDim S128x200x256 ![0, 1, 2] bcast_S1x1x256_S128x200x256_0_1_2 (broadcastInDim S1x1x256 ![2] bcast_S256_S1x1x256_2 b)

/-- A [128, 200] array of row values laid along the last axis of [128, 200, 200]. -/
def rRows (v : FVec F S128x200 .f32) : FVec F S128x200x200 .f32 :=
  broadcastInDim S128x200x200 ![0, 1, 2] bcast_S128x200x1_S128x200x200_0_1_2 (broadcastInDim S128x200x1 ![0, 1] bcast_S128x200_S128x200x1_0_1 v)

/-- The embedding: tanh (jets * Wemb + bemb). -/
def rEmbed (J : FVec F S128x200x8 .f32) (w : FVec F S8x256 .f32) (b : FVec F S256 .f32) : FVec F S128x200x256 .f32 :=
  Host.tanh (addf (Host.dotGeneral dot_S128x200x8_S8x256_S128x200x256_2_0_01_1_n_n none J w) (rBias b))

/-- The logits h hT / 16, jet by jet. -/
def rLogit (h : FVec F S128x200x256 .f32) : FVec F S128x200x200 .f32 :=
  mulf (Host.dotGeneral dot_S128x200x256_S128x200x256_S128x200x200_2_2_1_1_0_0 none h h)
    (broadcastInDim S128x200x200 ![] bcast_S_S128x200x200 (constant S_ .f32 0x3D800000#32))

/-- exp of the logits shifted by their row maximum. -/
def rShiftExp (l : FVec F S128x200x200 .f32) : FVec F S128x200x200 .f32 :=
  Host.exp (subf l (rRows (maximumf (broadcastInDim S128x200 ![] bcast_S_S128x200 (constant S_ .f32 0xFF800000#32))
    (Host.reduce FloatOps.maximumf l (constant S_ .f32 0xFF800000#32) reducesTo_S128x200x200_S128x200_d2 h_S_))))

/-- Each row divided by its sum. -/
def rNormalize (p : FVec F S128x200x200 .f32) : FVec F S128x200x200 .f32 :=
  Host.divf p (rRows (Host.reduceAdd p (constant S_ .f32 0x00000000#32) reducesTo_S128x200x200_S128x200_d2 h_S_))

/-- The soft adjacency of a state. -/
def rAttn (h : FVec F S128x200x256 .f32) : FVec F S128x200x200 .f32 := rNormalize (rShiftExp (rLogit h))

/-- One round: tanh ([h, A h] * W + b). -/
def rStep (w : FVec F S512x256 .f32) (b : FVec F S256 .f32) (h : FVec F S128x200x256 .f32) : FVec F S128x200x256 .f32 :=
  Host.tanh (addf (Host.dotGeneral dot_S128x200x512_S512x256_S128x200x256_2_0_01_1_n_n none
    (concatenate S128x200x512 2 [⟨S128x200x256, h⟩, ⟨S128x200x256,
      Host.dotGeneral dot_S128x200x200_S128x200x256_S128x200x256_2_1_1_2_0_0 none (rAttn h) h⟩]
      concatenates_S128x200x256_S128x200x256_S128x200x512_d2) w) (rBias b))

/-- A readout layer before its nonlinearity: h * W + b. -/
def rAffine (w : FVec F S256x256 .f32) (b : FVec F S256 .f32) (h : FVec F S128x200x256 .f32) : FVec F S128x200x256 .f32 :=
  addf (Host.dotGeneral dot_S128x200x256_S256x256_S128x200x256_2_0_01_1_n_n none h w) (rBias b)

/-- The state after two rounds. -/
def rState2 (J : FVec F S128x200x8 .f32) (wemb : FVec F S8x256 .f32) (bemb : FVec F S256 .f32)
    (w0 : FVec F S512x256 .f32) (b0 : FVec F S256 .f32) (w1 : FVec F S512x256 .f32) (b1 : FVec F S256 .f32) :
    FVec F S128x200x256 .f32 :=
  rStep w1 b1 (rStep w0 b0 (rEmbed J wemb bemb))

/-- The reference's second result: the soft adjacency of the third round. -/
def refAttn (J : FVec F S128x200x8 .f32) (wemb : FVec F S8x256 .f32) (bemb : FVec F S256 .f32)
    (w0 : FVec F S512x256 .f32) (b0 : FVec F S256 .f32) (w1 : FVec F S512x256 .f32) (b1 : FVec F S256 .f32) :
    FVec F S128x200x200 .f32 :=
  rAttn (rState2 J wemb bemb w0 b0 w1 b1)

/-- The reference's first result: the node sum of the two readout layers of the state after three rounds. -/
def refOut (J : FVec F S128x200x8 .f32) (wemb : FVec F S8x256 .f32) (bemb : FVec F S256 .f32)
    (w0 : FVec F S512x256 .f32) (b0 : FVec F S256 .f32) (w1 : FVec F S512x256 .f32) (b1 : FVec F S256 .f32)
    (w2 : FVec F S512x256 .f32) (b2 : FVec F S256 .f32) (wr1 : FVec F S256x256 .f32) (br1 : FVec F S256 .f32)
    (wr2 : FVec F S256x256 .f32) (br2 : FVec F S256 .f32) : FVec F S128x256 .f32 :=
  Host.reduceAdd (rAffine wr2 br2 (Host.tanh (rAffine wr1 br1 (rStep w2 b2 (rState2 J wemb bemb w0 b0 w1 b1)))))
    (constant S_ .f32 0x00000000#32) reducesTo_S128x200x256_S128x256_d1 h_S_

end Cert.ReferenceIdeal.Net

end
-- ==== Proof.RefRun.lean ====
/-
  The reference program's run: its ninety-three host operations, taken in consecutive stretches, leave each result
  buffer at the composition of the operations that produced it, which is the reference network (refOut, refAttn) of
  the arguments as launched; no operation writes an argument.
-/
import proofs.«135256_g85813446574462_cont_9to1c4b_288_18_alg».proof.Proof.Gen.ReferenceIdeal
import proofs.«135256_g85813446574462_cont_9to1c4b_288_18_alg».proof.Proof.RNet
import Idealize.ShloMosaic.Lib.StableHlo.Run
import Mathlib.Data.List.Basic
import Mathlib.Data.Finset.Dedup

noncomputable section

namespace Cert.ReferenceIdeal.RefRun

open Cert.ReferenceIdeal Cert.ReferenceIdeal.Gen Cert.ReferenceIdeal.Net Idealize.ShloMosaic Idealize.ShloMosaic.TcCoe Idealize.SL.Sem Idealize.ShloMosaic.StableHlo

variable {F : FTy → Type} [FloatOps F]

/-! ## Lists of operations run one after the other -/

/-- The contents after two lists in a row are the second list's after the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation whose one written buffer is in a list of references writes inside that list. -/
theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The thirteen argument buffers. -/
abbrev argRefs : List (Ref sig .tc) :=
  [main_arg0, main_arg1, main_arg2, main_arg3, main_arg4, main_arg5, main_arg6, main_arg7, main_arg8, main_arg9,
    main_arg10, main_arg11, main_arg12]

/-- A valuation that holds, at every argument buffer, what another holds there. -/
def ArgsOf (V0 V : Valuation τ sig (Elt F)) : Prop :=
  ∀ r ∈ argRefs, V (Proc.devRef .tc r) = V0 (Proc.devRef .tc r)

/-! ## The six stretches -/

/-- The embedding: statements 1 to 5. -/
abbrev opsE : List (HloOp τ sig (Elt F)) :=
  [ binary main_arg0 main_arg1 main_v0 ((fun l r => Host.dotGeneral dot_S128x200x8_S8x256_S128x200x256_2_0_01_1_n_n none l r) : (⟨S128x200x8, .f32⟩ : BufTy).Contents (Elt F) → (⟨S8x256, .f32⟩ : BufTy).Contents (Elt F) → (⟨S128x200x256, .f32⟩ : BufTy).Contents (Elt F)),
    unary main_arg2 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v0 main_v2 main_v3 (addf : (⟨S128x200x256, .f32⟩ : BufTy).Contents (Elt F) → (⟨S128x200x256, .f32⟩ : BufTy).Contents (Elt F) → (⟨S128x200x256, .f32⟩ : BufTy).Contents (Elt F)),
    unary main_v3 main_v4 (Host.tanh : (⟨S128x200x256, .f32⟩ : BufTy).Contents (Elt F) → (⟨S128x200x256, .f32⟩ : BufTy).Contents (Elt F)) ]

set_option maxRecDepth 8192 in
theorem opsE_sub : (opsE : List (HloOp τ sig (Elt F))).Forall fun op => op.bufs ⊆ tcRefs τ sig :=
  ⟨binary_bufs_sub .., unary_bufs_sub .., unary_bufs_sub .., binary_bufs_sub .., unary_bufs_sub ..⟩

set_option maxRecDepth 8192 in
theorem opsE_fresh : ∀ op ∈ (opsE : List (HloOp τ sig (Elt F))), op.fresh = ∅ := by
  intro _ h; (repeat (cases h with | head => rfl | tail _ h => ?_)); exact nomatch h

/-- The buffers these operations write. -/
abbrev opsE_W : List (Ref sig .tc) := [main_v0, main_v1, main_v2, main_v3, main_v4]

set_option maxRecDepth 8192 in
theorem opsE_writes : (opsE : List (HloOp τ sig (Elt F))).Forall fun op =>
    op.writes ⊆ (opsE_W.map (Proc.devRef (τ := τ) .tc)).toFinset :=
  ⟨single_sub_of_mem (by decide), single_sub_of_mem (by decide), single_sub_of_mem (by decide), single_sub_of_mem (by decide), single_sub_of_mem (by decide)⟩

/-- A buffer these operations do not write keeps its contents through them. -/
theorem opsE_keep (V : Valuation τ sig (Elt F)) (r : Ref sig .tc) (h : r ∉ opsE_W) :
    after opsE V (Proc.devRef .tc r) = V (Proc.devRef .tc r) :=
  after_of_writes_sub opsE V opsE_writes h

/-- They write no argument. -/
theorem opsE_args {V0 V : Valuation τ sig (Elt F)} (h : ArgsOf V0 V) : ArgsOf V0 (after opsE V) :=
  fun r hr => (opsE_keep V r ((by decide : ∀ r ∈ argRefs, r ∉ opsE_W) r hr)).trans (h r hr)

/-- The first round of message passing: statements 6 to 32. -/
abbrev opsR1 : List (HloOp τ sig (Elt F)) :=
  [ nullary main_cst (constant S_ .f32 0x00000000#32),
    unary main_cst main_v5 (broadcastInDim S128x200x200 ![] bcast_S_S128x200x200 : (⟨S_, .f32⟩ : BufTy).Contents (Elt F) → (⟨S128x200x200, .f32⟩ : BufTy).Contents (Elt F)),
    binary main_v4 main_v4 main_v6 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_0 (constant S_ .f32 0x3D800000#32),
    unary main_cst_0 main_v7 (broadcastInDim S128x200x200 ![] bcast_S_S128x200x200 : (⟨S_, .f32⟩ : BufTy).Contents (Elt F) → (⟨S128x200x200, .f32⟩ : BufTy).Contents (Elt F)),
    binary main_v6 main_v7 main_v8 (mulf : (⟨S128x200x200, .f32⟩ : BufTy).Contents (Elt F) → (⟨S128x200x200, .f32⟩ : BufTy).Contents (Elt F) → (⟨S128x200x200, .f32⟩ : BufTy).Contents (Elt F)),
    nullary main_cst_1 (constant S_ .f32 0xFF800000#32),
    binary main_v8 main_cst_1 main_v9 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_2 (constant S_ .f32 0xFF800000#32),
    unary main_cst_2 main_v10 (broadcastInDim S128x200 ![] bcast_S_S128x200 : (⟨S_, .f32⟩ : BufTy).Contents (Elt F) → (⟨S128x200, .f32⟩ : BufTy).Contents (Elt F)),
    binary main_v10 main_v9 main_v11 (maximumf : (⟨S128x200, .f32⟩ : BufTy).Contents (Elt F) → (⟨S128x200, .f32⟩ : BufTy).Contents (Elt F) → (⟨S128x200, .f32⟩ : BufTy).Contents (Elt F)),
    unary main_v11 main_v12 (broadcastInDim S128x200x1 ![0, 1] bcast_S128x200_S128x200x1_0_1 : (⟨S128x200, .f32⟩ : BufTy).Contents (Elt F) → (⟨S128x200x1, .f32⟩ : BufTy).Contents (Elt F)),
    unary main_v12 main_v13 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v8 main_v13 main_v14 (subf : (⟨S128x200x200, .f32⟩ : BufTy).Contents (Elt F) → (⟨S128x200x200, .f32⟩ : BufTy).Contents (Elt F) → (⟨S128x200x200, .f32⟩ : BufTy).Contents (Elt F)),
    unary main_v14 main_v15 (Host.exp : (⟨S128x200x200, .f32⟩ : BufTy).Contents (Elt F) → (⟨S128x200x200, .f32⟩ : BufTy).Contents (Elt F)),
    nullary main_cst_3 (constant S_ .f32 0x00000000#32),
    binary main_v15 main_cst_3 main_v16 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v16 main_v17 (broadcastInDim S128x200x1 ![0, 1] bcast_S128x200_S128x200x1_0_1 : (⟨S128x200, .f32⟩ : BufTy).Contents (Elt F) → (⟨S128x200x1, .f32⟩ : BufTy).Contents (Elt F)),
    unary main_v17 main_v18 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v15 main_v18 main_v19 (Host.divf : (⟨S128x200x200, .f32⟩ : BufTy).Contents (Elt F) → (⟨S128x200x200, .f32⟩ : BufTy).Contents (Elt F) → (⟨S128x200x200, .f32⟩ : BufTy).Contents (Elt F)),
    binary main_v19 main_v4 main_v20 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v4 main_v20 main_v21 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v21 main_arg3 main_v22 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg4 main_v23 (broadcastInDim S1x1x256 ![2] bcast_S256_S1x1x256_2 : (⟨S256, .f32⟩ : BufTy).Contents (Elt F) → (⟨S1x1x256, .f32⟩ : BufTy).Contents (Elt F)),
    unary main_v23 main_v24 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v22 main_v24 main_v25 (addf : (⟨S128x200x256, .f32⟩ : BufTy).Contents (Elt F) → (⟨S128x200x256, .f32⟩ : BufTy).Contents (Elt F) → (⟨S128x200x256, .f32⟩ : BufTy).Contents (Elt F)),
    unary main_v25 main_v26 (Host.tanh : (⟨S128x200x256, .f32⟩ : BufTy).Contents (Elt F) → (⟨S128x200x256, .f32⟩ : BufTy).Contents (Elt F)) ]

set_option maxRecDepth 8192 in
theorem opsR1_sub : (opsR1 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub ..⟩

set_option maxRecDepth 8192 in
theorem opsR1_fresh : ∀ op ∈ (opsR1 : List (HloOp τ sig (Elt F))), op.fresh = ∅ := by
  intro _ h; (repeat (cases h with | head => rfl | tail _ h => ?_)); exact nomatch h

/-- The buffers these operations write. -/
abbrev opsR1_W : List (Ref sig .tc) := [main_cst, main_v5, main_v6, main_cst_0, main_v7, main_v8, main_cst_1, main_v9, main_cst_2, main_v10, main_v11, main_v12, main_v13, main_v14, main_v15, main_cst_3, main_v16, main_v17, main_v18, main_v19, main_v20, main_v21, main_v22, main_v23, main_v24, main_v25, main_v26]

set_option maxRecDepth 8192 in
theorem opsR1_writes : (opsR1 : List (HloOp τ sig (Elt F))).Forall fun op =>
    op.writes ⊆ (opsR1_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer these operations do not write keeps its contents through them. -/
theorem opsR1_keep (V : Valuation τ sig (Elt F)) (r : Ref sig .tc) (h : r ∉ opsR1_W) :
    after opsR1 V (Proc.devRef .tc r) = V (Proc.devRef .tc r) :=
  after_of_writes_sub opsR1 V opsR1_writes h

/-- They write no argument. -/
theorem opsR1_args {V0 V : Valuation τ sig (Elt F)} (h : ArgsOf V0 V) : ArgsOf V0 (after opsR1 V) :=
  fun r hr => (opsR1_keep V r ((by decide : ∀ r ∈ argRefs, r ∉ opsR1_W) r hr)).trans (h r hr)

/-- The second round: statements 33 to 57. -/
abbrev opsR2 : List (HloOp τ sig (Elt F)) :=
  [ binary main_v26 main_v26 main_v27 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_4 (constant S_ .f32 0x3D800000#32),
    unary main_cst_4 main_v28 (broadcastInDim S128x200x200 ![] bcast_S_S128x200x200 : (⟨S_, .f32⟩ : BufTy).Contents (Elt F) → (⟨S128x200x200, .f32⟩ : BufTy).Contents (Elt F)),
    binary main_v27 main_v28 main_v29 (mulf : (⟨S128x200x200, .f32⟩ : BufTy).Contents (Elt F) → (⟨S128x200x200, .f32⟩ : BufTy).Contents (Elt F) → (⟨S128x200x200, .f32⟩ : BufTy).Contents (Elt F)),
    nullary main_cst_5 (constant S_ .f32 0xFF800000#32),
    binary main_v29 main_cst_5 main_v30 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_6 (constant S_ .f32 0xFF800000#32),
    unary main_cst_6 main_v31 (broadcastInDim S128x200 ![] bcast_S_S128x200 : (⟨S_, .f32⟩ : BufTy).Contents (Elt F) → (⟨S128x200, .f32⟩ : BufTy).Contents (Elt F)),
    binary main_v31 main_v30 main_v32 (maximumf : (⟨S128x200, .f32⟩ : BufTy).Contents (Elt F) → (⟨S128x200, .f32⟩ : BufTy).Contents (Elt F) → (⟨S128x200, .f32⟩ : BufTy).Contents (Elt F)),
    unary main_v32 main_v33 (broadcastInDim S128x200x1 ![0, 1] bcast_S128x200_S128x200x1_0_1 : (⟨S128x200, .f32⟩ : BufTy).Contents (Elt F) → (⟨S128x200x1, .f32⟩ : BufTy).Contents (Elt F)),
    unary main_v33 main_v34 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v29 main_v34 main_v35 (subf : (⟨S128x200x200, .f32⟩ : BufTy).Contents (Elt F) → (⟨S128x200x200, .f32⟩ : BufTy).Contents (Elt F) → (⟨S128x200x200, .f32⟩ : BufTy).Contents (Elt F)),
    unary main_v35 main_v36 (Host.exp : (⟨S128x200x200, .f32⟩ : BufTy).Contents (Elt F) → (⟨S128x200x200, .f32⟩ : BufTy).Contents (Elt F)),
    nullary main_cst_7 (constant S_ .f32 0x00000000#32),
    binary main_v36 main_cst_7 main_v37 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v37 main_v38 (broadcastInDim S128x200x1 ![0, 1] bcast_S128x200_S128x200x1_0_1 : (⟨S128x200, .f32⟩ : BufTy).Contents (Elt F) → (⟨S128x200x1, .f32⟩ : BufTy).Contents (Elt F)),
    unary main_v38 main_v39 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v36 main_v39 main_v40 (Host.divf : (⟨S128x200x200, .f32⟩ : BufTy).Contents (Elt F) → (⟨S128x200x200, .f32⟩ : BufTy).Contents (Elt F) → (⟨S128x200x200, .f32⟩ : BufTy).Contents (Elt F)),
    binary main_v40 main_v26 main_v41 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v26 main_v41 main_v42 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v42 main_arg5 main_v43 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg6 main_v44 (broadcastInDim S1x1x256 ![2] bcast_S256_S1x1x256_2 : (⟨S256, .f32⟩ : BufTy).Contents (Elt F) → (⟨S1x1x256, .f32⟩ : BufTy).Contents (Elt F)),
    unary main_v44 main_v45 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v43 main_v45 main_v46 (addf : (⟨S128x200x256, .f32⟩ : BufTy).Contents (Elt F) → (⟨S128x200x256, .f32⟩ : BufTy).Contents (Elt F) → (⟨S128x200x256, .f32⟩ : BufTy).Contents (Elt F)),
    unary main_v46 main_v47 (Host.tanh : (⟨S128x200x256, .f32⟩ : BufTy).Contents (Elt F) → (⟨S128x200x256, .f32⟩ : BufTy).Contents (Elt F)) ]

set_option maxRecDepth 8192 in
theorem opsR2_sub : (opsR2 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub ..⟩

set_option maxRecDepth 8192 in
theorem opsR2_fresh : ∀ op ∈ (opsR2 : List (HloOp τ sig (Elt F))), op.fresh = ∅ := by
  intro _ h; (repeat (cases h with | head => rfl | tail _ h => ?_)); exact nomatch h

/-- The buffers these operations write. -/
abbrev opsR2_W : List (Ref sig .tc) := [main_v27, main_cst_4, main_v28, main_v29, main_cst_5, main_v30, main_cst_6, main_v31, main_v32, main_v33, main_v34, main_v35, main_v36, main_cst_7, main_v37, main_v38, main_v39, main_v40, main_v41, main_v42, main_v43, main_v44, main_v45, main_v46, main_v47]

set_option maxRecDepth 8192 in
theorem opsR2_writes : (opsR2 : List (HloOp τ sig (Elt F))).Forall fun op =>
    op.writes ⊆ (opsR2_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer these operations do not write keeps its contents through them. -/
theorem opsR2_keep (V : Valuation τ sig (Elt F)) (r : Ref sig .tc) (h : r ∉ opsR2_W) :
    after opsR2 V (Proc.devRef .tc r) = V (Proc.devRef .tc r) :=
  after_of_writes_sub opsR2 V opsR2_writes h

/-- They write no argument. -/
theorem opsR2_args {V0 V : Valuation τ sig (Elt F)} (h : ArgsOf V0 V) : ArgsOf V0 (after opsR2 V) :=
  fun r hr => (opsR2_keep V r ((by decide : ∀ r ∈ argRefs, r ∉ opsR2_W) r hr)).trans (h r hr)

/-- The head of the third round's logits: statements 58 to 60. -/
abbrev opsT : List (HloOp τ sig (Elt F)) :=
  [ binary main_v47 main_v47 main_v48 ((fun l r => Host.dotGeneral dot_S128x200x256_S128x200x256_S128x200x200_2_2_1_1_0_0 none l r) : (⟨S128x200x256, .f32⟩ : BufTy).Contents (Elt F) → (⟨S128x200x256, .f32⟩ : BufTy).Contents (Elt F) → (⟨S128x200x200, .f32⟩ : BufTy).Contents (Elt F)),
    nullary main_cst_8 (constant S_ .f32 0x3D800000#32),
    unary main_cst_8 main_v49 (broadcastInDim S128x200x200 ![] bcast_S_S128x200x200 : (⟨S_, .f32⟩ : BufTy).Contents (Elt F) → (⟨S128x200x200, .f32⟩ : BufTy).Contents (Elt F)) ]

set_option maxRecDepth 8192 in
theorem opsT_sub : (opsT : List (HloOp τ sig (Elt F))).Forall fun op => op.bufs ⊆ tcRefs τ sig :=
  ⟨binary_bufs_sub .., nullary_bufs_sub .., unary_bufs_sub ..⟩

set_option maxRecDepth 8192 in
theorem opsT_fresh : ∀ op ∈ (opsT : List (HloOp τ sig (Elt F))), op.fresh = ∅ := by
  intro _ h; (repeat (cases h with | head => rfl | tail _ h => ?_)); exact nomatch h

/-- The buffers these operations write. -/
abbrev opsT_W : List (Ref sig .tc) := [main_v48, main_cst_8, main_v49]

set_option maxRecDepth 8192 in
theorem opsT_writes : (opsT : List (HloOp τ sig (Elt F))).Forall fun op =>
    op.writes ⊆ (opsT_W.map (Proc.devRef (τ := τ) .tc)).toFinset :=
  ⟨single_sub_of_mem (by decide), single_sub_of_mem (by decide), single_sub_of_mem (by decide)⟩

/-- A buffer these operations do not write keeps its contents through them. -/
theorem opsT_keep (V : Valuation τ sig (Elt F)) (r : Ref sig .tc) (h : r ∉ opsT_W) :
    after opsT V (Proc.devRef .tc r) = V (Proc.devRef .tc r) :=
  after_of_writes_sub opsT V opsT_writes h

/-- They write no argument. -/
theorem opsT_args {V0 V : Valuation τ sig (Elt F)} (h : ArgsOf V0 V) : ArgsOf V0 (after opsT V) :=
  fun r hr => (opsT_keep V r ((by decide : ∀ r ∈ argRefs, r ∉ opsT_W) r hr)).trans (h r hr)

/-- The rest of the third round: statements 61 to 82. -/
abbrev opsR3 : List (HloOp τ sig (Elt F)) :=
  [ binary main_v48 main_v49 main_v50 (mulf : (⟨S128x200x200, .f32⟩ : BufTy).Contents (Elt F) → (⟨S128x200x200, .f32⟩ : BufTy).Contents (Elt F) → (⟨S128x200x200, .f32⟩ : BufTy).Contents (Elt F)),
    nullary main_cst_9 (constant S_ .f32 0xFF800000#32),
    binary main_v50 main_cst_9 main_v51 ((fun x v => Host.reduce FloatOps.maximumf x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    nullary main_cst_10 (constant S_ .f32 0xFF800000#32),
    unary main_cst_10 main_v52 (broadcastInDim S128x200 ![] bcast_S_S128x200 : (⟨S_, .f32⟩ : BufTy).Contents (Elt F) → (⟨S128x200, .f32⟩ : BufTy).Contents (Elt F)),
    binary main_v52 main_v51 main_v53 (maximumf : (⟨S128x200, .f32⟩ : BufTy).Contents (Elt F) → (⟨S128x200, .f32⟩ : BufTy).Contents (Elt F) → (⟨S128x200, .f32⟩ : BufTy).Contents (Elt F)),
    unary main_v53 main_v54 (broadcastInDim S128x200x1 ![0, 1] bcast_S128x200_S128x200x1_0_1 : (⟨S128x200, .f32⟩ : BufTy).Contents (Elt F) → (⟨S128x200x1, .f32⟩ : BufTy).Contents (Elt F)),
    unary main_v54 main_v55 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v50 main_v55 main_v56 (subf : (⟨S128x200x200, .f32⟩ : BufTy).Contents (Elt F) → (⟨S128x200x200, .f32⟩ : BufTy).Contents (Elt F) → (⟨S128x200x200, .f32⟩ : BufTy).Contents (Elt F)),
    unary main_v56 main_v57 (Host.exp : (⟨S128x200x200, .f32⟩ : BufTy).Contents (Elt F) → (⟨S128x200x200, .f32⟩ : BufTy).Contents (Elt F)),
    nullary main_cst_11 (constant S_ .f32 0x00000000#32),
    binary main_v57 main_cst_11 main_v58 ((fun x v => Host.reduceAdd x v reducesTo_S128x200x200_S128x200_d2 h_S_) : (⟨S128x200x200, .f32⟩ : BufTy).Contents (Elt F) → (⟨S_, .f32⟩ : BufTy).Contents (Elt F) → (⟨S128x200, .f32⟩ : BufTy).Contents (Elt F)),
    unary main_v58 main_v59 (broadcastInDim S128x200x1 ![0, 1] bcast_S128x200_S128x200x1_0_1 : (⟨S128x200, .f32⟩ : BufTy).Contents (Elt F) → (⟨S128x200x1, .f32⟩ : BufTy).Contents (Elt F)),
    unary main_v59 main_v60 (broadcastInDim S128x200x200 ![0, 1, 2] bcast_S128x200x1_S128x200x200_0_1_2 : (⟨S128x200x1, .f32⟩ : BufTy).Contents (Elt F) → (⟨S128x200x200, .f32⟩ : BufTy).Contents (Elt F)),
    binary main_v57 main_v60 main_v61 (Host.divf : (⟨S128x200x200, .f32⟩ : BufTy).Contents (Elt F) → (⟨S128x200x200, .f32⟩ : BufTy).Contents (Elt F) → (⟨S128x200x200, .f32⟩ : BufTy).Contents (Elt F)),
    binary main_v61 main_v47 main_v62 ((fun l r => Host.dotGeneral dot_S128x200x200_S128x200x256_S128x200x256_2_1_1_2_0_0 none l r) : (⟨S128x200x200, .f32⟩ : BufTy).Contents (Elt F) → (⟨S128x200x256, .f32⟩ : BufTy).Contents (Elt F) → (⟨S128x200x256, .f32⟩ : BufTy).Contents (Elt F)),
    binary main_v47 main_v62 main_v63 ((fun a b => concatenate S128x200x512 2 [⟨S128x200x256, a⟩, ⟨S128x200x256, b⟩] concatenates_S128x200x256_S128x200x256_S128x200x512_d2) : (⟨S128x200x256, .f32⟩ : BufTy).Contents (Elt F) → (⟨S128x200x256, .f32⟩ : BufTy).Contents (Elt F) → (⟨S128x200x512, .f32⟩ : BufTy).Contents (Elt F)),
    binary main_v63 main_arg7 main_v64 ((fun l r => Host.dotGeneral dot_S128x200x512_S512x256_S128x200x256_2_0_01_1_n_n none l r) : (⟨S128x200x512, .f32⟩ : BufTy).Contents (Elt F) → (⟨S512x256, .f32⟩ : BufTy).Contents (Elt F) → (⟨S128x200x256, .f32⟩ : BufTy).Contents (Elt F)),
    unary main_arg8 main_v65 (broadcastInDim S1x1x256 ![2] bcast_S256_S1x1x256_2 : (⟨S256, .f32⟩ : BufTy).Contents (Elt F) → (⟨S1x1x256, .f32⟩ : BufTy).Contents (Elt F)),
    unary main_v65 main_v66 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v64 main_v66 main_v67 (addf : (⟨S128x200x256, .f32⟩ : BufTy).Contents (Elt F) → (⟨S128x200x256, .f32⟩ : BufTy).Contents (Elt F) → (⟨S128x200x256, .f32⟩ : BufTy).Contents (Elt F)),
    unary main_v67 main_v68 (Host.tanh : (⟨S128x200x256, .f32⟩ : BufTy).Contents (Elt F) → (⟨S128x200x256, .f32⟩ : BufTy).Contents (Elt F)) ]

set_option maxRecDepth 8192 in
theorem opsR3_sub : (opsR3 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub ..⟩

set_option maxRecDepth 8192 in
theorem opsR3_fresh : ∀ op ∈ (opsR3 : List (HloOp τ sig (Elt F))), op.fresh = ∅ := by
  intro _ h; (repeat (cases h with | head => rfl | tail _ h => ?_)); exact nomatch h

/-- The buffers these operations write. -/
abbrev opsR3_W : List (Ref sig .tc) := [main_v50, main_cst_9, main_v51, main_cst_10, main_v52, main_v53, main_v54, main_v55, main_v56, main_v57, main_cst_11, main_v58, main_v59, main_v60, main_v61, main_v62, main_v63, main_v64, main_v65, main_v66, main_v67, main_v68]

set_option maxRecDepth 8192 in
theorem opsR3_writes : (opsR3 : List (HloOp τ sig (Elt F))).Forall fun op =>
    op.writes ⊆ (opsR3_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer these operations do not write keeps its contents through them. -/
theorem opsR3_keep (V : Valuation τ sig (Elt F)) (r : Ref sig .tc) (h : r ∉ opsR3_W) :
    after opsR3 V (Proc.devRef .tc r) = V (Proc.devRef .tc r) :=
  after_of_writes_sub opsR3 V opsR3_writes h

/-- They write no argument. -/
theorem opsR3_args {V0 V : Valuation τ sig (Elt F)} (h : ArgsOf V0 V) : ArgsOf V0 (after opsR3 V) :=
  fun r hr => (opsR3_keep V r ((by decide : ∀ r ∈ argRefs, r ∉ opsR3_W) r hr)).trans (h r hr)

/-- The readout: statements 83 to 93. -/
abbrev opsRO : List (HloOp τ sig (Elt F)) :=
  [ binary main_v68 main_arg9 main_v69 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg10 main_v70 (broadcastInDim S1x1x256 ![2] bcast_S256_S1x1x256_2 : (⟨S256, .f32⟩ : BufTy).Contents (Elt F) → (⟨S1x1x256, .f32⟩ : BufTy).Contents (Elt F)),
    unary main_v70 main_v71 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v69 main_v71 main_v72 (addf : (⟨S128x200x256, .f32⟩ : BufTy).Contents (Elt F) → (⟨S128x200x256, .f32⟩ : BufTy).Contents (Elt F) → (⟨S128x200x256, .f32⟩ : BufTy).Contents (Elt F)),
    unary main_v72 main_v73 (Host.tanh : (⟨S128x200x256, .f32⟩ : BufTy).Contents (Elt F) → (⟨S128x200x256, .f32⟩ : BufTy).Contents (Elt F)),
    binary main_v73 main_arg11 main_v74 ((fun l r => Host.dotGeneral dot_S128x200x256_S256x256_S128x200x256_2_0_01_1_n_n none l r) : (⟨S128x200x256, .f32⟩ : BufTy).Contents (Elt F) → (⟨S256x256, .f32⟩ : BufTy).Contents (Elt F) → (⟨S128x200x256, .f32⟩ : BufTy).Contents (Elt F)),
    unary main_arg12 main_v75 (broadcastInDim S1x1x256 ![2] bcast_S256_S1x1x256_2 : (⟨S256, .f32⟩ : BufTy).Contents (Elt F) → (⟨S1x1x256, .f32⟩ : BufTy).Contents (Elt F)),
    unary main_v75 main_v76 (broadcastInDim S128x200x256 ![0, 1, 2] bcast_S1x1x256_S128x200x256_0_1_2 : (⟨S1x1x256, .f32⟩ : BufTy).Contents (Elt F) → (⟨S128x200x256, .f32⟩ : BufTy).Contents (Elt F)),
    binary main_v74 main_v76 main_v77 (addf : (⟨S128x200x256, .f32⟩ : BufTy).Contents (Elt F) → (⟨S128x200x256, .f32⟩ : BufTy).Contents (Elt F) → (⟨S128x200x256, .f32⟩ : BufTy).Contents (Elt F)),
    nullary main_cst_12 (constant S_ .f32 0x00000000#32),
    binary main_v77 main_cst_12 main_v78 ((fun x v => Host.reduceAdd x v reducesTo_S128x200x256_S128x256_d1 h_S_) : (⟨S128x200x256, .f32⟩ : BufTy).Contents (Elt F) → (⟨S_, .f32⟩ : BufTy).Contents (Elt F) → (⟨S128x256, .f32⟩ : BufTy).Contents (Elt F)) ]

set_option maxRecDepth 8192 in
theorem opsRO_sub : (opsRO : List (HloOp τ sig (Elt F))).Forall fun op => op.bufs ⊆ tcRefs τ sig :=
  ⟨binary_bufs_sub .., unary_bufs_sub .., unary_bufs_sub .., binary_bufs_sub .., unary_bufs_sub .., binary_bufs_sub .., unary_bufs_sub .., unary_bufs_sub .., binary_bufs_sub .., nullary_bufs_sub .., binary_bufs_sub ..⟩

set_option maxRecDepth 8192 in
theorem opsRO_fresh : ∀ op ∈ (opsRO : List (HloOp τ sig (Elt F))), op.fresh = ∅ := by
  intro _ h; (repeat (cases h with | head => rfl | tail _ h => ?_)); exact nomatch h

/-- The buffers these operations write. -/
abbrev opsRO_W : List (Ref sig .tc) := [main_v69, main_v70, main_v71, main_v72, main_v73, main_v74, main_v75, main_v76, main_v77, main_cst_12, main_v78]

set_option maxRecDepth 8192 in
theorem opsRO_writes : (opsRO : List (HloOp τ sig (Elt F))).Forall fun op =>
    op.writes ⊆ (opsRO_W.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- A buffer these operations do not write keeps its contents through them. -/
theorem opsRO_keep (V : Valuation τ sig (Elt F)) (r : Ref sig .tc) (h : r ∉ opsRO_W) :
    after opsRO V (Proc.devRef .tc r) = V (Proc.devRef .tc r) :=
  after_of_writes_sub opsRO V opsRO_writes h

/-- They write no argument. -/
theorem opsRO_args {V0 V : Valuation τ sig (Elt F)} (h : ArgsOf V0 V) : ArgsOf V0 (after opsRO V) :=
  fun r hr => (opsRO_keep V r ((by decide : ∀ r ∈ argRefs, r ∉ opsRO_W) r hr)).trans (h r hr)

/-! ## What each stretch leaves, over the contents it starts from -/

set_option maxRecDepth 8192 in
/-- The embedding's result. -/
theorem opsE_v4 (V : Valuation τ sig (Elt F)) :
    after opsE V (Proc.devRef .tc main_v4) = rEmbed (V (Proc.devRef .tc main_arg0)) (V (Proc.devRef .tc main_arg1)) (V (Proc.devRef .tc main_arg2)) := by
  after_results
  rfl

set_option maxRecDepth 8192 in
set_option maxHeartbeats 4000000 in
/-- The first round's new state. -/
theorem opsR1_v26 (V : Valuation τ sig (Elt F)) :
    after opsR1 V (Proc.devRef .tc main_v26) = rStep (V (Proc.devRef .tc main_arg3)) (V (Proc.devRef .tc main_arg4)) (V (Proc.devRef .tc main_v4)) := by
  after_results
  rfl

set_option maxRecDepth 8192 in
set_option maxHeartbeats 4000000 in
/-- The second round's new state. -/
theorem opsR2_v47 (V : Valuation τ sig (Elt F)) :
    after opsR2 V (Proc.devRef .tc main_v47) = rStep (V (Proc.devRef .tc main_arg5)) (V (Proc.devRef .tc main_arg6)) (V (Proc.devRef .tc main_v26)) := by
  after_results
  rfl

set_option maxRecDepth 8192 in
set_option maxHeartbeats 4000000 in
/-- The third round's soft adjacency. -/
theorem opsR3_v61 (V : Valuation τ sig (Elt F)) :
    after opsR3 (after opsT V) (Proc.devRef .tc main_v61) = rAttn (V (Proc.devRef .tc main_v47)) := by
  after_results
  rfl

set_option maxRecDepth 8192 in
set_option maxHeartbeats 4000000 in
/-- The third round's new state. -/
theorem opsR3_v68 (V : Valuation τ sig (Elt F)) :
    after opsR3 (after opsT V) (Proc.devRef .tc main_v68) = rStep (V (Proc.devRef .tc main_arg7)) (V (Proc.devRef .tc main_arg8)) (V (Proc.devRef .tc main_v47)) := by
  after_results
  rfl

set_option maxRecDepth 8192 in
set_option maxHeartbeats 4000000 in
/-- The readout's result: the node sum of the second layer of the first layer's tanh. -/
theorem opsRO_v78 (V : Valuation τ sig (Elt F)) :
    after opsRO V (Proc.devRef .tc main_v78) = Host.reduceAdd (rAffine (V (Proc.devRef .tc main_arg11)) (V (Proc.devRef .tc main_arg12))
      (Host.tanh (rAffine (V (Proc.devRef .tc main_arg9)) (V (Proc.devRef .tc main_arg10)) (V (Proc.devRef .tc main_v68)))))
      (constant S_ .f32 0x00000000#32) reducesTo_S128x200x256_S128x256_d1 h_S_ := by
  after_results
  rfl

/-! ## The stretches in a row, over the contents as launched -/

theorem stepE {V0 V : Valuation τ sig (Elt F)} (ha : ArgsOf V0 V) :
    ArgsOf V0 (after opsE V) ∧ after opsE V (Proc.devRef .tc main_v4)
      = rEmbed (V0 (Proc.devRef .tc main_arg0)) (V0 (Proc.devRef .tc main_arg1)) (V0 (Proc.devRef .tc main_arg2)) :=
  ⟨opsE_args ha, by rw [opsE_v4, ha main_arg0 (by decide), ha main_arg1 (by decide), ha main_arg2 (by decide)]⟩

theorem stepR1 {V0 V : Valuation τ sig (Elt F)} {h : FVec F S128x200x256 .f32} (ha : ArgsOf V0 V)
    (h4 : V (Proc.devRef .tc main_v4) = h) :
    ArgsOf V0 (after opsR1 V) ∧ after opsR1 V (Proc.devRef .tc main_v26)
      = rStep (V0 (Proc.devRef .tc main_arg3)) (V0 (Proc.devRef .tc main_arg4)) h :=
  ⟨opsR1_args ha, by rw [opsR1_v26, ha main_arg3 (by decide), ha main_arg4 (by decide), h4]⟩

theorem stepR2 {V0 V : Valuation τ sig (Elt F)} {h : FVec F S128x200x256 .f32} (ha : ArgsOf V0 V)
    (h26 : V (Proc.devRef .tc main_v26) = h) :
    ArgsOf V0 (after opsR2 V) ∧ after opsR2 V (Proc.devRef .tc main_v47)
      = rStep (V0 (Proc.devRef .tc main_arg5)) (V0 (Proc.devRef .tc main_arg6)) h :=
  ⟨opsR2_args ha, by rw [opsR2_v47, ha main_arg5 (by decide), ha main_arg6 (by decide), h26]⟩

theorem stepR3 {V0 V : Valuation τ sig (Elt F)} {h : FVec F S128x200x256 .f32} (ha : ArgsOf V0 V)
    (h47 : V (Proc.devRef .tc main_v47) = h) :
    ArgsOf V0 (after opsR3 (after opsT V))
      ∧ after opsR3 (after opsT V) (Proc.devRef .tc main_v61) = rAttn h
      ∧ after opsR3 (after opsT V) (Proc.devRef .tc main_v68)
        = rStep (V0 (Proc.devRef .tc main_arg7)) (V0 (Proc.devRef .tc main_arg8)) h :=
  ⟨opsR3_args (opsT_args ha), by rw [opsR3_v61, h47],
    by rw [opsR3_v68, ha main_arg7 (by decide), ha main_arg8 (by decide), h47]⟩

theorem stepRO {V0 V : Valuation τ sig (Elt F)} {h : FVec F S128x200x256 .f32} {A : FVec F S128x200x200 .f32}
    (ha : ArgsOf V0 V) (h68 : V (Proc.devRef .tc main_v68) = h) (h61 : V (Proc.devRef .tc main_v61) = A) :
    ArgsOf V0 (after opsRO V)
      ∧ after opsRO V (Proc.devRef .tc main_v78) = Host.reduceAdd (rAffine (V0 (Proc.devRef .tc main_arg11)) (V0 (Proc.devRef .tc main_arg12))
          (Host.tanh (rAffine (V0 (Proc.devRef .tc main_arg9)) (V0 (Proc.devRef .tc main_arg10)) h)))
          (constant S_ .f32 0x00000000#32) reducesTo_S128x200x256_S128x256_d1 h_S_
      ∧ after opsRO V (Proc.devRef .tc main_v61) = A :=
  ⟨opsRO_args ha,
    by rw [opsRO_v78, ha main_arg9 (by decide), ha main_arg10 (by decide), ha main_arg11 (by decide),
      ha main_arg12 (by decide), h68],
    (opsRO_keep V main_v61 (by decide)).trans h61⟩

/-- All ninety-three operations: the first window's sixty, then the second's thirty-three. -/
abbrev allOps : List (HloOp τ sig (Elt F)) := (opsE ++ (opsR1 ++ (opsR2 ++ opsT))) ++ (opsR3 ++ opsRO)

/-- What the whole list leaves: the reference network of the arguments, and the arguments. -/
theorem after_all (V0 : Valuation τ sig (Elt F)) :
    ArgsOf V0 (after allOps V0)
      ∧ after allOps V0 (Proc.devRef .tc main_v78) = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12))
      ∧ after allOps V0 (Proc.devRef .tc main_v61) = refAttn (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  have e : after (allOps (F := F)) V0
      = after opsRO (after opsR3 (after opsT (after opsR2 (after opsR1 (after opsE V0))))) := by
    simp only [after_app]
  rw [e]
  obtain ⟨a1, h4⟩ := stepE (V0 := V0) (V := V0) (fun _ _ => rfl)
  obtain ⟨a2, h26⟩ := stepR1 a1 h4
  obtain ⟨a3, h47⟩ := stepR2 a2 h26
  obtain ⟨a4, h61, h68⟩ := stepR3 a3 h47
  obtain ⟨a5, h78, h61'⟩ := stepRO a4 h68 h61
  exact ⟨a5, h78, h61'⟩

/-! ## The program is the list, and the run -/

set_option maxRecDepth 8192 in
set_option maxHeartbeats 4000000 in
theorem part0_eq (c : Dev nD) : main_part0 (F := F) c = seq (opsE ++ (opsR1 ++ (opsR2 ++ opsT))) := rfl

set_option maxRecDepth 8192 in
set_option maxHeartbeats 4000000 in
theorem part1_eq (c : Dev nD) : main_part1 (F := F) c = seq (opsR3 ++ opsRO) := rfl

theorem main_eq (c : Dev nD) : main (F := F) c = seq allOps := by
  show (main_part0 c >>= fun _ => main_part1 c) = _
  rw [part0_eq, part1_eq, ← seq_append]

theorem scopedRefs_eq : (Finset.univ.filter fun b : Ref sig .tc => b.isScoped) = ∅ := by decide
theorem scopedSems_eq : (Finset.univ.filter fun sm : SemLoc sig => sm.isScoped .tc) = ∅ := by decide

theorem allOps_sub : (allOps : List (HloOp τ sig (Elt F))).Forall fun op => op.bufs ⊆ tcRefs τ sig :=
  List.forall_append.mpr ⟨List.forall_append.mpr ⟨opsE_sub, List.forall_append.mpr ⟨opsR1_sub,
    List.forall_append.mpr ⟨opsR2_sub, opsT_sub⟩⟩⟩, List.forall_append.mpr ⟨opsR3_sub, opsRO_sub⟩⟩

theorem allOps_fresh : ∀ op ∈ (allOps : List (HloOp τ sig (Elt F))), op.fresh = ∅ := by
  intro op h
  rcases List.mem_append.mp h with h | h
  · rcases List.mem_append.mp h with h | h
    · exact opsE_fresh op h
    · rcases List.mem_append.mp h with h | h
      · exact opsR1_fresh op h
      · rcases List.mem_append.mp h with h | h
        · exact opsR2_fresh op h
        · exact opsT_fresh op h
  · rcases List.mem_append.mp h with h | h
    · exact opsR3_fresh op h
    · exact opsRO_fresh op h

/-- On every device, for any float values, from any memory with zero counters: every weakly fair execution of
    the reference terminates with its two results at the reference network of the arguments as launched, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v61) = refAttn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      obtain ⟨ha, h78, h61⟩ := after_all (F := F) (launchContents m c)
      exact ⟨(h c main_v78).trans h78, (h c main_v61).trans h61,
      (h c main_arg0).trans (ha main_arg0 (by decide)),
      (h c main_arg1).trans (ha main_arg1 (by decide)),
      (h c main_arg2).trans (ha main_arg2 (by decide)),
      (h c main_arg3).trans (ha main_arg3 (by decide)),
      (h c main_arg4).trans (ha main_arg4 (by decide)),
      (h c main_arg5).trans (ha main_arg5 (by decide)),
      (h c main_arg6).trans (ha main_arg6 (by decide)),
      (h c main_arg7).trans (ha main_arg7 (by decide)),
      (h c main_arg8).trans (ha main_arg8 (by decide)),
      (h c main_arg9).trans (ha main_arg9 (by decide)),
      (h c main_arg10).trans (ha main_arg10 (by decide)),
      (h c main_arg11).trans (ha main_arg11 (by decide)),
      (h c main_arg12).trans (ha main_arg12 (by decide))⟩)
    (run_seq scopedRefs_eq scopedSems_eq defs main (fun _ => allOps) main_eq (fun _ => allOps_sub) m ρ
      (hfresh := fun _ => allOps_fresh))

end Cert.ReferenceIdeal.RefRun

end
-- ==== Proof.ROps.lean ====
/-
  The reference's individual host operations read at one entry, at the extended reals: a dot_general is the sum over its
  one contracted axis (for the two batched ones, within the jet), a bias or a column of row values broadcast reads the
  operand's entry, the row maximum is the fold of max from minus infinity, the row sum and the node sum are plain sums
  from the initial value, and the concatenation along the feature axis reads the first operand below 256 and the
  second from 256 on.
-/
import proofs.«135256_g85813446574462_cont_9to1c4b_288_18_alg».proof.Proof.RNet
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Idealize.ShloMosaic.Lib.StackMember

noncomputable section

namespace Cert.ReferenceIdeal.Net

open Idealize.ShloMosaic Idealize.ShloMosaic.ValueIdx Idealize.SL.Sem Cert.ReferenceIdeal Cert.ReferenceIdeal.Gen

/-- A [G, m, k] array times a [k, n] matrix, contracting the last axis with the first, no batch axis: at an entry the
    sum over the contracted coordinate. -/
private theorem dot_3x2_apply {G m k n : Nat} {φ₁ φ₂ : FTy}
    (w : DotDims.WF ⟨3, ![G, m, k]⟩ ⟨2, ![k, n]⟩ ⟨3, ![G, m, n]⟩ [2] [0] [0, 1] [1] [] [])
    (prec : Option ContractPrecision) (A : FVec Ideal ⟨3, ![G, m, k]⟩ φ₁) (B : FVec Ideal ⟨2, ![k, n]⟩ φ₂)
    (g : Fin G) (a : Fin m) (b : Fin n) :
    Host.dotGeneral (⟨[2], [0], [0, 1], [1], [], [], w⟩ : DotDims _ _ _) prec A B (ix3 g a b)
      = ∑ c : Fin k, A (ix3 g a c) * B (ix2 c b) := by
  show FloatOps.dotGeneral _ prec _ A B (ix3 g a b) = _
  rw [Ideal.dotGeneral_apply]
  refine (Equiv.sum_comp (contrEquiv1 (⟨[2], [0], [0, 1], [1], [], [], w⟩ : DotDims _ _ _) k rfl rfl).symm _).symm.trans ?_
  refine Finset.sum_congr rfl fun c _ => ?_
  have hc := contrEquiv1_symm_val
    (⟨[2], [0], [0, 1], [1], [], [], w⟩ : DotDims ⟨3, ![G, m, k]⟩ ⟨2, ![k, n]⟩ ⟨3, ![G, m, n]⟩) k rfl rfl c
  have hl : (⟨[2], [0], [0, 1], [1], [], [], w⟩ : DotDims ⟨3, ![G, m, k]⟩ ⟨2, ![k, n]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [0], [0, 1], [1], [], [], w⟩ : DotDims ⟨3, ![G, m, k]⟩ ⟨2, ![k, n]⟩ ⟨3, ![G, m, n]⟩).rhsIdx (ix3 g a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Two stacks [G, m, k] and [G, n, k] multiplied member by member along their last axes (batch axes 0 and 0,
    contracting axes 2 and 2): at an entry the sum over the contracted coordinate within the member. -/
private theorem dot_gram_apply {G m k n : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply]
  refine (Equiv.sum_comp (contrEquiv1 (⟨[2], [2], [1], [1], [0], [0], w⟩ : DotDims _ _ _) k rfl rfl).symm _).symm.trans ?_
  refine Finset.sum_congr rfl fun c _ => ?_
  have hc := contrEquiv1_symm_val
    (⟨[2], [2], [1], [1], [0], [0], w⟩ : DotDims ⟨3, ![G, m, k]⟩ ⟨3, ![G, n, k]⟩ ⟨3, ![G, m, n]⟩) k rfl rfl c
  have hl : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact hc
  rw [hl, hr]

theorem dotEmbed_apply (l : FVec Ideal S128x200x8 .f32) (r : FVec Ideal S8x256 .f32) (b : Fin 128) (n : Fin 200) (e : Fin 256) :
    Host.dotGeneral dot_S128x200x8_S8x256_S128x200x256_2_0_01_1_n_n none l r (ix3 b n e)
      = ∑ f : Fin 8, l (ix3 b n f) * r (ix2 f e) :=
  dot_3x2_apply dot_S128x200x8_S8x256_S128x200x256_2_0_01_1_n_n_wf none l r b n e

theorem dotCat_apply (l : FVec Ideal S128x200x512 .f32) (r : FVec Ideal S512x256 .f32) (b : Fin 128) (n : Fin 200) (e : Fin 256) :
    Host.dotGeneral dot_S128x200x512_S512x256_S128x200x256_2_0_01_1_n_n none l r (ix3 b n e)
      = ∑ q : Fin 512, l (ix3 b n q) * r (ix2 q e) :=
  dot_3x2_apply dot_S128x200x512_S512x256_S128x200x256_2_0_01_1_n_n_wf none l r b n e

theorem dotFeat_apply (l : FVec Ideal S128x200x256 .f32) (r : FVec Ideal S256x256 .f32) (b : Fin 128) (n : Fin 200) (e : Fin 256) :
    Host.dotGeneral dot_S128x200x256_S256x256_S128x200x256_2_0_01_1_n_n none l r (ix3 b n e)
      = ∑ d : Fin 256, l (ix3 b n d) * r (ix2 d e) :=
  dot_3x2_apply dot_S128x200x256_S256x256_S128x200x256_2_0_01_1_n_n_wf none l r b n e

theorem dotGram_apply (l r : FVec Ideal S128x200x256 .f32) (b : Fin 128) (n k : Fin 200) :
    Host.dotGeneral dot_S128x200x256_S128x200x256_S128x200x200_2_2_1_1_0_0 none l r (ix3 b n k)
      = ∑ d : Fin 256, l (ix3 b n d) * r (ix3 b k d) :=
  dot_gram_apply dot_S128x200x256_S128x200x256_S128x200x200_2_2_1_1_0_0_wf none l r b n k

theorem dotMix_apply (a : FVec Ideal S128x200x200 .f32) (h : FVec Ideal S128x200x256 .f32) (b : Fin 128) (n : Fin 200) (d : Fin 256) :
    Host.dotGeneral dot_S128x200x200_S128x200x256_S128x200x256_2_1_1_2_0_0 none a h (ix3 b n d)
      = ∑ k : Fin 200, a (ix3 b n k) * h (ix3 b k d) :=
  StackMember.dotGeneral_stack_apply dot_S128x200x200_S128x200x256_S128x200x256_2_1_1_2_0_0_wf none a h b n d

theorem rBias_apply (v : FVec Ideal S256 .f32) (b : Fin 128) (n : Fin 200) (e : Fin 256) :
    rBias v (ix3 b n e) = v (ix1 e) := by
  unfold rBias
  refine (broadcastInDim_apply ![0, 1, 2] bcast_S1x1x256_S128x200x256_0_1_2 _ (ix3 b n e)
    (ix3 (0 : Fin 1) (0 : Fin 1) e) ?_).trans ?_
  · intro a; fin_cases a <;> rfl
  · refine broadcastInDim_apply ![2] bcast_S256_S1x1x256_2 v (ix3 (0 : Fin 1) (0 : Fin 1) e) (ix1 e) ?_
    intro a; fin_cases a; rfl

theorem rRows_apply (v : FVec Ideal S128x200 .f32) (b : Fin 128) (n k : Fin 200) :
    rRows v (ix3 b n k) = v (ix2 b n) := by
  unfold rRows
  refine (broadcastInDim_apply ![0, 1, 2] bcast_S128x200x1_S128x200x200_0_1_2 _ (ix3 b n k)
    (ix3 b n (0 : Fin 1)) ?_).trans ?_
  · intro a; fin_cases a <;> rfl
  · refine broadcastInDim_apply ![0, 1] bcast_S128x200_S128x200x1_0_1 v (ix3 b n (0 : Fin 1)) (ix2 b n) ?_
    intro a; fin_cases a <;> rfl

theorem scale_apply (i : S128x200x200.Idx) :
    broadcastInDim S128x200x200 ![] bcast_S_S128x200x200 (constant (F := Ideal) S_ .f32 0x3D800000#32) i
      = Ideal.ofBits .f32 0x3D800000#32 := by
  rw [broadcastInDim_scalar_apply, constant_apply]

/-- The index [b, n] of the row values with the coordinate k put back on the last axis is [b, n, k]. -/
private theorem lift_row (h : S128x200x200.Reduces [2] S128x200) (b : Fin 128) (n : Fin 200) (k : Fin (S128x200x200.size 2)) :
    h.lift (ix2 b n) k = ix3 b n (⟨k.val, k.isLt⟩ : Fin 200) := by
  funext c; apply Fin.ext
  fin_cases c <;> rfl

/-- The index [b, e] of the node sums with the node n put back on the middle axis is [b, n, e]. -/
private theorem lift_node (h : S128x200x256.Reduces [1] S128x256) (b : Fin 128) (e : Fin 256) (n : Fin (S128x200x256.size 1)) :
    h.lift (ix2 b e) n = ix3 b (⟨n.val, n.isLt⟩ : Fin 200) e := by
  funext c; apply Fin.ext
  fin_cases c <;> rfl

theorem rowMax_apply (x : FVec Ideal S128x200x200 .f32) (b : Fin 128) (n : Fin 200) :
    maximumf (broadcastInDim S128x200 ![] bcast_S_S128x200 (constant (F := Ideal) S_ .f32 0xFF800000#32))
        (Host.reduce FloatOps.maximumf x (constant (F := Ideal) S_ .f32 0xFF800000#32) reducesTo_S128x200x200_S128x200_d2 h_S_) (ix2 b n)
      = max (Ideal.ofBits .f32 0xFF800000#32)
          ((Finset.univ : Finset (Fin 200)).fold max (Ideal.ofBits .f32 0xFF800000#32) (fun k => x (ix3 b n k))) := by
  have h : S128x200x200.Reduces [2] S128x200 := by decide
  rw [maximumf_apply, broadcastInDim_scalar_apply, constant_apply,
    Host.reduce_eq_fold_single FloatOps.maximumf x _ reducesTo_S128x200x200_S128x200_d2 h h_S_, constant_apply]
  have hf : (x ∘ h.lift (ix2 b n)) = fun k : Fin 200 => x (ix3 b n k) := funext fun k => congrArg x (lift_row h b n k)
  rw [hf]
  rfl

theorem rowSum_apply (x : FVec Ideal S128x200x200 .f32) (b : Fin 128) (n : Fin 200) :
    Host.reduceAdd x (constant (F := Ideal) S_ .f32 0x00000000#32) reducesTo_S128x200x200_S128x200_d2 h_S_ (ix2 b n)
      = Ideal.ofBits .f32 0x00000000#32 + ∑ k : Fin 200, x (ix3 b n k) := by
  have h : S128x200x200.Reduces [2] S128x200 := by decide
  rw [hostReduceAdd_apply, Ideal.hostReduceAdd_single _ h, constant_apply]
  exact congrArg _ (Finset.sum_congr rfl fun k _ => congrArg x (lift_row h b n k))

theorem nodeSum_apply (x : FVec Ideal S128x200x256 .f32) (b : Fin 128) (e : Fin 256) :
    Host.reduceAdd x (constant (F := Ideal) S_ .f32 0x00000000#32) reducesTo_S128x200x256_S128x256_d1 h_S_ (ix2 b e)
      = Ideal.ofBits .f32 0x00000000#32 + ∑ n : Fin 200, x (ix3 b n e) := by
  have h : S128x200x256.Reduces [1] S128x256 := by decide
  rw [hostReduceAdd_apply, Ideal.hostReduceAdd_single _ h, constant_apply]
  exact congrArg _ (Finset.sum_congr rfl fun n _ => congrArg x (lift_node h b e n))

theorem concat_apply (h g : FVec Ideal S128x200x256 .f32) (b : Fin 128) (n : Fin 200) (q : Fin 512) :
    concatenate S128x200x512 2 [⟨S128x200x256, h⟩, ⟨S128x200x256, g⟩] concatenates_S128x200x256_S128x200x256_S128x200x512_d2 (ix3 b n q)
      = if hq : q.val < 256 then h (ix3 b n ⟨q.val, hq⟩) else g (ix3 b n ⟨q.val - 256, by omega⟩) := by
  by_cases hq : q.val < 256
  · rw [dif_pos hq]
    refine concatenate_pair_apply_left 2 h g concatenates_S128x200x256_S128x200x256_S128x200x512_d2 (ix3 b n q) rfl
      (ix3 b n (⟨q.val, hq⟩ : Fin 256)) ?_
    intro a; fin_cases a <;> rfl
  · rw [dif_neg hq]
    refine concatenate_pair_apply_right 2 h g concatenates_S128x200x256_S128x200x256_S128x200x512_d2 (ix3 b n q) rfl rfl
      (ix3 b n (⟨q.val - 256, by omega⟩ : Fin 256)) ?_ ?_
    · intro a ha; fin_cases a
      · rfl
      · rfl
      · exact absurd rfl ha
    · show q.val - 256 + 256 = q.val
      omega

end Cert.ReferenceIdeal.Net

end
-- ==== Proof.RNetIdx.lean ====
/-
  The reference's two results read entry by entry at the extended reals: jet b's slice of every stage is the
  reference-arranged network of the specification applied to jet b of the input and the weight arrays. Each
  dot_general is the sum over its one contracted axis (the batched ones jet by jet), each broadcast reads the
  operand's entry, each reduce is the fold or sum over the reduced axis, the concatenation reads the state below
  feature 256 and the message from 256 on.
-/
import proofs.«135256_g85813446574462_cont_9to1c4b_288_18_alg».proof.Proof.RNet
import proofs.«135256_g85813446574462_cont_9to1c4b_288_18_alg».proof.Proof.ROps
import proofs.«135256_g85813446574462_cont_9to1c4b_288_18_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Net

open Idealize.ShloMosaic Idealize.ShloMosaic.ValueIdx Idealize.SL.Sem Cert.ReferenceIdeal Cert.ReferenceIdeal.Gen

/-- The host's tanh and exp act entry by entry. -/
theorem hostTanh_apply {s : Shape} (x : FVec Ideal s .f32) (i : s.Idx) : Host.tanh x i = Ideal.tanh (x i) := rfl
theorem hostExp_apply {s : Shape} (x : FVec Ideal s .f32) (i : s.Idx) : Host.exp x i = Ideal.exp (x i) := rfl

/-- The embedding of jet b is the dense layer of the specification on that jet. -/
theorem rEmbed_apply (J : FVec Ideal S128x200x8 .f32) (w : FVec Ideal S8x256 .f32) (v : FVec Ideal S256 .f32)
    (b : Fin 128) (n : Fin 200) (d : Fin 256) :
    rEmbed J w v (ix3 b n d) = Cert.Mpnn.dense (Cert.Mpnn.jet J b) (Cert.Mpnn.mat w) (Cert.Mpnn.vec v) n d := by
  unfold rEmbed
  rw [hostTanh_apply, addf_apply, dotEmbed_apply, rBias_apply]
  rfl

/-- The logits of jet b's slice of a state. -/
theorem rLogit_apply (h : FVec Ideal S128x200x256 .f32) (b : Fin 128) (n k : Fin 200) :
    rLogit h (ix3 b n k) = Cert.Mpnn.logit (fun i d => h (ix3 b i d)) n k := by
  unfold rLogit
  rw [mulf_apply, dotGram_apply, scale_apply]
  rfl

/-- The shifted exponentials: each entry less the row maximum of its jet's slice. -/
theorem rShiftExp_apply (l : FVec Ideal S128x200x200 .f32) (b : Fin 128) (n k : Fin 200) :
    rShiftExp l (ix3 b n k)
      = Ideal.exp (l (ix3 b n k) - Cert.Mpnn.rowMax (fun i j => l (ix3 b i j)) n) := by
  unfold rShiftExp
  rw [hostExp_apply, subf_apply, rRows_apply, rowMax_apply]
  rfl

/-- Each entry divided by the sum, from 0, of its row. -/
theorem rNormalize_apply (p : FVec Ideal S128x200x200 .f32) (b : Fin 128) (n k : Fin 200) :
    rNormalize p (ix3 b n k)
      = Ideal.div (p (ix3 b n k)) (Ideal.ofBits .f32 0x00000000#32 + ∑ k' : Fin 200, p (ix3 b n k')) := by
  unfold rNormalize
  rw [hostDivf_apply, rRows_apply, rowSum_apply]

/-- The soft adjacency of jet b's slice of a state. -/
theorem rAttn_apply (h : FVec Ideal S128x200x256 .f32) (b : Fin 128) (n k : Fin 200) :
    rAttn h (ix3 b n k) = Cert.Mpnn.softR (Cert.Mpnn.logit (fun i d => h (ix3 b i d))) n k := by
  unfold rAttn
  rw [rNormalize_apply]
  simp only [rShiftExp_apply, rLogit_apply]
  rfl

/-- One round on jet b's slice of a state is the specification's reference-arranged step. -/
theorem rStep_apply (w : FVec Ideal S512x256 .f32) (v : FVec Ideal S256 .f32) (h : FVec Ideal S128x200x256 .f32)
    (b : Fin 128) (n : Fin 200) (e : Fin 256) :
    rStep w v h (ix3 b n e)
      = Cert.Mpnn.stepR (Cert.Mpnn.mat w) (Cert.Mpnn.vec v) (fun i d => h (ix3 b i d)) n e := by
  unfold rStep
  rw [hostTanh_apply, addf_apply, dotCat_apply, rBias_apply]
  unfold Cert.Mpnn.stepR Cert.Mpnn.updR
  have hsum : ∀ q : Fin 512,
      concatenate S128x200x512 2 [⟨S128x200x256, h⟩, ⟨S128x200x256,
          Host.dotGeneral dot_S128x200x200_S128x200x256_S128x200x256_2_1_1_2_0_0 none (rAttn h) h⟩]
          concatenates_S128x200x256_S128x200x256_S128x200x512_d2 (ix3 b n q)
        = Cert.Mpnn.cat (fun i d => h (ix3 b i d))
            (Cert.Mpnn.mix (Cert.Mpnn.softR (Cert.Mpnn.logit (fun i d => h (ix3 b i d)))) (fun i d => h (ix3 b i d))) n q := by
    intro q
    rw [concat_apply]
    unfold Cert.Mpnn.cat
    by_cases hq : q.val < 256
    · rw [dif_pos hq, dif_pos hq]
    · rw [dif_neg hq, dif_neg hq, dotMix_apply]
      unfold Cert.Mpnn.mix
      simp only [rAttn_apply]
  simp only [hsum]
  rfl

/-- A readout layer before its nonlinearity, at one entry. -/
theorem rAffine_apply (w : FVec Ideal S256x256 .f32) (v : FVec Ideal S256 .f32) (h : FVec Ideal S128x200x256 .f32)
    (b : Fin 128) (n : Fin 200) (e : Fin 256) :
    rAffine w v h (ix3 b n e) = (∑ d : Fin 256, h (ix3 b n d) * w (ix2 d e)) + v (ix1 e) := by
  unfold rAffine
  rw [addf_apply, dotFeat_apply, rBias_apply]

section Chain

variable (J : FVec Ideal S128x200x8 .f32) (wemb : FVec Ideal S8x256 .f32) (bemb : FVec Ideal S256 .f32)
  (w0 : FVec Ideal S512x256 .f32) (b0 : FVec Ideal S256 .f32) (w1 : FVec Ideal S512x256 .f32) (b1 : FVec Ideal S256 .f32)
  (w2 : FVec Ideal S512x256 .f32) (b2 : FVec Ideal S256 .f32) (wr1 : FVec Ideal S256x256 .f32) (br1 : FVec Ideal S256 .f32)
  (wr2 : FVec Ideal S256x256 .f32) (br2 : FVec Ideal S256 .f32)

/-- Jet b's slice of the embedded state is the specification's embedded jet. -/
theorem slice_embed (b : Fin 128) :
    (fun i d => rEmbed J wemb bemb (ix3 b i d))
      = Cert.Mpnn.h0 (Cert.Mpnn.params wemb bemb w0 b0 w1 b1 w2 b2 wr1 br1 wr2 br2) (Cert.Mpnn.jet J b) := by
  funext i d
  rw [rEmbed_apply]
  rfl

/-- Jet b's slice of the state after one round. -/
theorem slice_step1 (b : Fin 128) :
    (fun i d => rStep w0 b0 (rEmbed J wemb bemb) (ix3 b i d))
      = Cert.Mpnn.hR1 (Cert.Mpnn.params wemb bemb w0 b0 w1 b1 w2 b2 wr1 br1 wr2 br2) (Cert.Mpnn.jet J b) := by
  funext i d
  rw [rStep_apply, slice_embed J wemb bemb w0 b0 w1 b1 w2 b2 wr1 br1 wr2 br2 b]
  rfl

/-- Jet b's slice of the state after two rounds. -/
theorem slice_step2 (b : Fin 128) :
    (fun i d => rState2 J wemb bemb w0 b0 w1 b1 (ix3 b i d))
      = Cert.Mpnn.hR2 (Cert.Mpnn.params wemb bemb w0 b0 w1 b1 w2 b2 wr1 br1 wr2 br2) (Cert.Mpnn.jet J b) := by
  funext i d
  unfold rState2
  rw [rStep_apply, slice_step1 J wemb bemb w0 b0 w1 b1 w2 b2 wr1 br1 wr2 br2 b]
  rfl

/-- Jet b's slice of the state after three rounds. -/
theorem slice_step3 (b : Fin 128) :
    (fun i d => rStep w2 b2 (rState2 J wemb bemb w0 b0 w1 b1) (ix3 b i d))
      = Cert.Mpnn.hR3 (Cert.Mpnn.params wemb bemb w0 b0 w1 b1 w2 b2 wr1 br1 wr2 br2) (Cert.Mpnn.jet J b) := by
  funext i d
  rw [rStep_apply, slice_step2 J wemb bemb w0 b0 w1 b1 w2 b2 wr1 br1 wr2 br2 b]
  rfl

end Chain

section Results

variable (J : FVec Ideal S128x200x8 .f32) (wemb : FVec Ideal S8x256 .f32) (bemb : FVec Ideal S256 .f32)
  (w0 : FVec Ideal S512x256 .f32) (b0 : FVec Ideal S256 .f32) (w1 : FVec Ideal S512x256 .f32) (b1 : FVec Ideal S256 .f32)
  (w2 : FVec Ideal S512x256 .f32) (b2 : FVec Ideal S256 .f32) (wr1 : FVec Ideal S256x256 .f32) (br1 : FVec Ideal S256 .f32)
  (wr2 : FVec Ideal S256x256 .f32) (br2 : FVec Ideal S256 .f32)

/-- The second result at entry (b, n, k): the last soft adjacency of jet b. -/
theorem refAttn_apply (b : Fin 128) (n k : Fin 200) :
    refAttn J wemb bemb w0 b0 w1 b1 (ix3 b n k)
      = Cert.Mpnn.attnR (Cert.Mpnn.params wemb bemb w0 b0 w1 b1 w2 b2 wr1 br1 wr2 br2) (Cert.Mpnn.jet J b) n k := by
  unfold refAttn Cert.Mpnn.attnR
  rw [rAttn_apply, slice_step2 J wemb bemb w0 b0 w1 b1 w2 b2 wr1 br1 wr2 br2 b]

/-- The first result at entry (b, e): the readout of jet b. -/
theorem refOut_apply (b : Fin 128) (e : Fin 256) :
    refOut J wemb bemb w0 b0 w1 b1 w2 b2 wr1 br1 wr2 br2 (ix2 b e)
      = Cert.Mpnn.outR (Cert.Mpnn.params wemb bemb w0 b0 w1 b1 w2 b2 wr1 br1 wr2 br2) (Cert.Mpnn.jet J b) e := by
  unfold refOut Cert.Mpnn.outR
  rw [nodeSum_apply, ← slice_step3 J wemb bemb w0 b0 w1 b1 w2 b2 wr1 br1 wr2 br2 b]
  simp only [rAffine_apply, hostTanh_apply]
  rfl

end Results

/-- The reference's second result is the reference-arranged last soft adjacency of every jet. -/
theorem refAttn_eq (J : FVec Ideal S128x200x8 .f32) (wemb : FVec Ideal S8x256 .f32) (bemb : FVec Ideal S256 .f32)
    (w0 : FVec Ideal S512x256 .f32) (b0 : FVec Ideal S256 .f32) (w1 : FVec Ideal S512x256 .f32) (b1 : FVec Ideal S256 .f32)
    (w2 : FVec Ideal S512x256 .f32) (b2 : FVec Ideal S256 .f32) (wr1 : FVec Ideal S256x256 .f32) (br1 : FVec Ideal S256 .f32)
    (wr2 : FVec Ideal S256x256 .f32) (br2 : FVec Ideal S256 .f32) :
    refAttn J wemb bemb w0 b0 w1 b1
      = Cert.Mpnn.GattnR (Cert.Mpnn.params wemb bemb w0 b0 w1 b1 w2 b2 wr1 br1 wr2 br2) J := by
  funext j
  obtain ⟨b, n, k, rfl⟩ : ∃ (b : Fin 128) (n k : Fin 200), j = ix3 b n k := ⟨j 0, j 1, j 2, eq_ix3 j⟩
  exact refAttn_apply J wemb bemb w0 b0 w1 b1 w2 b2 wr1 br1 wr2 br2 b n k

/-- The reference's first result is the reference-arranged readout of every jet. -/
theorem refOut_eq (J : FVec Ideal S128x200x8 .f32) (wemb : FVec Ideal S8x256 .f32) (bemb : FVec Ideal S256 .f32)
    (w0 : FVec Ideal S512x256 .f32) (b0 : FVec Ideal S256 .f32) (w1 : FVec Ideal S512x256 .f32) (b1 : FVec Ideal S256 .f32)
    (w2 : FVec Ideal S512x256 .f32) (b2 : FVec Ideal S256 .f32) (wr1 : FVec Ideal S256x256 .f32) (br1 : FVec Ideal S256 .f32)
    (wr2 : FVec Ideal S256x256 .f32) (br2 : FVec Ideal S256 .f32) :
    refOut J wemb bemb w0 b0 w1 b1 w2 b2 wr1 br1 wr2 br2
      = Cert.Mpnn.GoutR (Cert.Mpnn.params wemb bemb w0 b0 w1 b1 w2 b2 wr1 br1 wr2 br2) J := by
  funext j
  obtain ⟨b, e, rfl⟩ : ∃ (b : Fin 128) (e : Fin 256), j = ix2 b e := ⟨j 0, j 1, eq_ix2 j⟩
  exact refOut_apply J wemb bemb w0 b0 w1 b1 w2 b2 wr1 br1 wr2 br2 b e

end Cert.ReferenceIdeal.Net

end
-- ==== Proof.RefValue.lean ====
/-
  The reference's run at the extended reals, with its two results named: the reference network read entry by entry is
  the reference-arranged network of the specification applied to the arguments as launched, jet by jet.
-/
import proofs.«135256_g85813446574462_cont_9to1c4b_288_18_alg».proof.Proof.RefRun
import proofs.«135256_g85813446574462_cont_9to1c4b_288_18_alg».proof.Proof.RNetIdx
import proofs.«135256_g85813446574462_cont_9to1c4b_288_18_alg».proof.Proof.Spec

noncomputable section

namespace Cert.ReferenceIdeal.RefValue

open Idealize.ShloMosaic Idealize.ShloMosaic.TcCoe Idealize.SL.Sem Cert.ReferenceIdeal Cert.ReferenceIdeal.Gen Cert.ReferenceIdeal.Net

variable (m : (ℓ : Loc nD τ sig) → Buf (Elt Ideal) ℓ) (ρ : Dev nD → PrngReg)

/-- The network's parameters from the twelve weight arguments as launched on device c. -/
def P (c : Dev nD) : Cert.Mpnn.Params :=
  Cert.Mpnn.params (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- Every weakly fair execution of the idealized reference terminates with the first result at the
    reference-arranged readout of every jet, the second at its last soft adjacency, and the arguments unchanged. -/
theorem run : θ_run (defs (F := Ideal)) (onTc (τ := τ) (main (F := Ideal))) ⟨m, fun _ => 0, ρ⟩ fun r => ∀ c : Dev nD,
      r.2.mem ((c.tc : Thread nD τ).loc main_v78) = Cert.Mpnn.GoutR (P m c) (m ((c.tc : Thread nD τ).loc main_arg0))
      ∧ r.2.mem ((c.tc : Thread nD τ).loc main_v61) = Cert.Mpnn.GattnR (P m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run (defs (F := Ideal)) _ _).mono (fun r h c =>
    ⟨(h c).1.trans (refOut_eq _ _ _ _ _ _ _ _ _ _ _ _ _), (h c).2.1.trans (refAttn_eq _ _ _ _ _ _ _ (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))), (h c).2.2⟩)
    (Cert.ReferenceIdeal.RefRun.run (F := Ideal) m ρ)

end Cert.ReferenceIdeal.RefValue

end
-- ==== Proof.lean ====
/-
  The kernel (sixteen jets per grid point: an embedding, three rounds of soft-adjacency message passing, a readout) and
  its jnp reference compute the same extended reals.

  Both programs are read against one specification of the network on a single jet (Proof/Spec.lean), written in the
  kernel's arrangement and in the reference's. The kernel's run ends with its two results at the kernel-arranged
  specification of the arguments (Proof/KFinal.lean: the eight grid points' blocks tile the result arrays; each block
  is sixteen copies of one jet's computation, Proof/KJet.lean, read entry by entry in Proof/KJetIdx.lean and
  Proof/KPieces.lean). The reference's run ends with its two results at the reference-arranged specification
  (Proof/RefValue.lean: the run taken in stretches, Proof/RefRun.lean, over the reference network Proof/RNet.lean, read
  entry by entry in Proof/ROps.lean and Proof/RNetIdx.lean). The two arrangements agree (Proof/Algebra.lean): the soft
  adjacency because every state is a tanh and hence real, so that subtracting the row maximum and dividing by the row
  sum is multiplying by the reciprocal of the unshifted row sum; the vertex update because a sum over 512 features
  splits at 256; the readout because the second readout layer is linear and its weights and bias are finite under the
  precondition (Proof/Finite.lean), so that it commutes with the sum over the 200 nodes.

  The three frames: the kernel's two are the generated frames; the reference's is its run with the results dropped.
  The idealization rewrote nothing, so the preservation claim is trivial.
-/
import proofs.«135256_g85813446574462_cont_9to1c4b_288_18_alg».proof.Defs
import proofs.«135256_g85813446574462_cont_9to1c4b_288_18_alg».proof.Proof.Gen.Kernel
import proofs.«135256_g85813446574462_cont_9to1c4b_288_18_alg».proof.Proof.Gen.Kernel.Frame
import proofs.«135256_g85813446574462_cont_9to1c4b_288_18_alg».proof.Proof.Gen.KernelIdeal
import proofs.«135256_g85813446574462_cont_9to1c4b_288_18_alg».proof.Proof.Gen.KernelIdeal.Frame
import proofs.«135256_g85813446574462_cont_9to1c4b_288_18_alg».proof.Proof.Gen.ReferenceIdeal
import proofs.«135256_g85813446574462_cont_9to1c4b_288_18_alg».proof.Proof.Gen.Pre_finite_inputs
import proofs.«135256_g85813446574462_cont_9to1c4b_288_18_alg».proof.Proof.Spec
import proofs.«135256_g85813446574462_cont_9to1c4b_288_18_alg».proof.Proof.Algebra
import proofs.«135256_g85813446574462_cont_9to1c4b_288_18_alg».proof.Proof.Finite
import proofs.«135256_g85813446574462_cont_9to1c4b_288_18_alg».proof.Proof.KFinal
import proofs.«135256_g85813446574462_cont_9to1c4b_288_18_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame: its run with the two results dropped. -/
theorem frame_referenceIdeal : @Cert.frame_ReferenceIdeal Cert.ReferenceIdeal.Gen.facts Cert.Pre_finite_inputs.Gen.facts :=
  fun m ρ _ => (θ_run (Cert.ReferenceIdeal.defs (F := Ideal)) _ _).mono (fun _ h c => (h c).2.2)
    (Cert.ReferenceIdeal.RefValue.run m ρ)

/-- From memories that agree on the thirteen arguments the two parameter records are one. -/
theorem params_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.RefValue.P m' c = Cert.KernelIdeal.Final.P m c := by
  obtain ⟨h0, h1, h2, h3, h4, h5, h6, h7, h8, h9, h10, h11, h12⟩ := h
  unfold Cert.ReferenceIdeal.RefValue.P Cert.KernelIdeal.Final.P
  rw [h1, h2, h3, h4, h5, h6, h7, h8, h9, h10, h11, h12]

/-- Both programs end with the kernel-arranged specification of the kernel's arguments: the kernel by its run, the
    reference by its run, the agreement of the arguments, and the equality of the two arrangements under the
    finiteness of the second readout layer. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Mpnn.GoutK (Cert.KernelIdeal.Final.P m c) (m ((c.tc : Thread Cert.KernelIdeal.nD Cert.KernelIdeal.τ).loc Cert.KernelIdeal.main_arg0)),
    fun c => Cert.Mpnn.GattnK (Cert.KernelIdeal.Final.P m c) (m ((c.tc : Thread Cert.KernelIdeal.nD Cert.KernelIdeal.τ).loc Cert.KernelIdeal.main_arg0)),
    Cert.KernelIdeal.Final.run m ρ, ?_⟩
  refine (θ_run (Cert.ReferenceIdeal.defs (F := Ideal)) _ _).mono (fun r h c => ⟨?_, ?_, (h c).2.2⟩)
    (Cert.ReferenceIdeal.RefValue.run m' ρ')
  · rw [(h c).1, params_agree m m' c (hagree c), (hagree c).1]
    obtain ⟨hW, hb⟩ := Cert.KernelIdeal.Finite.real_of_pre m hpre c
    exact (Cert.Mpnn.Gout_eq _ _ (fun d e => hW (ValueIdx.ix2 d e)) (fun e => hb (ValueIdx.ix1 e))).symm
  · rw [(h c).2.1, params_agree m m' c (hagree c), (hagree c).1]
    exact (Cert.Mpnn.Gattn_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
